-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x1024 : Shape := ⟨2, ![4096, 1024]⟩
abbrev S4096x1 : Shape := ⟨2, ![4096, 1]⟩
abbrev S1024x1024 : Shape := ⟨2, ![1024, 1024]⟩
abbrev S1024x1 : Shape := ⟨2, ![1024, 1]⟩
abbrev S1024 : Shape := ⟨1, ![1024]⟩
abbrev S1x1024 : Shape := ⟨2, ![1, 1024]⟩
abbrev S_ : Shape := ⟨0, ![]⟩
abbrev S4096 : Shape := ⟨1, ![4096]⟩

abbrev nBuf : Space → Nat
  | .hbm => 35
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_cst_7 : Ref sig .tc := ⟨.hbm, 31, rfl⟩
abbrev main_v17 : Ref sig .tc := ⟨.hbm, 32, rfl⟩
abbrev main_cst_8 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_20 : BitVec 32 := 0#32
  let v50 : BitVec 1 := Scalar.cmpi .ne v49 c0_i32_20
  v50

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_20 : BitVec 32 := 0#32
  let v50 : BitVec 1 := Scalar.cmpi .ne v49 c0_i32_20
  v50

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reducesTo_S4096x1_S_d0_1 : S4096x1.ReducesTo [0, 1] S_
  h_S_ : 0 < S_.numel
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .f32 = 32 ∨ (Rect.block (s := S4096x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .f32 = 32 ∨ (Rect.block (s := S4096x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .f32 = 32 ∨ (Rect.block (s := S4096x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S4096x1.size a
  hwx2_2 : ∀ i : grid2.Coords, EltTy.bits .f32 = 32 ∨ (Rect.block (s := S4096x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .f32 = 32 ∨ (Rect.block (s := S4096x1) S1024x1.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1024x4096 : Shape := ⟨2, ![1024, 4096]⟩

abbrev nBuf : Space → Nat
  | .hbm => 150
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S_, .f32⟩
  | 5 => ⟨S4096x1024, .f32⟩
  | 6 => ⟨S4096x1024, .f32⟩
  | 7 => ⟨S4096x1024, .f32⟩
  | 8 => ⟨S_, .f32⟩
  | 9 => ⟨S4096, .f32⟩
  | 10 => ⟨S4096, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096, .f32⟩
  | 19 => ⟨S4096x1024, .f32⟩
  | 20 => ⟨S_, .f32⟩
  | 21 => ⟨S4096, .f32⟩
  | 22 => ⟨S4096x1, .f32⟩
  | 23 => ⟨S4096x1024, .f32⟩
  | 24 => ⟨S_, .f32⟩
  | 25 => ⟨S4096, .f32⟩
  | 26 => ⟨S1x4096, .f32⟩
  | 27 => ⟨S4096x4096, .f32⟩
  | 28 => ⟨S4096x4096, .f32⟩
  | 29 => ⟨S4096x4096, .f32⟩
  | 30 => ⟨S1024x4096, .f32⟩
  | 31 => ⟨S4096x4096, .f32⟩
  | 32 => ⟨S_, .f32⟩
  | 33 => ⟨S4096x4096, .f32⟩
  | 34 => ⟨S4096x4096, .f32⟩
  | 35 => ⟨S4096x4096, .f32⟩
  | 36 => ⟨S_, .f32⟩
  | 37 => ⟨S4096, .f32⟩
  | 38 => ⟨S4096x1, .f32⟩
  | 39 => ⟨S_, .f32⟩
  | 40 => ⟨S4096, .f32⟩
  | 41 => ⟨S1x4096, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S4096x4096, .f32⟩
  | 56 => ⟨S4096x1, .f32⟩
  | 57 => ⟨S4096x4096, .f32⟩
  | 58 => ⟨S4096x4096, .i1⟩
  | 59 => ⟨S_, .i1⟩
  | 60 => ⟨S4096, .i1⟩
  | 61 => ⟨S_, .f32⟩
  | 62 => ⟨S_, .f32⟩
  | 63 => ⟨S4096x4096, .f32⟩
  | 64 => ⟨S4096x4096, .f32⟩
  | 65 => ⟨S_, .f32⟩
  | 66 => ⟨S4096, .f32⟩
  | 67 => ⟨S_, .f32⟩
  | 68 => ⟨S_, .f32⟩
  | 69 => ⟨S4096, .f32⟩
  | 70 => ⟨S4096, .f32⟩
  | 71 => ⟨S_, .f32⟩
  | 72 => ⟨S_, .f32⟩
  | 73 => ⟨S_, .f32⟩
  | 74 => ⟨S_, .f32⟩
  | 75 => ⟨S4096x1024, .f32⟩
  | 76 => ⟨S_, .f32⟩
  | 77 => ⟨S4096, .f32⟩
  | 78 => ⟨S4096x1, .f32⟩
  | 79 => ⟨S4096x1024, .f32⟩
  | 80 => ⟨S_, .f32⟩
  | 81 => ⟨S4096, .f32⟩
  | 82 => ⟨S1x4096, .f32⟩
  | 83 => ⟨S4096x4096, .f32⟩
  | 84 => ⟨S4096x4096, .f32⟩
  | 85 => ⟨S4096x4096, .f32⟩
  | 86 => ⟨S1024x4096, .f32⟩
  | 87 => ⟨S4096x4096, .f32⟩
  | 88 => ⟨S_, .f32⟩
  | 89 => ⟨S4096x4096, .f32⟩
  | 90 => ⟨S4096x4096, .f32⟩
  | 91 => ⟨S4096x4096, .f32⟩
  | 92 => ⟨S_, .f32⟩
  | 93 => ⟨S4096, .f32⟩
  | 94 => ⟨S4096x1, .f32⟩
  | 95 => ⟨S_, .f32⟩
  | 96 => ⟨S4096, .f32⟩
  | 97 => ⟨S1x4096, .f32⟩
  | 98 => ⟨S4096x4096, .f32⟩
  | 99 => ⟨S4096x4096, .f32⟩
  | 100 => ⟨S4096x4096, .f32⟩
  | 101 => ⟨S_, .f32⟩
  | 102 => ⟨S4096x4096, .f32⟩
  | 103 => ⟨S4096x4096, .f32⟩
  | 104 => ⟨S4096x4096, .f32⟩
  | 105 => ⟨S_, .f32⟩
  | 106 => ⟨S4096x4096, .f32⟩
  | 107 => ⟨S4096x4096, .f32⟩
  | 108 => ⟨S_, .f32⟩
  | 109 => ⟨S4096x4096, .f32⟩
  | 110 => ⟨S4096x4096, .f32⟩
  | 111 => ⟨S4096x4096, .f32⟩
  | 112 => ⟨S4096x1, .f32⟩
  | 113 => ⟨S4096x4096, .f32⟩
  | 114 => ⟨S4096x4096, .i1⟩
  | 115 => ⟨S_, .i1⟩
  | 116 => ⟨S4096, .i1⟩
  | 117 => ⟨S_, .f32⟩
  | 118 => ⟨S_, .f32⟩
  | 119 => ⟨S4096x4096, .f32⟩
  | 120 => ⟨S4096x4096, .f32⟩
  | 121 => ⟨S_, .f32⟩
  | 122 => ⟨S4096, .f32⟩
  | 123 => ⟨S_, .f32⟩
  | 124 => ⟨S_, .f32⟩
  | 125 => ⟨S4096, .f32⟩
  | 126 => ⟨S4096, .f32⟩
  | 127 => ⟨S_, .f32⟩
  | _ => ⟨S4096x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S4096, .f32⟩
  | 6 => ⟨S4096, .f32⟩
  | 7 => ⟨S_, .f32⟩
  | 8 => ⟨S_, .f32⟩
  | 9 => ⟨S4096, .f32⟩
  | 10 => ⟨S4096, .f32⟩
  | 11 => ⟨S_, .f32⟩
  | 12 => ⟨S4096, .f32⟩
  | 13 => ⟨S4096, .f32⟩
  | 14 => ⟨S_, .f32⟩
  | 15 => ⟨S_, .f32⟩
  | 16 => ⟨S4096, .f32⟩
  | 17 => ⟨S4096, .f32⟩
  | 18 => ⟨S_, .f32⟩
  | 19 => ⟨S_, .f32⟩
  | 20 => ⟨S_, .f32⟩
  | 21 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_v40 : Ref sig .tc := ⟨.hbm, 60, rfl⟩
abbrev main_cst_9 : Ref sig .tc := ⟨.hbm, 61, rfl⟩
abbrev main_call2_v0 : Ref sig .tc := ⟨.hbm, 62, rfl⟩
abbrev main_call2_v1 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_15 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_16 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_17 : Ref sig .tc := ⟨.hbm, 92, rfl⟩
abbrev main_v60 : Ref sig .tc := ⟨.hbm, 93, rfl⟩
abbrev main_v61 : Ref sig .tc := ⟨.hbm, 94, rfl⟩
abbrev main_cst_18 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_20 : Ref sig .tc := ⟨.hbm, 105, rfl⟩
abbrev main_v70 : Ref sig .tc := ⟨.hbm, 106, rfl⟩
abbrev main_v71 : Ref sig .tc := ⟨.hbm, 107, rfl⟩
abbrev main_cst_21 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_22 : Ref sig .tc := ⟨.hbm, 115, rfl⟩
abbrev main_v78 : Ref sig .tc := ⟨.hbm, 116, rfl⟩
abbrev main_cst_23 : Ref sig .tc := ⟨.hbm, 117, rfl⟩
abbrev main_call4_v0 : Ref sig .tc := ⟨.hbm, 118, rfl⟩
abbrev main_call4_v1 : Ref sig .tc := ⟨.hbm, 119, rfl⟩
abbrev main_v79 : Ref sig .tc := ⟨.hbm, 120, rfl⟩
abbrev main_cst_24 : Ref sig .tc := ⟨.hbm, 121, rfl⟩
abbrev main_v80 : Ref sig .tc := ⟨.hbm, 122, rfl⟩
abbrev main_cst_25 : Ref sig .tc := ⟨.hbm, 123, rfl⟩
abbrev main_call5_v0 : Ref sig .tc := ⟨.hbm, 124, rfl⟩
abbrev main_call5_v1 : Ref sig .tc := ⟨.hbm, 125, rfl⟩
abbrev main_v81 : Ref sig .tc := ⟨.hbm, 126, rfl⟩
abbrev main_cst_26 : Ref sig .tc := ⟨.hbm, 127, rfl⟩
abbrev main_v82 : Ref sig .tc := ⟨.hbm, 128, rfl⟩
abbrev main_cst_27 : Ref sig .tc := ⟨.hbm, 129, rfl⟩
abbrev main_v83 : Ref sig .tc := ⟨.hbm, 130, rfl⟩
abbrev main_cst_28 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_29 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_30 : Ref sig .tc := ⟨.hbm, 139, rfl⟩
abbrev main_v90 : Ref sig .tc := ⟨.hbm, 140, rfl⟩
abbrev main_v91 : Ref sig .tc := ⟨.hbm, 141, rfl⟩
abbrev main_cst_31 : Ref sig .tc := ⟨.hbm, 142, rfl⟩
abbrev main_call6_v0 : Ref sig .tc := ⟨.hbm, 143, rfl⟩
abbrev main_call6_v1 : Ref sig .tc := ⟨.hbm, 144, rfl⟩
abbrev main_v92 : Ref sig .tc := ⟨.hbm, 145, rfl⟩
abbrev main_cst_32 : Ref sig .tc := ⟨.hbm, 146, rfl⟩
abbrev main_v93 : Ref sig .tc := ⟨.hbm, 147, rfl⟩
abbrev main_cst_33 : Ref sig .tc := ⟨.hbm, 148, rfl⟩
abbrev main_v94 : Ref sig .tc := ⟨.hbm, 149, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibWholeStore.lean ====
/-
  Stores through the rectangle that is the whole buffer (offset zero on every axis, the buffer's own sizes).

  Such a rectangle holds every index, so a list of pieces that begins with one covers the buffer whatever
  follows it, and what the buffer reads back after those writes is the first piece's payload. The zero
  offsets of ranks two and three are stated once, in the form the library's unit-rectangle lemmas take them.
-/
import Idealize.ShloMosaic.Lib.Pipeline.FrameBody
import Idealize.ShloMosaic.Lib.Pipeline.Value

noncomputable section

namespace WholeStore

open Idealize.ShloMosaic

variable {Val : EltTy → Type} {S : Shape} {e : EltTy}

/-- Every index lies in the whole-buffer rectangle: a piece list headed by a store through it covers the buffer. -/
theorem cover_cons {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-- The one-piece case. -/
theorem cover_one {off : Fin S.rank → Nat} (h : off = fun _ => 0)
    (inb : ∀ a, off a + S.size a ≤ S.size a) (w : S.Idx → Val e) (y : S.Idx) :
    ∃ p ∈ ([⟨Rect.unit off S.size inb, w⟩] : List (View.Piece Val S e)), y ∈ p.1.set :=
  cover_cons h inb w [] y

/-- The offsets of a rank-2 and a rank-3 whole-buffer access are zero on every axis. -/
theorem zero2 : (![0, 0] : Fin 2 → Nat) = fun _ => 0 := by funext a; fin_cases a <;> rfl
theorem zero3 : (![0, 0, 0] : Fin 3 → Nat) = fun _ => 0 := by funext a; fin_cases a <;> rfl

end WholeStore

end
-- ==== Proof.R0.lean ====
/-
  Region 0 of the kernel's program: the row distances. At grid point t the body reads the t-th block of 1024 rows of
  the anchors, the positives and the negatives, and stores into its two output blocks the 1024 distances
  sqrt (Σ_k (a − p + ε)²) and sqrt (Σ_k (a − n + ε)²) of those rows: each output block is ONE whole-block store of a
  value that is a function of the two input blocks it reads. Nothing is carried from point to point.
  Stated at a parameter V, the buffers' contents when the region is entered, and at any float instance.
-/
import proofs.«110565_j10264971838200_1_alg».proof.Proof.Gen.KernelIdeal.Launch
import proofs.«110565_j10264971838200_1_alg».proof.Proof.Gen.KernelIdeal.Skeleton
import proofs.«110565_j10264971838200_1_alg».proof.Proof.Gen.KernelIdeal.Points
import proofs.«110565_j10264971838200_1_alg».proof.Proof.LibWholeStore
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not: the blocks tile the arrays
    and the body leaves an input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one access rectangle of each buffer shape: the whole buffer. -/
abbrev rM0 : Rect S1024x1024 := Rect.unit (s := S1024x1024) ![0, 0] S1024x1024.size inb_S1024x1024_S1024x1024_0_0
abbrev rC0 : Rect S1024x1 := Rect.unit (s := S1024x1) ![0, 0] S1024x1.size inb_S1024x1_S1024x1_0_0

/-- What the body leaves in the first output block: its one store, of the anchor–positive distances of the block's rows. -/
def out0_3 (x0 x1 : Vec F S1024x1024 .f32) : Vec F S1024x1 .f32 :=
  View.canon [⟨rC0, k0_pay1 (View.ld x0 rM0) (View.ld x1 rM0)⟩]
/-- And in the second: the anchor–negative distances. -/
def out0_4 (x0 x2 : Vec F S1024x1024 .f32) : Vec F S1024x1 .f32 :=
  View.canon [⟨rC0, k0_pay2 (View.ld x0 rM0) (View.ld x2 rM0)⟩]

/-- A whole-block store read back whole is the stored value. -/
theorem out0_3_eq (x0 x1 : Vec F S1024x1024 .f32) : out0_3 x0 x1 = k0_pay1 x0 x1 := by
  unfold out0_3
  rw [View.canon_unit_zero WholeStore.zero2]
  simp only [View.ld_unit_zero (S := S1024x1024) WholeStore.zero2]
theorem out0_4_eq (x0 x2 : Vec F S1024x1024 .f32) : out0_4 x0 x2 = k0_pay2 x0 x2 := by
  unfold out0_4
  rw [View.canon_unit_zero WholeStore.zero2]
  simp only [View.ld_unit_zero (S := S1024x1024) WholeStore.zero2]

set_option maxHeartbeats 1000000 in
/-- The body on whole staging buffers: the three inputs at contents x0, x1, x2 and the two outputs at anything run to
    the inputs as they were and the outputs at the two stored values. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1 .f32) (harg4 : arg4.IsWhole)
    (arg5 : Memref sig .tc .vmem S1024x1 .f32) (harg5 : arg5.IsWhole)
    (x0 x1 x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0_rowdist_kernel i arg1 harg1 arg2 harg2 arg3 harg3 arg4 harg4 arg5 harg5) K := by
  simp only [cc0_rowdist_kernel_eq_skeleton]; unfold cc0_rowdist_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (WholeStore.cover_one WholeStore.zero2 _ _)
  iexists _; isplitr
  swap; · iexact H4
  ipureintro
  exact View.read_writes_eq_canon _ _ _ (WholeStore.cover_one WholeStore.zero2 _ _)

/-- The proof data of the row-distance region on core c: the arrays as the region finds them; after the body at point t
    each input's buffer at its block and each output's at the stored distances of the point's blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the kernel's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1.lean ====
/-
  Region 1 of the kernel's program: the hardest negative of every anchor. The grid is 4 × 4: point t = 4 i + j pairs the
  i-th block of 1024 anchors with the j-th block of 1024 negatives. A scratch column of 1024 running maxima is carried
  from point to point: reset to −∞ where j = 0, then at every point raised by the row maxima of the block's masked
  pairwise distances (a distance counts where it lies strictly below the anchor's distance to its own positive), and
  where j = 3 written out — with 0 in place of a maximum that is still −∞ — into the i-th output block, which the
  pipeline writes back there and nowhere else.
  Stated at a parameter V, the buffers' contents when the region is entered, and at any float instance: the body's
  arithmetic stays inside the named payloads.
  The body has three courses, told apart by j alone: j = 0 (reset, raise), j = 1, 2 (raise), j = 3 (raise, write out).
  Each is run once on whole buffers at given contents; the body obligation at point t picks the course from t mod 4,
  takes the column's contents from the invariant and gives the column back at the raised maxima.
-/
import proofs.«110565_j10264971838200_1_alg».proof.Proof.Gen.KernelIdeal.Launch
import proofs.«110565_j10264971838200_1_alg».proof.Proof.Gen.KernelIdeal.Skeleton
import proofs.«110565_j10264971838200_1_alg».proof.Proof.Gen.KernelIdeal.Points
import proofs.«110565_j10264971838200_1_alg».proof.Proof.LibWholeStore
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not: the blocks tile the arrays,
    the body leaves an input block in place, and a point that does not fetch a window has that window's block index
    unchanged from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scratch column the kernel carries, as a whole-buffer memref. -/
abbrev scM1 : Memref sig .tc .vmem S1024x1 .f32 := Memref.whole cc1_scratch0

/-! The two conditions the body branches on, in closed form over the grid. -/

/-- The first condition, as the body computes it from the point's coordinates: the negatives' block is the first of its row. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second condition: the negatives' block is the last of its row. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! Where the windows are idle: the inputs never; the output wherever the second condition fails, and there it is not written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem liveAt1_3 : ∀ t : Fin cfg1.N, cond1_1 (grid1.coords t) → cfg1.idle 3 (grid1.coords t) = false := by decide +kernel
theorem noFlush1_3 : ∀ t : Fin cfg1.N, ¬cond1_1 (grid1.coords t) → (cfg1.win 3).flush t = false := by decide +kernel

/-- One point's update of the running maxima: from the anchors' block xa, the negatives' block xn, the column xd of the
    anchors' distances to their positives and the maxima s so far. -/
def step1 (xa xn : Vec F S1024x1024 .f32) (xd s : Vec F S1024x1 .f32) : Vec F S1024x1 .f32 :=
  k1_pay1 (k1_pay4 xa xn) (k1_pay5 xa xn xd) (Scalar.ofBits .f32 0xFF800000#32) s

/-- What the scratch column holds after point n: the update of the point's blocks over −∞ where a row of points begins
    (n ≡ 0 mod 4), over what the point before left otherwise. -/
def acc1 (c : Dev nD) : (n : ℕ) → n < cfg1.N → Vec F S1024x1 .f32
  | 0, hn => step1 (iblk1 V c 0 ⟨0, hn⟩) (iblk1 V c 1 ⟨0, hn⟩) (iblk1 V c 2 ⟨0, hn⟩) (k1_pay3 (F := F))
  | n + 1, hn => step1 (iblk1 V c 0 ⟨n + 1, hn⟩) (iblk1 V c 1 ⟨n + 1, hn⟩) (iblk1 V c 2 ⟨n + 1, hn⟩)
      (if (n + 1) % 4 = 0 then k1_pay3 (F := F) else acc1 c n (Nat.lt_of_succ_lt hn))

theorem acc1_first (c : Dev nD) (t : Fin cfg1.N) (h : t.val % 4 = 0) :
    acc1 V c t.val t.isLt = step1 (iblk1 V c 0 t) (iblk1 V c 1 t) (iblk1 V c 2 t) (k1_pay3 (F := F)) := by
  obtain ⟨n, hn⟩ := t
  cases n with
  | zero => rfl
  | succ n => exact congrArg (step1 _ _ _) (if_pos h)
theorem acc1_next (c : Dev nD) (t : Fin cfg1.N) (h : t.val % 4 ≠ 0) :
    acc1 V c t.val t.isLt = step1 (iblk1 V c 0 t) (iblk1 V c 1 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n => exact congrArg (step1 _ _ _) (if_neg h)

/-- What the output block holds where it is stored (j = 3): the maxima, with 0 for one that is still −∞. -/
def out1_3 (s : Vec F S1024x1 .f32) : Vec F S1024x1 .f32 := k1_pay2 s s

set_option maxHeartbeats 1000000 in
/-- The body where a row of points begins (first condition, not the second), on whole buffers: the three inputs at
    contents xa, xn, xd, the output at y, the scratch column at anything. It resets the column to −∞, reads it back and
    raises it by the block's masked row maxima: the inputs and the output come back as they were, the column holds the
    update of −∞. -/
theorem run1_A (c : Dev nD) (E : Set ℕ) (i : grid1.Coords) (hc0 : cond1_0 i) (hc1 : ¬cond1_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd y : Vec F S1024x1 .f32) (K : PUnit → sProp 𝕄) :
    iprop(owns (c : Thread nD τ) arg2 fullShare xa ∗ owns (c : Thread nD τ) arg3 fullShare xn ∗ owns (c : Thread nD τ) arg4 fullShare xd
        ∗ owns (c : Thread nD τ) arg5 fullShare y ∗ (∃ d, owns (c : Thread nD τ) arg6 fullShare d)
        ∗ (iprop(owns (c : Thread nD τ) arg2 fullShare xa ∗ owns (c : Thread nD τ) arg3 fullShare xn ∗ owns (c : Thread nD τ) arg4 fullShare xd
            ∗ owns (c : Thread nD τ) arg5 fullShare y ∗ owns (c : Thread nD τ) arg6 fullShare (step1 xa xn xd (k1_pay3 (F := F)))) -∗ K ⟨⟩))
      ⊢ wp frame (wpE (defs₀ (F := F)) Variants.none c none) E (cc1_hard_neg_kernel i arg2 harg2 arg3 harg3 arg4 harg4 arg5 harg5 arg6 harg6) K := by
  simp only [cc1_hard_neg_kernel_eq_skeleton]; unfold cc1_hard_neg_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (WholeStore.cover_cons WholeStore.zero2 _ _ _), View.canon_cons_unit_zero WholeStore.zero2]
  dsimp only
  simp only [View.readAt_eq_ld, View.ld_unit_zero (S := S1024x1024) WholeStore.zero2, View.ld_unit_zero (S := S1024x1) WholeStore.zero2,
    View.readCov_unit_zero (S := S1024x1) _ WholeStore.zero2]
  rfl

set_option maxHeartbeats 1000000 in
/-- The body inside a row of points (neither condition): the scratch column at contents s is raised by the block's masked
    row maxima; the inputs and the output come back as they were. -/
theorem run1_B (c : Dev nD) (E : Set ℕ) (i : grid1.Coords) (hc0 : ¬cond1_0 i) (hc1 : ¬cond1_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd y s : Vec F S1024x1 .f32) (K : PUnit → sProp 𝕄) :
    iprop(owns (c : Thread nD τ) arg2 fullShare xa ∗ owns (c : Thread nD τ) arg3 fullShare xn ∗ owns (c : Thread nD τ) arg4 fullShare xd
        ∗ owns (c : Thread nD τ) arg5 fullShare y ∗ owns (c : Thread nD τ) arg6 fullShare s
        ∗ (iprop(owns (c : Thread nD τ) arg2 fullShare xa ∗ owns (c : Thread nD τ) arg3 fullShare xn ∗ owns (c : Thread nD τ) arg4 fullShare xd
            ∗ owns (c : Thread nD τ) arg5 fullShare y ∗ owns (c : Thread nD τ) arg6 fullShare (step1 xa xn xd s)) -∗ K ⟨⟩))
      ⊢ wp frame (wpE (defs₀ (F := F)) Variants.none c none) E (cc1_hard_neg_kernel i arg2 harg2 arg3 harg3 arg4 harg4 arg5 harg5 arg6 harg6) K := by
  simp only [cc1_hard_neg_kernel_eq_skeleton]; unfold cc1_hard_neg_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (WholeStore.cover_one WholeStore.zero2 _ _), View.canon_unit_zero WholeStore.zero2]
  dsimp only
  simp only [View.readAt_eq_ld, View.ld_unit_zero (S := S1024x1024) WholeStore.zero2, View.ld_unit_zero (S := S1024x1) WholeStore.zero2]
  rfl

set_option maxHeartbeats 1000000 in
/-- The body where a row of points ends (the second condition, not the first): the scratch column at contents s is raised
    as before, read back, and written — with 0 for a maximum still −∞ — into the output buffer, whatever that held. -/
theorem run1_C (c : Dev nD) (E : Set ℕ) (i : grid1.Coords) (hc0 : ¬cond1_0 i) (hc1 : cond1_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd s : Vec F S1024x1 .f32) (K : PUnit → sProp 𝕄) :
    iprop(owns (c : Thread nD τ) arg2 fullShare xa ∗ owns (c : Thread nD τ) arg3 fullShare xn ∗ owns (c : Thread nD τ) arg4 fullShare xd
        ∗ (∃ d, owns (c : Thread nD τ) arg5 fullShare d) ∗ owns (c : Thread nD τ) arg6 fullShare s
        ∗ (iprop(owns (c : Thread nD τ) arg2 fullShare xa ∗ owns (c : Thread nD τ) arg3 fullShare xn ∗ owns (c : Thread nD τ) arg4 fullShare xd
            ∗ owns (c : Thread nD τ) arg5 fullShare (out1_3 (step1 xa xn xd s)) ∗ owns (c : Thread nD τ) arg6 fullShare (step1 xa xn xd s)) -∗ K ⟨⟩))
      ⊢ wp frame (wpE (defs₀ (F := F)) Variants.none c none) E (cc1_hard_neg_kernel i arg2 harg2 arg3 harg3 arg4 harg4 arg5 harg5 arg6 harg6) K := by
  simp only [cc1_hard_neg_kernel_eq_skeleton]; unfold cc1_hard_neg_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (WholeStore.cover_one WholeStore.zero2 _ _), View.canon_unit_zero WholeStore.zero2]
    dsimp only
    simp only [View.readAt_eq_ld, View.ld_unit_zero (S := S1024x1024) WholeStore.zero2, View.ld_unit_zero (S := S1024x1) WholeStore.zero2,
      View.readCov_unit_zero (S := S1024x1) _ WholeStore.zero2]
    rfl
  iexists _; isplitr
  swap; · iexact H6
  ipureintro
  sl_unfold_words
  rw [View.read_writes_eq_canon _ _ _ (WholeStore.cover_one WholeStore.zero2 _ _), View.canon_unit_zero WholeStore.zero2]
  dsimp only
  simp only [View.readAt_eq_ld, View.ld_unit_zero (S := S1024x1024) WholeStore.zero2, View.ld_unit_zero (S := S1024x1) WholeStore.zero2]
  rfl

/-- The core's scoped buffers that are neither a staging buffer of this region nor its scratch column, each at some contents. -/
def rest1 (c : Dev nD) : sProp 𝕄 :=
  Pipeline.scopedRestBut (Ix := Unit) (Name := ℕ) (U := UR sig nD τ) (Lvl := ℕ) (Val := Elt F) spec1 c [cc1_scratch0]

/-- The class's invariant with the scratch column taken out of the scoped rest and owned, as a whole memref, at some
    contents: the column is scoped and no staging buffer, so the rest splits at it. -/
theorem PhiA1_eq (c : Dev nD) :
    (Pipeline.ΦA spec1 c : sProp 𝕄)
      = iprop(((∃ d, owns (c : Thread nD τ) scM1 fullShare d) ∗ rest1 (F := F) c) ∗ ∃ r, prngReg c r) := by
  unfold Pipeline.ΦA rest1
  rw [Pipeline.scopedRest_split_of_list spec1 c [cc1_scratch0] (by decide) (by decide)]
  simp only [bigSepL_singleton, scM1, owns_whole]
  rfl

/-- The region's invariant before point n: before the first point the class's (every scoped buffer that is no staging
    buffer at anything, the generator register at some state); afterwards the same with the scratch column at what the
    point before left in it. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ ∃ r, prngReg c r)

theorem Phi1_zero (c : Dev nD) (n : ℕ) (h : n ≤ cfg1.N) (hz : n = 0) : Phi1 V c n h = Pipeline.ΦA spec1 c := by
  subst hz; rfl
/-- After point n: the column at that point's maxima. -/
theorem Phi1_succ (c : Dev nD) (n : ℕ) (hn : n < cfg1.N) :
    Phi1 V c (n + 1) hn = iprop(owns (c : Thread nD τ) scM1 fullShare (acc1 V c n hn) ∗ rest1 (F := F) c ∗ ∃ r, prngReg c r) := rfl
/-- Before a point that is not the first: the column at what the point before left. -/
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c ∗ ∃ r, prngReg c r) := by
  cases n with
  | zero => exact absurd rfl hz
  | succ n => rfl

/-- The proof data of the region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start, restated at the point's number. -/
theorem Phi1_castSucc (c : Dev nD) (t : Fin cfg1.N) :
    (dat1 V c).Φ t.castSucc = Phi1 V c t.val (Nat.le_of_lt t.isLt) := by
  dsimp only [dat1]; simp only [Fin.coe_castSucc]

/-- Entering the region: the class's invariant is the invariant before the first point. -/
theorem Phi1_in (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _
/-- Leaving it: the scratch column is forgotten again. -/
theorem Phi1_out (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega), PhiA1_eq]
  iintro ⟨HS, HR, Hg⟩
  isplitl [HS HR]
  · isplitl [HS]
    · iexists _; iexact HS
    iexact HR
  iexact Hg

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: each window's buffer at what the body leaves, the output's as it was found where the body
    stores nothing into it. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point. The inputs' buffers hold their blocks. By t mod 4 the point is in one of the three courses;
    the invariant hands the body the scratch column — at anything before the first point, else at what the point before
    left, which a point with j = 0 does not read —, the course's run applies, and the column goes back into the invariant
    at this point's maxima. Where j ≠ 3 the output's buffer is idle and goes back as found; where j = 3 it holds the
    maxima written out. The scoped rest, the generator register and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 16 := lt_of_lt_of_eq t.isLt (show cfg1.N = 16 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [acc1_first V c t h0]
    by_cases hz : t.val = 0
    · rw [Phi1_castSucc V c t, Phi1_zero V c _ _ hz, PhiA1_eq]
      iintro ⟨⟨⟨HS, HR⟩, Hg⟩, Ho, ⟨%d0, H0⟩, ⟨%d1, H1⟩, ⟨%d2, H2⟩, ⟨%d3, H3⟩⟩
      iapply (run1_A c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨HS, HR, Hg⟩, Ho, ⟨%d0, H0⟩, ⟨%d1, H1⟩, ⟨%d2, H2⟩, ⟨%d3, H3⟩⟩
      iapply (run1_A c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    rw [acc1_next V c t h0]
    rw [Phi1_castSucc V c t, Phi1_pos V c _ _ hz]
    by_cases h1 : t.val % 4 = 3
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, acc1_next V c t h0]
      iintro ⟨⟨HS, HR, Hg⟩, Ho, ⟨%d0, H0⟩, ⟨%d1, H1⟩, ⟨%d2, H2⟩, ⟨%d3, H3⟩⟩
      iapply (run1_C c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨HS, HR, Hg⟩, Ho, ⟨%d0, H0⟩, ⟨%d1, H1⟩, ⟨%d2, H2⟩, ⟨%d3, H3⟩⟩
      iapply (run1_B c Set.univ (grid1.coords t) hc0 hc1 _ _ _ _ _ _ _ _ _ _ (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R2.lean ====
/-
  Region 2 of the kernel's program: the hardest positive of every anchor. The grid is 4 × 4: point t = 4 i + j pairs the
  i-th block of 1024 anchors with the j-th block of 1024 positives. A scratch column of 1024 running minima is carried
  from point to point: reset to +∞ where j = 0, then at every point lowered by the row minima of the block's masked
  pairwise distances (a distance counts where it lies strictly above the anchor's distance to its own negative), and
  where j = 3 written out — with 0 in place of a minimum that is still +∞ — into the i-th output block, which the
  pipeline writes back there and nowhere else.
  Stated at a parameter V, the buffers' contents when the region is entered, and at any float instance: the body's
  arithmetic stays inside the named payloads.
  The body has three courses, told apart by j alone: j = 0 (reset, lower), j = 1, 2 (lower), j = 3 (lower, write out).
  Each is run once on whole buffers at given contents; the body obligation at point t picks the course from t mod 4,
  takes the column's contents from the invariant and gives the column back at the lowered minima.
-/
import proofs.«110565_j10264971838200_1_alg».proof.Proof.Gen.KernelIdeal.Launch
import proofs.«110565_j10264971838200_1_alg».proof.Proof.Gen.KernelIdeal.Skeleton
import proofs.«110565_j10264971838200_1_alg».proof.Proof.Gen.KernelIdeal.Points
import proofs.«110565_j10264971838200_1_alg».proof.Proof.LibWholeStore
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, fetched there or not: the blocks tile the arrays,
    the body leaves an input block in place, and a point that does not fetch a window has that window's block index
    unchanged from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The scratch column the kernel carries, as a whole-buffer memref. -/
abbrev scM2 : Memref sig .tc .vmem S1024x1 .f32 := Memref.whole cc2_scratch0

/-! The two conditions the body branches on, in closed form over the grid. -/

/-- The first condition, as the body computes it from the point's coordinates: the positives' block is the first of its row. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)
/-- The second condition: the positives' block is the last of its row. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! Where the windows are idle: the inputs never; the output wherever the second condition fails, and there it is not written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem liveAt2_3 : ∀ t : Fin cfg2.N, cond2_1 (grid2.coords t) → cfg2.idle 3 (grid2.coords t) = false := by decide +kernel
theorem noFlush2_3 : ∀ t : Fin cfg2.N, ¬cond2_1 (grid2.coords t) → (cfg2.win 3).flush t = false := by decide +kernel

/-- One point's update of the running minima: from the anchors' block xa, the positives' block xn, the column xd of the
    anchors' distances to their negatives and the minima s so far. -/
def step2 (xa xn : Vec F S1024x1024 .f32) (xd s : Vec F S1024x1 .f32) : Vec F S1024x1 .f32 :=
  k2_pay1 (k2_pay4 xa xn) (k2_pay5 xa xn xd) (Scalar.ofBits .f32 0x7F800000#32) s

/-- What the scratch column holds after point n: the update of the point's blocks over +∞ where a row of points begins
    (n ≡ 0 mod 4), over what the point before left otherwise. -/
def acc2 (c : Dev nD) : (n : ℕ) → n < cfg2.N → Vec F S1024x1 .f32
  | 0, hn => step2 (iblk2 V c 0 ⟨0, hn⟩) (iblk2 V c 1 ⟨0, hn⟩) (iblk2 V c 2 ⟨0, hn⟩) (k2_pay3 (F := F))
  | n + 1, hn => step2 (iblk2 V c 0 ⟨n + 1, hn⟩) (iblk2 V c 1 ⟨n + 1, hn⟩) (iblk2 V c 2 ⟨n + 1, hn⟩)
      (if (n + 1) % 4 = 0 then k2_pay3 (F := F) else acc2 c n (Nat.lt_of_succ_lt hn))

theorem acc2_first (c : Dev nD) (t : Fin cfg2.N) (h : t.val % 4 = 0) :
    acc2 V c t.val t.isLt = step2 (iblk2 V c 0 t) (iblk2 V c 1 t) (iblk2 V c 2 t) (k2_pay3 (F := F)) := by
  obtain ⟨n, hn⟩ := t
  cases n with
  | zero => rfl
  | succ n => exact congrArg (step2 _ _ _) (if_pos h)
theorem acc2_next (c : Dev nD) (t : Fin cfg2.N) (h : t.val % 4 ≠ 0) :
    acc2 V c t.val t.isLt = step2 (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd (Nat.zero_mod _) h
  | succ n => exact congrArg (step2 _ _ _) (if_neg h)

/-- What the output block holds where it is stored (j = 3): the minima, with 0 for one that is still +∞. -/
def out2_3 (s : Vec F S1024x1 .f32) : Vec F S1024x1 .f32 := k2_pay2 s s

set_option maxHeartbeats 1000000 in
/-- The body where a row of points begins (first condition, not the second), on whole buffers: the three inputs at
    contents xa, xn, xd, the output at y, the scratch column at anything. It resets the column to +∞, reads it back and
    lowers it by the block's masked row minima: the inputs and the output come back as they were, the column holds the
    update of +∞. -/
theorem run2_A (c : Dev nD) (E : Set ℕ) (i : grid2.Coords) (hc0 : cond2_0 i) (hc1 : ¬cond2_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd y : Vec F S1024x1 .f32) (K : PUnit → sProp 𝕄) :
    iprop(owns (c : Thread nD τ) arg2 fullShare xa ∗ owns (c : Thread nD τ) arg3 fullShare xn ∗ owns (c : Thread nD τ) arg4 fullShare xd
        ∗ owns (c : Thread nD τ) arg5 fullShare y ∗ (∃ d, owns (c : Thread nD τ) arg6 fullShare d)
        ∗ (iprop(owns (c : Thread nD τ) arg2 fullShare xa ∗ owns (c : Thread nD τ) arg3 fullShare xn ∗ owns (c : Thread nD τ) arg4 fullShare xd
            ∗ owns (c : Thread nD τ) arg5 fullShare y ∗ owns (c : Thread nD τ) arg6 fullShare (step2 xa xn xd (k2_pay3 (F := F)))) -∗ K ⟨⟩))
      ⊢ wp frame (wpE (defs₀ (F := F)) Variants.none c none) E (cc2_hard_pos_kernel i arg2 harg2 arg3 harg3 arg4 harg4 arg5 harg5 arg6 harg6) K := by
  simp only [cc2_hard_pos_kernel_eq_skeleton]; unfold cc2_hard_pos_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (WholeStore.cover_cons WholeStore.zero2 _ _ _), View.canon_cons_unit_zero WholeStore.zero2]
  dsimp only
  simp only [View.readAt_eq_ld, View.ld_unit_zero (S := S1024x1024) WholeStore.zero2, View.ld_unit_zero (S := S1024x1) WholeStore.zero2,
    View.readCov_unit_zero (S := S1024x1) _ WholeStore.zero2]
  rfl

set_option maxHeartbeats 1000000 in
/-- The body inside a row of points (neither condition): the scratch column at contents s is lowered by the block's masked
    row minima; the inputs and the output come back as they were. -/
theorem run2_B (c : Dev nD) (E : Set ℕ) (i : grid2.Coords) (hc0 : ¬cond2_0 i) (hc1 : ¬cond2_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd y s : Vec F S1024x1 .f32) (K : PUnit → sProp 𝕄) :
    iprop(owns (c : Thread nD τ) arg2 fullShare xa ∗ owns (c : Thread nD τ) arg3 fullShare xn ∗ owns (c : Thread nD τ) arg4 fullShare xd
        ∗ owns (c : Thread nD τ) arg5 fullShare y ∗ owns (c : Thread nD τ) arg6 fullShare s
        ∗ (iprop(owns (c : Thread nD τ) arg2 fullShare xa ∗ owns (c : Thread nD τ) arg3 fullShare xn ∗ owns (c : Thread nD τ) arg4 fullShare xd
            ∗ owns (c : Thread nD τ) arg5 fullShare y ∗ owns (c : Thread nD τ) arg6 fullShare (step2 xa xn xd s)) -∗ K ⟨⟩))
      ⊢ wp frame (wpE (defs₀ (F := F)) Variants.none c none) E (cc2_hard_pos_kernel i arg2 harg2 arg3 harg3 arg4 harg4 arg5 harg5 arg6 harg6) K := by
  simp only [cc2_hard_pos_kernel_eq_skeleton]; unfold cc2_hard_pos_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (WholeStore.cover_one WholeStore.zero2 _ _), View.canon_unit_zero WholeStore.zero2]
  dsimp only
  simp only [View.readAt_eq_ld, View.ld_unit_zero (S := S1024x1024) WholeStore.zero2, View.ld_unit_zero (S := S1024x1) WholeStore.zero2]
  rfl

set_option maxHeartbeats 1000000 in
/-- The body where a row of points ends (the second condition, not the first): the scratch column at contents s is lowered
    as before, read back, and written — with 0 for a minimum still +∞ — into the output buffer, whatever that held. -/
theorem run2_C (c : Dev nD) (E : Set ℕ) (i : grid2.Coords) (hc0 : ¬cond2_0 i) (hc1 : cond2_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd s : Vec F S1024x1 .f32) (K : PUnit → sProp 𝕄) :
    iprop(owns (c : Thread nD τ) arg2 fullShare xa ∗ owns (c : Thread nD τ) arg3 fullShare xn ∗ owns (c : Thread nD τ) arg4 fullShare xd
        ∗ (∃ d, owns (c : Thread nD τ) arg5 fullShare d) ∗ owns (c : Thread nD τ) arg6 fullShare s
        ∗ (iprop(owns (c : Thread nD τ) arg2 fullShare xa ∗ owns (c : Thread nD τ) arg3 fullShare xn ∗ owns (c : Thread nD τ) arg4 fullShare xd
            ∗ owns (c : Thread nD τ) arg5 fullShare (out2_3 (step2 xa xn xd s)) ∗ owns (c : Thread nD τ) arg6 fullShare (step2 xa xn xd s)) -∗ K ⟨⟩))
      ⊢ wp frame (wpE (defs₀ (F := F)) Variants.none c none) E (cc2_hard_pos_kernel i arg2 harg2 arg3 harg3 arg4 harg4 arg5 harg5 arg6 harg6) K := by
  simp only [cc2_hard_pos_kernel_eq_skeleton]; unfold cc2_hard_pos_kernel_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (WholeStore.cover_one WholeStore.zero2 _ _), View.canon_unit_zero WholeStore.zero2]
    dsimp only
    simp only [View.readAt_eq_ld, View.ld_unit_zero (S := S1024x1024) WholeStore.zero2, View.ld_unit_zero (S := S1024x1) WholeStore.zero2,
      View.readCov_unit_zero (S := S1024x1) _ WholeStore.zero2]
    rfl
  iexists _; isplitr
  swap; · iexact H6
  ipureintro
  sl_unfold_words
  rw [View.read_writes_eq_canon _ _ _ (WholeStore.cover_one WholeStore.zero2 _ _), View.canon_unit_zero WholeStore.zero2]
  dsimp only
  simp only [View.readAt_eq_ld, View.ld_unit_zero (S := S1024x1024) WholeStore.zero2, View.ld_unit_zero (S := S1024x1) WholeStore.zero2]
  rfl

/-- The core's scoped buffers that are neither a staging buffer of this region nor its scratch column, each at some contents. -/
def rest2 (c : Dev nD) : sProp 𝕄 :=
  Pipeline.scopedRestBut (Ix := Unit) (Name := ℕ) (U := UR sig nD τ) (Lvl := ℕ) (Val := Elt F) spec2 c [cc2_scratch0]

/-- The class's invariant with the scratch column taken out of the scoped rest and owned, as a whole memref, at some
    contents: the column is scoped and no staging buffer, so the rest splits at it. -/
theorem PhiA2_eq (c : Dev nD) :
    (Pipeline.ΦA spec2 c : sProp 𝕄)
      = iprop(((∃ d, owns (c : Thread nD τ) scM2 fullShare d) ∗ rest2 (F := F) c) ∗ ∃ r, prngReg c r) := by
  unfold Pipeline.ΦA rest2
  rw [Pipeline.scopedRest_split_of_list spec2 c [cc2_scratch0] (by decide) (by decide)]
  simp only [bigSepL_singleton, scM2, owns_whole]
  rfl

/-- The region's invariant before point n: before the first point the class's (every scoped buffer that is no staging
    buffer at anything, the generator register at some state); afterwards the same with the scratch column at what the
    point before left in it. -/
def Phi2 (c : Dev nD) : (n : ℕ) → n ≤ cfg2.N → sProp 𝕄
  | 0, _ => Pipeline.ΦA spec2 c
  | n + 1, hn => iprop(owns (c : Thread nD τ) scM2 fullShare (acc2 V c n hn) ∗ rest2 (F := F) c ∗ ∃ r, prngReg c r)

theorem Phi2_zero (c : Dev nD) (n : ℕ) (h : n ≤ cfg2.N) (hz : n = 0) : Phi2 V c n h = Pipeline.ΦA spec2 c := by
  subst hz; rfl
/-- After point n: the column at that point's minima. -/
theorem Phi2_succ (c : Dev nD) (n : ℕ) (hn : n < cfg2.N) :
    Phi2 V c (n + 1) hn = iprop(owns (c : Thread nD τ) scM2 fullShare (acc2 V c n hn) ∗ rest2 (F := F) c ∗ ∃ r, prngReg c r) := rfl
/-- Before a point that is not the first: the column at what the point before left. -/
theorem Phi2_pos (c : Dev nD) (n : ℕ) (h : n ≤ cfg2.N) (hz : n ≠ 0) :
    Phi2 V c n h = iprop(owns (c : Thread nD τ) scM2 fullShare (acc2 V c (n - 1) (by omega)) ∗ rest2 (F := F) c ∗ ∃ r, prngReg c r) := by
  cases n with
  | zero => exact absurd rfl hz
  | succ n => rfl

/-- The proof data of the region on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (acc2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The invariant at a point's start, restated at the point's number. -/
theorem Phi2_castSucc (c : Dev nD) (t : Fin cfg2.N) :
    (dat2 V c).Φ t.castSucc = Phi2 V c t.val (Nat.le_of_lt t.isLt) := by
  dsimp only [dat2]; simp only [Fin.coe_castSucc]

/-- Entering the region: the class's invariant is the invariant before the first point. -/
theorem Phi2_in (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _
/-- Leaving it: the scratch column is forgotten again. -/
theorem Phi2_out (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 16 := N_2; omega), PhiA2_eq]
  iintro ⟨HS, HR, Hg⟩
  isplitl [HS HR]
  · isplitl [HS]
    · iexists _; iexact HS
    iexact HR
  iexact Hg

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: each window's buffer at what the body leaves, the output's as it was found where the body
    stores nothing into it. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 1600000 in
/-- The body at any point. The inputs' buffers hold their blocks. By t mod 4 the point is in one of the three courses;
    the invariant hands the body the scratch column — at anything before the first point, else at what the point before
    left, which a point with j = 0 does not read —, the course's run applies, and the column goes back into the invariant
    at this point's minima. Where j ≠ 3 the output's buffer is idle and goes back as found; where j = 3 it holds the
    minima written out. The scoped rest, the generator register and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 16 := lt_of_lt_of_eq t.isLt (show cfg2.N = 16 from N_2)
  by_cases h0 : t.val % 4 = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [acc2_first V c t h0]
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩, ⟨%d3, H3⟩⟩
      iapply (run2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi2_castSucc V c t, Phi2_pos V c _ _ hz]
      iintro ⟨⟨HS, HR, Hg⟩, Ho, ⟨%d0, H0⟩, ⟨%d1, H1⟩, ⟨%d2, H2⟩, ⟨%d3, H3⟩⟩
      iapply (run2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hz : t.val ≠ 0 := fun h => h0 (by rw [h])
    rw [acc2_next V c t h0]
    rw [Phi2_castSucc V c t, Phi2_pos V c _ _ hz]
    by_cases h1 : t.val % 4 = 3
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, acc2_next V c t h0]
      iintro ⟨⟨HS, HR, Hg⟩, Ho, ⟨%d0, H0⟩, ⟨%d1, H1⟩, ⟨%d2, H2⟩, ⟨%d3, H3⟩⟩
      iapply (run2_C c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨⟨HS, HR, Hg⟩, Ho, ⟨%d0, H0⟩, ⟨%d1, H1⟩, ⟨%d2, H2⟩, ⟨%d3, H3⟩⟩
      iapply (run2_B c Set.univ (grid2.coords t) hc0 hc1 _ _ _ _ _ _ _ _ _ _ (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Run.lean ====
/-
  The run of the whole program: three kernel regions in a row — the row distances, the hardest negative of every
  anchor, the hardest positive of every anchor — then three stretches of host operations that reduce the three
  columns to the loss. Every weakly fair execution from any launch memory terminates, and at the end every buffer
  of the TensorCore that outlives a region holds a NAMED valuation: the launch contents carried through the six
  segments, a region replacing its windows' arrays by what its write-backs leave, a host stretch replacing what its
  operations write by their results.
  Stated at any float instance. The regions' own halves (their proof data, body obligations and, for the two regions
  that carry a scratch column, the two ends of their invariants) are the three region modules'.
-/
import proofs.«110565_j10264971838200_1_alg».proof.Proof.R0
import proofs.«110565_j10264971838200_1_alg».proof.Proof.R1
import proofs.«110565_j10264971838200_1_alg».proof.Proof.R2
import proofs.«110565_j10264971838200_1_alg».proof.Proof.Gen.KernelIdeal.Launch
import proofs.«110565_j10264971838200_1_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary between two segments

    A fold from the launch memory: W0 at launch, W1, W2, W3 after the three regions, W4, W5, W6 after the three host
    stretches. VK is WK read at the TensorCore's references: what the next region's proof data are stated at. -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the row-distance region: its five arrays at what the pipeline leaves (an input as entered, an output with
    every block's write-back folded in), every other buffer as at launch. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
/-- The two facts that put the region's arrays back among the unscoped buffers at its exit: each array holds what the
    pipeline leaves, every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the hardest-negative region, entered from W1: its four arrays at what the pipeline leaves. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the hardest-positive region, entered from W2: its four arrays at what the pipeline leaves. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After the first host stretch (the two means and the margin column), -/
abbrev W4 : Dev nD → Valuation τ sig (Elt F) := fun c => StableHlo.after hostOps3 (W3 m ρ c)
/-- after the clipping at zero, -/
abbrev W5 : Dev nD → Valuation τ sig (Elt F) := fun c => StableHlo.after hostOps3_1 (W4 m ρ c)
/-- and after the last mean: what the program returns from. -/
abbrev W6 : Dev nD → Valuation τ sig (Elt F) := fun c => StableHlo.after hostOps3_2 (W5 m ρ c)

/-! ## The arguments end as launched

    No host operation writes an argument, and a region only reads one, through an input window (whose array the
    pipeline leaves as it found it) or not at all: the fold at an argument's buffer walks back to the launch memory. -/

/-- A buffer none of the three host stretches writes holds at the end what the last region left in it. -/
theorem W6_of_host (c : Dev nD) (r : Ref sig .tc) (h3 : r ∉ (hostOps3_W : List (Ref sig .tc)))
    (h4 : r ∉ (hostOps3_1_W : List (Ref sig .tc))) (h5 : r ∉ (hostOps3_2_W : List (Ref sig .tc))) :
    W6 m ρ c (Proc.devRef .tc r) = W3 m ρ c (Proc.devRef .tc r) :=
  (StableHlo.after_of_writes_sub hostOps3_2 _ hostOps3_2_writes h5).trans <|
    (StableHlo.after_of_writes_sub hostOps3_1 _ hostOps3_1_writes h4).trans <|
      StableHlo.after_of_writes_sub hostOps3 _ hostOps3_writes h3

/-- The anchors: an input window of all three regions. -/
theorem W6_main_arg0 (c : Dev nD) : W6 m ρ c (Proc.devRef .tc main_arg0) = m ((c : Thread nD τ).loc main_arg0) :=
  calc W6 m ρ c (Proc.devRef .tc main_arg0)
    _ = W3 m ρ c (Proc.devRef .tc main_arg0) := W6_of_host m ρ c main_arg0 (by decide) (by decide) (by decide)
    _ = W2 m ρ c (Proc.devRef .tc main_arg0) := (W3_arr m ρ c 0).trans (((dat2 (V2 m ρ) c).arrAt_in 0 rfl _).trans (A_eq2 (V2 m ρ) c 0))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The positives: an input window of the first and the third region, untouched by the second. -/
theorem W6_main_arg1 (c : Dev nD) : W6 m ρ c (Proc.devRef .tc main_arg1) = m ((c : Thread nD τ).loc main_arg1) :=
  calc W6 m ρ c (Proc.devRef .tc main_arg1)
    _ = W3 m ρ c (Proc.devRef .tc main_arg1) := W6_of_host m ρ c main_arg1 (by decide) (by decide) (by decide)
    _ = W2 m ρ c (Proc.devRef .tc main_arg1) := (W3_arr m ρ c 1).trans (((dat2 (V2 m ρ) c).arrAt_in 1 rfl _).trans (A_eq2 (V2 m ρ) c 1))
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- The negatives: an input window of the first and the second region, untouched by the third. -/
theorem W6_main_arg2 (c : Dev nD) : W6 m ρ c (Proc.devRef .tc main_arg2) = m ((c : Thread nD τ).loc main_arg2) :=
  calc W6 m ρ c (Proc.devRef .tc main_arg2)
    _ = W3 m ρ c (Proc.devRef .tc main_arg2) := W6_of_host m ρ c main_arg2 (by decide) (by decide) (by decide)
    _ = W2 m ρ c (Proc.devRef .tc main_arg2) := W3_of_ne m ρ c main_arg2 (by decide)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-! # The proof data of the three pipelines and the thread state -/

/-- Every pipeline's proof data, each at the contents its region is entered from: the first region's at
    the launch contents, the second's at what the first leaves, the third's at what the second leaves. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core's dues, at nothing. -/
abbrev R (c : Dev nD) : sProp 𝕄 := iprop((∃ r, prngReg c r) ∗ ∃ W, owes (c : Thread nD τ) (0 : CellTallies nD τ sig Unit) W)
/-- A stretch of host operations as a segment: over the unscoped references, from the contents W to the contents after
    the operations, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents W6, the generator register at
    some state. -/
abbrev Tₙ (c : Dev nD) : sProp 𝕄 := iprop(StableHlo.held (c : Thread nD τ) (Pipeline.ucRefs τ sig) (W6 m ρ c) ∗ ∃ r, prngReg c r)

/-! # The regions as segments -/

set_option backward.isDefEq.respectTransparency.types false in
/-- The row-distance region over the thread state: entered from every unscoped buffer at the launch contents W0, left at
    W1. Its five arrays are split out of the unscoped buffers and put back at what the pipeline leaves; the generator
    register goes into the region's invariant (which is the class's at every point) and comes back; nothing is owed;
    the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The hardest-negative region: entered from W1, what the region before it left, and left at W2. As above, but its
    invariant carries the scratch column of running maxima from the second point on: the class's invariant gives the
    invariant before the first point, and the invariant after the last gives the class's back (the column forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi1_in (V1 m ρ) c)
    unfold Pipeline.ΦA
    iintro ⟨Hp, -, Hr⟩
    isplitl [Hr]; · iexact Hr
    iexact Hp
  hout c := by
    rw [Pipeline.ownSems0_none]
    refine BIBase.Entails.trans (Phi1_out (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The hardest-positive region: entered from W2, left at W3, what the host operations start from. Its scratch column of
    running minima enters and leaves its invariant as the maxima's did. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi2_in (V2 m ρ) c)
    unfold Pipeline.ΦA
    iintro ⟨Hp, -, Hr⟩
    isplitl [Hr]; · iexact Hr
    iexact Hp
  hout c := by
    rw [Pipeline.ownSems0_none]
    refine BIBase.Entails.trans (Phi2_out (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the launch -/

/-- The program's six segments in order: the three regions, then a host segment per stretch, each from the contents the
    segment before it leaves. -/
abbrev segs : List (Pipeline.Seg (pcfgs (F := F)) adm (pdats m ρ) () defs₀ 𝒱₀ L lv) :=
  [ .region (reg0 m ρ),
    .region (reg1 m ρ),
    .region (reg2 m ρ),
    .host (hseg hostOps3 hostOps3_sub hostOps3_fresh (W3 m ρ)),
    .host (hseg hostOps3_1 hostOps3_1_sub hostOps3_1_fresh (W4 m ρ)),
    .host (hseg hostOps3_2 hostOps3_2_sub hostOps3_2_fresh (W5 m ρ)) ]
/-- The program IS the run of the segments: it is the chain of its six items, and the segments' run unfolds to that
    chain. -/
theorem main_run (c : Dev nD) : main (F := F) c = Pipeline.Seg.run (segs m ρ) := (main_chain c).trans (by chain_rfl)

/-- What the last host segment leaves is the last thread state beside the core owing nothing (the same three parts,
    regrouped). -/
theorem last_state (c : Dev nD) :
    iprop(StableHlo.held (c : Thread nD τ) (Pipeline.ucRefs τ sig) (W6 m ρ c) ∗ R (F := F) c)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

set_option backward.isDefEq.respectTransparency.types false in
/-- THE RUN. From any memory with zero counters, every weakly fair execution of the program on the TensorCores
    terminates, nothing faulting, and in every final memory each unscoped buffer of each core holds W6: the launch
    over the six segments, whose thread states chain by construction; the first made from what the launch deals; the
    last read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, last_state m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KR0.lean ====
/-
  Region 0 of the kernel's program: the row distances. At grid point t the body reads the t-th block of 1024 rows of
  the anchors, the positives and the negatives, and stores into its two output blocks the 1024 distances
  sqrt (Σ_k (a − p + ε)²) and sqrt (Σ_k (a − n + ε)²) of those rows: each output block is ONE whole-block store of a
  value that is a function of the two input blocks it reads. Nothing is carried from point to point.
  Stated at a parameter V, the buffers' contents when the region is entered, and at any float instance.
-/
import proofs.«110565_j10264971838200_1_alg».proof.Proof.Gen.Kernel.Launch
import proofs.«110565_j10264971838200_1_alg».proof.Proof.Gen.Kernel.Skeleton
import proofs.«110565_j10264971838200_1_alg».proof.Proof.Gen.Kernel.Points
import proofs.«110565_j10264971838200_1_alg».proof.Proof.LibWholeStore
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not: the blocks tile the arrays
    and the body leaves an input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one access rectangle of each buffer shape: the whole buffer. -/
abbrev rM0 : Rect S1024x1024 := Rect.unit (s := S1024x1024) ![0, 0] S1024x1024.size inb_S1024x1024_S1024x1024_0_0
abbrev rC0 : Rect S1024x1 := Rect.unit (s := S1024x1) ![0, 0] S1024x1.size inb_S1024x1_S1024x1_0_0

/-- What the body leaves in the first output block: its one store, of the anchor–positive distances of the block's rows. -/
def out0_3 (x0 x1 : Vec F S1024x1024 .f32) : Vec F S1024x1 .f32 :=
  View.canon [⟨rC0, k0_pay1 (View.ld x0 rM0) (View.ld x1 rM0)⟩]
/-- And in the second: the anchor–negative distances. -/
def out0_4 (x0 x2 : Vec F S1024x1024 .f32) : Vec F S1024x1 .f32 :=
  View.canon [⟨rC0, k0_pay2 (View.ld x0 rM0) (View.ld x2 rM0)⟩]

/-- A whole-block store read back whole is the stored value. -/
theorem out0_3_eq (x0 x1 : Vec F S1024x1024 .f32) : out0_3 x0 x1 = k0_pay1 x0 x1 := by
  unfold out0_3
  rw [View.canon_unit_zero WholeStore.zero2]
  simp only [View.ld_unit_zero (S := S1024x1024) WholeStore.zero2]
theorem out0_4_eq (x0 x2 : Vec F S1024x1024 .f32) : out0_4 x0 x2 = k0_pay2 x0 x2 := by
  unfold out0_4
  rw [View.canon_unit_zero WholeStore.zero2]
  simp only [View.ld_unit_zero (S := S1024x1024) WholeStore.zero2]

set_option maxHeartbeats 1000000 in
/-- The body on whole staging buffers: the three inputs at contents x0, x1, x2 and the two outputs at anything run to
    the inputs as they were and the outputs at the two stored values. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1 .f32) (harg4 : arg4.IsWhole)
    (arg5 : Memref sig .tc .vmem S1024x1 .f32) (harg5 : arg5.IsWhole)
    (x0 x1 x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0_rowdist_kernel i arg1 harg1 arg2 harg2 arg3 harg3 arg4 harg4 arg5 harg5) K := by
  simp only [cc0_rowdist_kernel_eq_skeleton]; unfold cc0_rowdist_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (WholeStore.cover_one WholeStore.zero2 _ _)
  iexists _; isplitr
  swap; · iexact H4
  ipureintro
  exact View.read_writes_eq_canon _ _ _ (WholeStore.cover_one WholeStore.zero2 _ _)

/-- The proof data of the row-distance region on core c: the arrays as the region finds them; after the body at point t
    each input's buffer at its block and each output's at the stored distances of the point's blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the kernel's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
/-
  Region 1 of the kernel's program: the hardest negative of every anchor. The grid is 4 × 4: point t = 4 i + j pairs the
  i-th block of 1024 anchors with the j-th block of 1024 negatives. A scratch column of 1024 running maxima is carried
  from point to point: reset to −∞ where j = 0, then at every point raised by the row maxima of the block's masked
  pairwise distances (a distance counts where it lies strictly below the anchor's distance to its own positive), and
  where j = 3 written out — with 0 in place of a maximum that is still −∞ — into the i-th output block, which the
  pipeline writes back there and nowhere else.
  Stated at a parameter V, the buffers' contents when the region is entered, and at any float instance: the body's
  arithmetic stays inside the named payloads.
  The body has three courses, told apart by j alone: j = 0 (reset, raise), j = 1, 2 (raise), j = 3 (raise, write out).
  Each is run once on whole buffers at given contents; the body obligation at point t picks the course from t mod 4,
  takes the column's contents from the invariant and gives the column back at the raised maxima.
-/
import proofs.«110565_j10264971838200_1_alg».proof.Proof.Gen.Kernel.Launch
import proofs.«110565_j10264971838200_1_alg».proof.Proof.Gen.Kernel.Skeleton
import proofs.«110565_j10264971838200_1_alg».proof.Proof.Gen.Kernel.Points
import proofs.«110565_j10264971838200_1_alg».proof.Proof.LibWholeStore
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not: the blocks tile the arrays,
    the body leaves an input block in place, and a point that does not fetch a window has that window's block index
    unchanged from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scratch column the kernel carries, as a whole-buffer memref. -/
abbrev scM1 : Memref sig .tc .vmem S1024x1 .f32 := Memref.whole cc1_scratch0

/-! The two conditions the body branches on, in closed form over the grid. -/

/-- The first condition, as the body computes it from the point's coordinates: the negatives' block is the first of its row. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second condition: the negatives' block is the last of its row. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! Where the windows are idle: the inputs never; the output wherever the second condition fails, and there it is not written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem liveAt1_3 : ∀ t : Fin cfg1.N, cond1_1 (grid1.coords t) → cfg1.idle 3 (grid1.coords t) = false := by decide +kernel
theorem noFlush1_3 : ∀ t : Fin cfg1.N, ¬cond1_1 (grid1.coords t) → (cfg1.win 3).flush t = false := by decide +kernel

/-- One point's update of the running maxima: from the anchors' block xa, the negatives' block xn, the column xd of the
    anchors' distances to their positives and the maxima s so far. -/
def step1 (xa xn : Vec F S1024x1024 .f32) (xd s : Vec F S1024x1 .f32) : Vec F S1024x1 .f32 :=
  k1_pay1 (k1_pay4 xa xn) (k1_pay5 xa xn xd) (Scalar.ofBits .f32 0xFF800000#32) s

/-- What the scratch column holds after point n: the update of the point's blocks over −∞ where a row of points begins
    (n ≡ 0 mod 4), over what the point before left otherwise. -/
def acc1 (c : Dev nD) : (n : ℕ) → n < cfg1.N → Vec F S1024x1 .f32
  | 0, hn => step1 (iblk1 V c 0 ⟨0, hn⟩) (iblk1 V c 1 ⟨0, hn⟩) (iblk1 V c 2 ⟨0, hn⟩) (k1_pay3 (F := F))
  | n + 1, hn => step1 (iblk1 V c 0 ⟨n + 1, hn⟩) (iblk1 V c 1 ⟨n + 1, hn⟩) (iblk1 V c 2 ⟨n + 1, hn⟩)
      (if (n + 1) % 4 = 0 then k1_pay3 (F := F) else acc1 c n (Nat.lt_of_succ_lt hn))

theorem acc1_first (c : Dev nD) (t : Fin cfg1.N) (h : t.val % 4 = 0) :
    acc1 V c t.val t.isLt = step1 (iblk1 V c 0 t) (iblk1 V c 1 t) (iblk1 V c 2 t) (k1_pay3 (F := F)) := by
  obtain ⟨n, hn⟩ := t
  cases n with
  | zero => rfl
  | succ n => exact congrArg (step1 _ _ _) (if_pos h)
theorem acc1_next (c : Dev nD) (t : Fin cfg1.N) (h : t.val % 4 ≠ 0) :
    acc1 V c t.val t.isLt = step1 (iblk1 V c 0 t) (iblk1 V c 1 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n => exact congrArg (step1 _ _ _) (if_neg h)

/-- What the output block holds where it is stored (j = 3): the maxima, with 0 for one that is still −∞. -/
def out1_3 (s : Vec F S1024x1 .f32) : Vec F S1024x1 .f32 := k1_pay2 s s

set_option maxHeartbeats 1000000 in
/-- The body where a row of points begins (first condition, not the second), on whole buffers: the three inputs at
    contents xa, xn, xd, the output at y, the scratch column at anything. It resets the column to −∞, reads it back and
    raises it by the block's masked row maxima: the inputs and the output come back as they were, the column holds the
    update of −∞. -/
theorem run1_A (c : Dev nD) (E : Set ℕ) (i : grid1.Coords) (hc0 : cond1_0 i) (hc1 : ¬cond1_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd y : Vec F S1024x1 .f32) (K : PUnit → sProp 𝕄) :
    iprop(owns (c : Thread nD τ) arg2 fullShare xa ∗ owns (c : Thread nD τ) arg3 fullShare xn ∗ owns (c : Thread nD τ) arg4 fullShare xd
        ∗ owns (c : Thread nD τ) arg5 fullShare y ∗ (∃ d, owns (c : Thread nD τ) arg6 fullShare d)
        ∗ (iprop(owns (c : Thread nD τ) arg2 fullShare xa ∗ owns (c : Thread nD τ) arg3 fullShare xn ∗ owns (c : Thread nD τ) arg4 fullShare xd
            ∗ owns (c : Thread nD τ) arg5 fullShare y ∗ owns (c : Thread nD τ) arg6 fullShare (step1 xa xn xd (k1_pay3 (F := F)))) -∗ K ⟨⟩))
      ⊢ wp frame (wpE (defs₀ (F := F)) Variants.none c none) E (cc1_hard_neg_kernel i arg2 harg2 arg3 harg3 arg4 harg4 arg5 harg5 arg6 harg6) K := by
  simp only [cc1_hard_neg_kernel_eq_skeleton]; unfold cc1_hard_neg_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (WholeStore.cover_cons WholeStore.zero2 _ _ _), View.canon_cons_unit_zero WholeStore.zero2]
  dsimp only
  simp only [View.readAt_eq_ld, View.ld_unit_zero (S := S1024x1024) WholeStore.zero2, View.ld_unit_zero (S := S1024x1) WholeStore.zero2,
    View.readCov_unit_zero (S := S1024x1) _ WholeStore.zero2]
  rfl

set_option maxHeartbeats 1000000 in
/-- The body inside a row of points (neither condition): the scratch column at contents s is raised by the block's masked
    row maxima; the inputs and the output come back as they were. -/
theorem run1_B (c : Dev nD) (E : Set ℕ) (i : grid1.Coords) (hc0 : ¬cond1_0 i) (hc1 : ¬cond1_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd y s : Vec F S1024x1 .f32) (K : PUnit → sProp 𝕄) :
    iprop(owns (c : Thread nD τ) arg2 fullShare xa ∗ owns (c : Thread nD τ) arg3 fullShare xn ∗ owns (c : Thread nD τ) arg4 fullShare xd
        ∗ owns (c : Thread nD τ) arg5 fullShare y ∗ owns (c : Thread nD τ) arg6 fullShare s
        ∗ (iprop(owns (c : Thread nD τ) arg2 fullShare xa ∗ owns (c : Thread nD τ) arg3 fullShare xn ∗ owns (c : Thread nD τ) arg4 fullShare xd
            ∗ owns (c : Thread nD τ) arg5 fullShare y ∗ owns (c : Thread nD τ) arg6 fullShare (step1 xa xn xd s)) -∗ K ⟨⟩))
      ⊢ wp frame (wpE (defs₀ (F := F)) Variants.none c none) E (cc1_hard_neg_kernel i arg2 harg2 arg3 harg3 arg4 harg4 arg5 harg5 arg6 harg6) K := by
  simp only [cc1_hard_neg_kernel_eq_skeleton]; unfold cc1_hard_neg_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (WholeStore.cover_one WholeStore.zero2 _ _), View.canon_unit_zero WholeStore.zero2]
  dsimp only
  simp only [View.readAt_eq_ld, View.ld_unit_zero (S := S1024x1024) WholeStore.zero2, View.ld_unit_zero (S := S1024x1) WholeStore.zero2]
  rfl

set_option maxHeartbeats 1000000 in
/-- The body where a row of points ends (the second condition, not the first): the scratch column at contents s is raised
    as before, read back, and written — with 0 for a maximum still −∞ — into the output buffer, whatever that held. -/
theorem run1_C (c : Dev nD) (E : Set ℕ) (i : grid1.Coords) (hc0 : ¬cond1_0 i) (hc1 : cond1_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd s : Vec F S1024x1 .f32) (K : PUnit → sProp 𝕄) :
    iprop(owns (c : Thread nD τ) arg2 fullShare xa ∗ owns (c : Thread nD τ) arg3 fullShare xn ∗ owns (c : Thread nD τ) arg4 fullShare xd
        ∗ (∃ d, owns (c : Thread nD τ) arg5 fullShare d) ∗ owns (c : Thread nD τ) arg6 fullShare s
        ∗ (iprop(owns (c : Thread nD τ) arg2 fullShare xa ∗ owns (c : Thread nD τ) arg3 fullShare xn ∗ owns (c : Thread nD τ) arg4 fullShare xd
            ∗ owns (c : Thread nD τ) arg5 fullShare (out1_3 (step1 xa xn xd s)) ∗ owns (c : Thread nD τ) arg6 fullShare (step1 xa xn xd s)) -∗ K ⟨⟩))
      ⊢ wp frame (wpE (defs₀ (F := F)) Variants.none c none) E (cc1_hard_neg_kernel i arg2 harg2 arg3 harg3 arg4 harg4 arg5 harg5 arg6 harg6) K := by
  simp only [cc1_hard_neg_kernel_eq_skeleton]; unfold cc1_hard_neg_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (WholeStore.cover_one WholeStore.zero2 _ _), View.canon_unit_zero WholeStore.zero2]
    dsimp only
    simp only [View.readAt_eq_ld, View.ld_unit_zero (S := S1024x1024) WholeStore.zero2, View.ld_unit_zero (S := S1024x1) WholeStore.zero2,
      View.readCov_unit_zero (S := S1024x1) _ WholeStore.zero2]
    rfl
  iexists _; isplitr
  swap; · iexact H6
  ipureintro
  sl_unfold_words
  rw [View.read_writes_eq_canon _ _ _ (WholeStore.cover_one WholeStore.zero2 _ _), View.canon_unit_zero WholeStore.zero2]
  dsimp only
  simp only [View.readAt_eq_ld, View.ld_unit_zero (S := S1024x1024) WholeStore.zero2, View.ld_unit_zero (S := S1024x1) WholeStore.zero2]
  rfl

/-- The core's scoped buffers that are neither a staging buffer of this region nor its scratch column, each at some contents. -/
def rest1 (c : Dev nD) : sProp 𝕄 :=
  Pipeline.scopedRestBut (Ix := Unit) (Name := ℕ) (U := UR sig nD τ) (Lvl := ℕ) (Val := Elt F) spec1 c [cc1_scratch0]

/-- The class's invariant with the scratch column taken out of the scoped rest and owned, as a whole memref, at some
    contents: the column is scoped and no staging buffer, so the rest splits at it. -/
theorem PhiA1_eq (c : Dev nD) :
    (Pipeline.ΦA spec1 c : sProp 𝕄)
      = iprop(((∃ d, owns (c : Thread nD τ) scM1 fullShare d) ∗ rest1 (F := F) c) ∗ ∃ r, prngReg c r) := by
  unfold Pipeline.ΦA rest1
  rw [Pipeline.scopedRest_split_of_list spec1 c [cc1_scratch0] (by decide) (by decide)]
  simp only [bigSepL_singleton, scM1, owns_whole]
  rfl

/-- The region's invariant before point n: before the first point the class's (every scoped buffer that is no staging
    buffer at anything, the generator register at some state); afterwards the same with the scratch column at what the
    point before left in it. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ ∃ r, prngReg c r)

theorem Phi1_zero (c : Dev nD) (n : ℕ) (h : n ≤ cfg1.N) (hz : n = 0) : Phi1 V c n h = Pipeline.ΦA spec1 c := by
  subst hz; rfl
/-- After point n: the column at that point's maxima. -/
theorem Phi1_succ (c : Dev nD) (n : ℕ) (hn : n < cfg1.N) :
    Phi1 V c (n + 1) hn = iprop(owns (c : Thread nD τ) scM1 fullShare (acc1 V c n hn) ∗ rest1 (F := F) c ∗ ∃ r, prngReg c r) := rfl
/-- Before a point that is not the first: the column at what the point before left. -/
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c ∗ ∃ r, prngReg c r) := by
  cases n with
  | zero => exact absurd rfl hz
  | succ n => rfl

/-- The proof data of the region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start, restated at the point's number. -/
theorem Phi1_castSucc (c : Dev nD) (t : Fin cfg1.N) :
    (dat1 V c).Φ t.castSucc = Phi1 V c t.val (Nat.le_of_lt t.isLt) := by
  dsimp only [dat1]; simp only [Fin.coe_castSucc]

/-- Entering the region: the class's invariant is the invariant before the first point. -/
theorem Phi1_in (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _
/-- Leaving it: the scratch column is forgotten again. -/
theorem Phi1_out (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega), PhiA1_eq]
  iintro ⟨HS, HR, Hg⟩
  isplitl [HS HR]
  · isplitl [HS]
    · iexists _; iexact HS
    iexact HR
  iexact Hg

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: each window's buffer at what the body leaves, the output's as it was found where the body
    stores nothing into it. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point. The inputs' buffers hold their blocks. By t mod 4 the point is in one of the three courses;
    the invariant hands the body the scratch column — at anything before the first point, else at what the point before
    left, which a point with j = 0 does not read —, the course's run applies, and the column goes back into the invariant
    at this point's maxima. Where j ≠ 3 the output's buffer is idle and goes back as found; where j = 3 it holds the
    maxima written out. The scoped rest, the generator register and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 16 := lt_of_lt_of_eq t.isLt (show cfg1.N = 16 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [acc1_first V c t h0]
    by_cases hz : t.val = 0
    · rw [Phi1_castSucc V c t, Phi1_zero V c _ _ hz, PhiA1_eq]
      iintro ⟨⟨⟨HS, HR⟩, Hg⟩, Ho, ⟨%d0, H0⟩, ⟨%d1, H1⟩, ⟨%d2, H2⟩, ⟨%d3, H3⟩⟩
      iapply (run1_A c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨HS, HR, Hg⟩, Ho, ⟨%d0, H0⟩, ⟨%d1, H1⟩, ⟨%d2, H2⟩, ⟨%d3, H3⟩⟩
      iapply (run1_A c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    rw [acc1_next V c t h0]
    rw [Phi1_castSucc V c t, Phi1_pos V c _ _ hz]
    by_cases h1 : t.val % 4 = 3
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, acc1_next V c t h0]
      iintro ⟨⟨HS, HR, Hg⟩, Ho, ⟨%d0, H0⟩, ⟨%d1, H1⟩, ⟨%d2, H2⟩, ⟨%d3, H3⟩⟩
      iapply (run1_C c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨HS, HR, Hg⟩, Ho, ⟨%d0, H0⟩, ⟨%d1, H1⟩, ⟨%d2, H2⟩, ⟨%d3, H3⟩⟩
      iapply (run1_B c Set.univ (grid1.coords t) hc0 hc1 _ _ _ _ _ _ _ _ _ _ (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KR2.lean ====
/-
  Region 2 of the kernel's program: the hardest positive of every anchor. The grid is 4 × 4: point t = 4 i + j pairs the
  i-th block of 1024 anchors with the j-th block of 1024 positives. A scratch column of 1024 running minima is carried
  from point to point: reset to +∞ where j = 0, then at every point lowered by the row minima of the block's masked
  pairwise distances (a distance counts where it lies strictly above the anchor's distance to its own negative), and
  where j = 3 written out — with 0 in place of a minimum that is still +∞ — into the i-th output block, which the
  pipeline writes back there and nowhere else.
  Stated at a parameter V, the buffers' contents when the region is entered, and at any float instance: the body's
  arithmetic stays inside the named payloads.
  The body has three courses, told apart by j alone: j = 0 (reset, lower), j = 1, 2 (lower), j = 3 (lower, write out).
  Each is run once on whole buffers at given contents; the body obligation at point t picks the course from t mod 4,
  takes the column's contents from the invariant and gives the column back at the lowered minima.
-/
import proofs.«110565_j10264971838200_1_alg».proof.Proof.Gen.Kernel.Launch
import proofs.«110565_j10264971838200_1_alg».proof.Proof.Gen.Kernel.Skeleton
import proofs.«110565_j10264971838200_1_alg».proof.Proof.Gen.Kernel.Points
import proofs.«110565_j10264971838200_1_alg».proof.Proof.LibWholeStore
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, fetched there or not: the blocks tile the arrays,
    the body leaves an input block in place, and a point that does not fetch a window has that window's block index
    unchanged from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The scratch column the kernel carries, as a whole-buffer memref. -/
abbrev scM2 : Memref sig .tc .vmem S1024x1 .f32 := Memref.whole cc2_scratch0

/-! The two conditions the body branches on, in closed form over the grid. -/

/-- The first condition, as the body computes it from the point's coordinates: the positives' block is the first of its row. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)
/-- The second condition: the positives' block is the last of its row. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! Where the windows are idle: the inputs never; the output wherever the second condition fails, and there it is not written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem liveAt2_3 : ∀ t : Fin cfg2.N, cond2_1 (grid2.coords t) → cfg2.idle 3 (grid2.coords t) = false := by decide +kernel
theorem noFlush2_3 : ∀ t : Fin cfg2.N, ¬cond2_1 (grid2.coords t) → (cfg2.win 3).flush t = false := by decide +kernel

/-- One point's update of the running minima: from the anchors' block xa, the positives' block xn, the column xd of the
    anchors' distances to their negatives and the minima s so far. -/
def step2 (xa xn : Vec F S1024x1024 .f32) (xd s : Vec F S1024x1 .f32) : Vec F S1024x1 .f32 :=
  k2_pay1 (k2_pay4 xa xn) (k2_pay5 xa xn xd) (Scalar.ofBits .f32 0x7F800000#32) s

/-- What the scratch column holds after point n: the update of the point's blocks over +∞ where a row of points begins
    (n ≡ 0 mod 4), over what the point before left otherwise. -/
def acc2 (c : Dev nD) : (n : ℕ) → n < cfg2.N → Vec F S1024x1 .f32
  | 0, hn => step2 (iblk2 V c 0 ⟨0, hn⟩) (iblk2 V c 1 ⟨0, hn⟩) (iblk2 V c 2 ⟨0, hn⟩) (k2_pay3 (F := F))
  | n + 1, hn => step2 (iblk2 V c 0 ⟨n + 1, hn⟩) (iblk2 V c 1 ⟨n + 1, hn⟩) (iblk2 V c 2 ⟨n + 1, hn⟩)
      (if (n + 1) % 4 = 0 then k2_pay3 (F := F) else acc2 c n (Nat.lt_of_succ_lt hn))

theorem acc2_first (c : Dev nD) (t : Fin cfg2.N) (h : t.val % 4 = 0) :
    acc2 V c t.val t.isLt = step2 (iblk2 V c 0 t) (iblk2 V c 1 t) (iblk2 V c 2 t) (k2_pay3 (F := F)) := by
  obtain ⟨n, hn⟩ := t
  cases n with
  | zero => rfl
  | succ n => exact congrArg (step2 _ _ _) (if_pos h)
theorem acc2_next (c : Dev nD) (t : Fin cfg2.N) (h : t.val % 4 ≠ 0) :
    acc2 V c t.val t.isLt = step2 (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd (Nat.zero_mod _) h
  | succ n => exact congrArg (step2 _ _ _) (if_neg h)

/-- What the output block holds where it is stored (j = 3): the minima, with 0 for one that is still +∞. -/
def out2_3 (s : Vec F S1024x1 .f32) : Vec F S1024x1 .f32 := k2_pay2 s s

set_option maxHeartbeats 1000000 in
/-- The body where a row of points begins (first condition, not the second), on whole buffers: the three inputs at
    contents xa, xn, xd, the output at y, the scratch column at anything. It resets the column to +∞, reads it back and
    lowers it by the block's masked row minima: the inputs and the output come back as they were, the column holds the
    update of +∞. -/
theorem run2_A (c : Dev nD) (E : Set ℕ) (i : grid2.Coords) (hc0 : cond2_0 i) (hc1 : ¬cond2_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd y : Vec F S1024x1 .f32) (K : PUnit → sProp 𝕄) :
    iprop(owns (c : Thread nD τ) arg2 fullShare xa ∗ owns (c : Thread nD τ) arg3 fullShare xn ∗ owns (c : Thread nD τ) arg4 fullShare xd
        ∗ owns (c : Thread nD τ) arg5 fullShare y ∗ (∃ d, owns (c : Thread nD τ) arg6 fullShare d)
        ∗ (iprop(owns (c : Thread nD τ) arg2 fullShare xa ∗ owns (c : Thread nD τ) arg3 fullShare xn ∗ owns (c : Thread nD τ) arg4 fullShare xd
            ∗ owns (c : Thread nD τ) arg5 fullShare y ∗ owns (c : Thread nD τ) arg6 fullShare (step2 xa xn xd (k2_pay3 (F := F)))) -∗ K ⟨⟩))
      ⊢ wp frame (wpE (defs₀ (F := F)) Variants.none c none) E (cc2_hard_pos_kernel i arg2 harg2 arg3 harg3 arg4 harg4 arg5 harg5 arg6 harg6) K := by
  simp only [cc2_hard_pos_kernel_eq_skeleton]; unfold cc2_hard_pos_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (WholeStore.cover_cons WholeStore.zero2 _ _ _), View.canon_cons_unit_zero WholeStore.zero2]
  dsimp only
  simp only [View.readAt_eq_ld, View.ld_unit_zero (S := S1024x1024) WholeStore.zero2, View.ld_unit_zero (S := S1024x1) WholeStore.zero2,
    View.readCov_unit_zero (S := S1024x1) _ WholeStore.zero2]
  rfl

set_option maxHeartbeats 1000000 in
/-- The body inside a row of points (neither condition): the scratch column at contents s is lowered by the block's masked
    row minima; the inputs and the output come back as they were. -/
theorem run2_B (c : Dev nD) (E : Set ℕ) (i : grid2.Coords) (hc0 : ¬cond2_0 i) (hc1 : ¬cond2_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd y s : Vec F S1024x1 .f32) (K : PUnit → sProp 𝕄) :
    iprop(owns (c : Thread nD τ) arg2 fullShare xa ∗ owns (c : Thread nD τ) arg3 fullShare xn ∗ owns (c : Thread nD τ) arg4 fullShare xd
        ∗ owns (c : Thread nD τ) arg5 fullShare y ∗ owns (c : Thread nD τ) arg6 fullShare s
        ∗ (iprop(owns (c : Thread nD τ) arg2 fullShare xa ∗ owns (c : Thread nD τ) arg3 fullShare xn ∗ owns (c : Thread nD τ) arg4 fullShare xd
            ∗ owns (c : Thread nD τ) arg5 fullShare y ∗ owns (c : Thread nD τ) arg6 fullShare (step2 xa xn xd s)) -∗ K ⟨⟩))
      ⊢ wp frame (wpE (defs₀ (F := F)) Variants.none c none) E (cc2_hard_pos_kernel i arg2 harg2 arg3 harg3 arg4 harg4 arg5 harg5 arg6 harg6) K := by
  simp only [cc2_hard_pos_kernel_eq_skeleton]; unfold cc2_hard_pos_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (WholeStore.cover_one WholeStore.zero2 _ _), View.canon_unit_zero WholeStore.zero2]
  dsimp only
  simp only [View.readAt_eq_ld, View.ld_unit_zero (S := S1024x1024) WholeStore.zero2, View.ld_unit_zero (S := S1024x1) WholeStore.zero2]
  rfl

set_option maxHeartbeats 1000000 in
/-- The body where a row of points ends (the second condition, not the first): the scratch column at contents s is lowered
    as before, read back, and written — with 0 for a minimum still +∞ — into the output buffer, whatever that held. -/
theorem run2_C (c : Dev nD) (E : Set ℕ) (i : grid2.Coords) (hc0 : ¬cond2_0 i) (hc1 : cond2_1 i)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (xa xn : Vec F S1024x1024 .f32) (xd s : Vec F S1024x1 .f32) (K : PUnit → sProp 𝕄) :
    iprop(owns (c : Thread nD τ) arg2 fullShare xa ∗ owns (c : Thread nD τ) arg3 fullShare xn ∗ owns (c : Thread nD τ) arg4 fullShare xd
        ∗ (∃ d, owns (c : Thread nD τ) arg5 fullShare d) ∗ owns (c : Thread nD τ) arg6 fullShare s
        ∗ (iprop(owns (c : Thread nD τ) arg2 fullShare xa ∗ owns (c : Thread nD τ) arg3 fullShare xn ∗ owns (c : Thread nD τ) arg4 fullShare xd
            ∗ owns (c : Thread nD τ) arg5 fullShare (out2_3 (step2 xa xn xd s)) ∗ owns (c : Thread nD τ) arg6 fullShare (step2 xa xn xd s)) -∗ K ⟨⟩))
      ⊢ wp frame (wpE (defs₀ (F := F)) Variants.none c none) E (cc2_hard_pos_kernel i arg2 harg2 arg3 harg3 arg4 harg4 arg5 harg5 arg6 harg6) K := by
  simp only [cc2_hard_pos_kernel_eq_skeleton]; unfold cc2_hard_pos_kernel_skel
  simp only [k2_part1_eq_skeleton]; unfold k2_part1_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (WholeStore.cover_one WholeStore.zero2 _ _), View.canon_unit_zero WholeStore.zero2]
    dsimp only
    simp only [View.readAt_eq_ld, View.ld_unit_zero (S := S1024x1024) WholeStore.zero2, View.ld_unit_zero (S := S1024x1) WholeStore.zero2,
      View.readCov_unit_zero (S := S1024x1) _ WholeStore.zero2]
    rfl
  iexists _; isplitr
  swap; · iexact H6
  ipureintro
  sl_unfold_words
  rw [View.read_writes_eq_canon _ _ _ (WholeStore.cover_one WholeStore.zero2 _ _), View.canon_unit_zero WholeStore.zero2]
  dsimp only
  simp only [View.readAt_eq_ld, View.ld_unit_zero (S := S1024x1024) WholeStore.zero2, View.ld_unit_zero (S := S1024x1) WholeStore.zero2]
  rfl

/-- The core's scoped buffers that are neither a staging buffer of this region nor its scratch column, each at some contents. -/
def rest2 (c : Dev nD) : sProp 𝕄 :=
  Pipeline.scopedRestBut (Ix := Unit) (Name := ℕ) (U := UR sig nD τ) (Lvl := ℕ) (Val := Elt F) spec2 c [cc2_scratch0]

/-- The class's invariant with the scratch column taken out of the scoped rest and owned, as a whole memref, at some
    contents: the column is scoped and no staging buffer, so the rest splits at it. -/
theorem PhiA2_eq (c : Dev nD) :
    (Pipeline.ΦA spec2 c : sProp 𝕄)
      = iprop(((∃ d, owns (c : Thread nD τ) scM2 fullShare d) ∗ rest2 (F := F) c) ∗ ∃ r, prngReg c r) := by
  unfold Pipeline.ΦA rest2
  rw [Pipeline.scopedRest_split_of_list spec2 c [cc2_scratch0] (by decide) (by decide)]
  simp only [bigSepL_singleton, scM2, owns_whole]
  rfl

/-- The region's invariant before point n: before the first point the class's (every scoped buffer that is no staging
    buffer at anything, the generator register at some state); afterwards the same with the scratch column at what the
    point before left in it. -/
def Phi2 (c : Dev nD) : (n : ℕ) → n ≤ cfg2.N → sProp 𝕄
  | 0, _ => Pipeline.ΦA spec2 c
  | n + 1, hn => iprop(owns (c : Thread nD τ) scM2 fullShare (acc2 V c n hn) ∗ rest2 (F := F) c ∗ ∃ r, prngReg c r)

theorem Phi2_zero (c : Dev nD) (n : ℕ) (h : n ≤ cfg2.N) (hz : n = 0) : Phi2 V c n h = Pipeline.ΦA spec2 c := by
  subst hz; rfl
/-- After point n: the column at that point's minima. -/
theorem Phi2_succ (c : Dev nD) (n : ℕ) (hn : n < cfg2.N) :
    Phi2 V c (n + 1) hn = iprop(owns (c : Thread nD τ) scM2 fullShare (acc2 V c n hn) ∗ rest2 (F := F) c ∗ ∃ r, prngReg c r) := rfl
/-- Before a point that is not the first: the column at what the point before left. -/
theorem Phi2_pos (c : Dev nD) (n : ℕ) (h : n ≤ cfg2.N) (hz : n ≠ 0) :
    Phi2 V c n h = iprop(owns (c : Thread nD τ) scM2 fullShare (acc2 V c (n - 1) (by omega)) ∗ rest2 (F := F) c ∗ ∃ r, prngReg c r) := by
  cases n with
  | zero => exact absurd rfl hz
  | succ n => rfl

/-- The proof data of the region on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (acc2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The invariant at a point's start, restated at the point's number. -/
theorem Phi2_castSucc (c : Dev nD) (t : Fin cfg2.N) :
    (dat2 V c).Φ t.castSucc = Phi2 V c t.val (Nat.le_of_lt t.isLt) := by
  dsimp only [dat2]; simp only [Fin.coe_castSucc]

/-- Entering the region: the class's invariant is the invariant before the first point. -/
theorem Phi2_in (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _
/-- Leaving it: the scratch column is forgotten again. -/
theorem Phi2_out (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 16 := N_2; omega), PhiA2_eq]
  iintro ⟨HS, HR, Hg⟩
  isplitl [HS HR]
  · isplitl [HS]
    · iexists _; iexact HS
    iexact HR
  iexact Hg

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: each window's buffer at what the body leaves, the output's as it was found where the body
    stores nothing into it. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 1600000 in
/-- The body at any point. The inputs' buffers hold their blocks. By t mod 4 the point is in one of the three courses;
    the invariant hands the body the scratch column — at anything before the first point, else at what the point before
    left, which a point with j = 0 does not read —, the course's run applies, and the column goes back into the invariant
    at this point's minima. Where j ≠ 3 the output's buffer is idle and goes back as found; where j = 3 it holds the
    minima written out. The scoped rest, the generator register and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 16 := lt_of_lt_of_eq t.isLt (show cfg2.N = 16 from N_2)
  by_cases h0 : t.val % 4 = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [acc2_first V c t h0]
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩, ⟨%d3, H3⟩⟩
      iapply (run2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi2_castSucc V c t, Phi2_pos V c _ _ hz]
      iintro ⟨⟨HS, HR, Hg⟩, Ho, ⟨%d0, H0⟩, ⟨%d1, H1⟩, ⟨%d2, H2⟩, ⟨%d3, H3⟩⟩
      iapply (run2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hz : t.val ≠ 0 := fun h => h0 (by rw [h])
    rw [acc2_next V c t h0]
    rw [Phi2_castSucc V c t, Phi2_pos V c _ _ hz]
    by_cases h1 : t.val % 4 = 3
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, acc2_next V c t h0]
      iintro ⟨⟨HS, HR, Hg⟩, Ho, ⟨%d0, H0⟩, ⟨%d1, H1⟩, ⟨%d2, H2⟩, ⟨%d3, H3⟩⟩
      iapply (run2_C c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨⟨HS, HR, Hg⟩, Ho, ⟨%d0, H0⟩, ⟨%d1, H1⟩, ⟨%d2, H2⟩, ⟨%d3, H3⟩⟩
      iapply (run2_B c Set.univ (grid2.coords t) hc0 hc1 _ _ _ _ _ _ _ _ _ _ (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The run of the whole program: three kernel regions in a row — the row distances, the hardest negative of every
  anchor, the hardest positive of every anchor — then three stretches of host operations that reduce the three
  columns to the loss. Every weakly fair execution from any launch memory terminates, and at the end every buffer
  of the TensorCore that outlives a region holds a NAMED valuation: the launch contents carried through the six
  segments, a region replacing its windows' arrays by what its write-backs leave, a host stretch replacing what its
  operations write by their results.
  Stated at any float instance. The regions' own halves (their proof data, body obligations and, for the two regions
  that carry a scratch column, the two ends of their invariants) are the three region modules'.
-/
import proofs.«110565_j10264971838200_1_alg».proof.Proof.KR0
import proofs.«110565_j10264971838200_1_alg».proof.Proof.KR1
import proofs.«110565_j10264971838200_1_alg».proof.Proof.KR2
import proofs.«110565_j10264971838200_1_alg».proof.Proof.Gen.Kernel.Launch
import proofs.«110565_j10264971838200_1_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary between two segments

    A fold from the launch memory: W0 at launch, W1, W2, W3 after the three regions, W4, W5, W6 after the three host
    stretches. VK is WK read at the TensorCore's references: what the next region's proof data are stated at. -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the row-distance region: its five arrays at what the pipeline leaves (an input as entered, an output with
    every block's write-back folded in), every other buffer as at launch. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
/-- The two facts that put the region's arrays back among the unscoped buffers at its exit: each array holds what the
    pipeline leaves, every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the hardest-negative region, entered from W1: its four arrays at what the pipeline leaves. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the hardest-positive region, entered from W2: its four arrays at what the pipeline leaves. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After the first host stretch (the two means and the margin column), -/
abbrev W4 : Dev nD → Valuation τ sig (Elt F) := fun c => StableHlo.after hostOps3 (W3 m ρ c)
/-- after the clipping at zero, -/
abbrev W5 : Dev nD → Valuation τ sig (Elt F) := fun c => StableHlo.after hostOps3_1 (W4 m ρ c)
/-- and after the last mean: what the program returns from. -/
abbrev W6 : Dev nD → Valuation τ sig (Elt F) := fun c => StableHlo.after hostOps3_2 (W5 m ρ c)

/-! ## The arguments end as launched

    No host operation writes an argument, and a region only reads one, through an input window (whose array the
    pipeline leaves as it found it) or not at all: the fold at an argument's buffer walks back to the launch memory. -/

/-- A buffer none of the three host stretches writes holds at the end what the last region left in it. -/
theorem W6_of_host (c : Dev nD) (r : Ref sig .tc) (h3 : r ∉ (hostOps3_W : List (Ref sig .tc)))
    (h4 : r ∉ (hostOps3_1_W : List (Ref sig .tc))) (h5 : r ∉ (hostOps3_2_W : List (Ref sig .tc))) :
    W6 m ρ c (Proc.devRef .tc r) = W3 m ρ c (Proc.devRef .tc r) :=
  (StableHlo.after_of_writes_sub hostOps3_2 _ hostOps3_2_writes h5).trans <|
    (StableHlo.after_of_writes_sub hostOps3_1 _ hostOps3_1_writes h4).trans <|
      StableHlo.after_of_writes_sub hostOps3 _ hostOps3_writes h3

/-- The anchors: an input window of all three regions. -/
theorem W6_main_arg0 (c : Dev nD) : W6 m ρ c (Proc.devRef .tc main_arg0) = m ((c : Thread nD τ).loc main_arg0) :=
  calc W6 m ρ c (Proc.devRef .tc main_arg0)
    _ = W3 m ρ c (Proc.devRef .tc main_arg0) := W6_of_host m ρ c main_arg0 (by decide) (by decide) (by decide)
    _ = W2 m ρ c (Proc.devRef .tc main_arg0) := (W3_arr m ρ c 0).trans (((dat2 (V2 m ρ) c).arrAt_in 0 rfl _).trans (A_eq2 (V2 m ρ) c 0))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The positives: an input window of the first and the third region, untouched by the second. -/
theorem W6_main_arg1 (c : Dev nD) : W6 m ρ c (Proc.devRef .tc main_arg1) = m ((c : Thread nD τ).loc main_arg1) :=
  calc W6 m ρ c (Proc.devRef .tc main_arg1)
    _ = W3 m ρ c (Proc.devRef .tc main_arg1) := W6_of_host m ρ c main_arg1 (by decide) (by decide) (by decide)
    _ = W2 m ρ c (Proc.devRef .tc main_arg1) := (W3_arr m ρ c 1).trans (((dat2 (V2 m ρ) c).arrAt_in 1 rfl _).trans (A_eq2 (V2 m ρ) c 1))
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- The negatives: an input window of the first and the second region, untouched by the third. -/
theorem W6_main_arg2 (c : Dev nD) : W6 m ρ c (Proc.devRef .tc main_arg2) = m ((c : Thread nD τ).loc main_arg2) :=
  calc W6 m ρ c (Proc.devRef .tc main_arg2)
    _ = W3 m ρ c (Proc.devRef .tc main_arg2) := W6_of_host m ρ c main_arg2 (by decide) (by decide) (by decide)
    _ = W2 m ρ c (Proc.devRef .tc main_arg2) := W3_of_ne m ρ c main_arg2 (by decide)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-! # The proof data of the three pipelines and the thread state -/

/-- Every pipeline's proof data, each at the contents its region is entered from: the first region's at
    the launch contents, the second's at what the first leaves, the third's at what the second leaves. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core's dues, at nothing. -/
abbrev R (c : Dev nD) : sProp 𝕄 := iprop((∃ r, prngReg c r) ∗ ∃ W, owes (c : Thread nD τ) (0 : CellTallies nD τ sig Unit) W)
/-- A stretch of host operations as a segment: over the unscoped references, from the contents W to the contents after
    the operations, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents W6, the generator register at
    some state. -/
abbrev Tₙ (c : Dev nD) : sProp 𝕄 := iprop(StableHlo.held (c : Thread nD τ) (Pipeline.ucRefs τ sig) (W6 m ρ c) ∗ ∃ r, prngReg c r)

/-! # The regions as segments -/

set_option backward.isDefEq.respectTransparency.types false in
/-- The row-distance region over the thread state: entered from every unscoped buffer at the launch contents W0, left at
    W1. Its five arrays are split out of the unscoped buffers and put back at what the pipeline leaves; the generator
    register goes into the region's invariant (which is the class's at every point) and comes back; nothing is owed;
    the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The hardest-negative region: entered from W1, what the region before it left, and left at W2. As above, but its
    invariant carries the scratch column of running maxima from the second point on: the class's invariant gives the
    invariant before the first point, and the invariant after the last gives the class's back (the column forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi1_in (V1 m ρ) c)
    unfold Pipeline.ΦA
    iintro ⟨Hp, -, Hr⟩
    isplitl [Hr]; · iexact Hr
    iexact Hp
  hout c := by
    rw [Pipeline.ownSems0_none]
    refine BIBase.Entails.trans (Phi1_out (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The hardest-positive region: entered from W2, left at W3, what the host operations start from. Its scratch column of
    running minima enters and leaves its invariant as the maxima's did. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi2_in (V2 m ρ) c)
    unfold Pipeline.ΦA
    iintro ⟨Hp, -, Hr⟩
    isplitl [Hr]; · iexact Hr
    iexact Hp
  hout c := by
    rw [Pipeline.ownSems0_none]
    refine BIBase.Entails.trans (Phi2_out (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the launch -/

/-- The program's six segments in order: the three regions, then a host segment per stretch, each from the contents the
    segment before it leaves. -/
abbrev segs : List (Pipeline.Seg (pcfgs (F := F)) adm (pdats m ρ) () defs₀ 𝒱₀ L lv) :=
  [ .region (reg0 m ρ),
    .region (reg1 m ρ),
    .region (reg2 m ρ),
    .host (hseg hostOps3 hostOps3_sub hostOps3_fresh (W3 m ρ)),
    .host (hseg hostOps3_1 hostOps3_1_sub hostOps3_1_fresh (W4 m ρ)),
    .host (hseg hostOps3_2 hostOps3_2_sub hostOps3_2_fresh (W5 m ρ)) ]
/-- The program IS the run of the segments: it is the chain of its six items, and the segments' run unfolds to that
    chain. -/
theorem main_run (c : Dev nD) : main (F := F) c = Pipeline.Seg.run (segs m ρ) := (main_chain c).trans (by chain_rfl)

/-- What the last host segment leaves is the last thread state beside the core owing nothing (the same three parts,
    regrouped). -/
theorem last_state (c : Dev nD) :
    iprop(StableHlo.held (c : Thread nD τ) (Pipeline.ucRefs τ sig) (W6 m ρ c) ∗ R (F := F) c)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

set_option backward.isDefEq.respectTransparency.types false in
/-- THE RUN. From any memory with zero counters, every weakly fair execution of the program on the TensorCores
    terminates, nothing faulting, and in every final memory each unscoped buffer of each core holds W6: the launch
    over the six segments, whose thread states chain by construction; the first made from what the launch deals; the
    last read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, last_state m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.Frames.lean ====
/-
  The two kernel programs' frames: each runs to the end, faults nowhere, and leaves its three argument arrays as
  launched. Both follow from the run of the whole @main with every unscoped buffer named at its end: no host
  operation and no kernel region writes an argument, so the named contents at an argument are the launch contents.
-/
import proofs.«110565_j10264971838200_1_alg».proof.Defs
import proofs.«110565_j10264971838200_1_alg».proof.Proof.Run
import proofs.«110565_j10264971838200_1_alg».proof.Proof.KRun
import proofs.«110565_j10264971838200_1_alg».proof.Proof.Gen.Pre_finite_inputs

noncomputable section

namespace Cert.Proof.Frames

open Idealize.ShloMosaic Idealize.SL.Sem

/-- The printed kernel program, at the word-level instance. -/
theorem frame_kernel : Cert.frame_Kernel := fun m ρ _ =>
  (θ_run Cert.Kernel.defs _ _).mono (fun r h c =>
    ⟨(h c _ (Cert.Kernel.Hand.mem_uc Cert.Kernel.main_arg0 (by decide))).trans (Cert.Kernel.Hand.W6_main_arg0 m ρ c),
     (h c _ (Cert.Kernel.Hand.mem_uc Cert.Kernel.main_arg1 (by decide))).trans (Cert.Kernel.Hand.W6_main_arg1 m ρ c),
     (h c _ (Cert.Kernel.Hand.mem_uc Cert.Kernel.main_arg2 (by decide))).trans (Cert.Kernel.Hand.W6_main_arg2 m ρ c)⟩)
    (Cert.Kernel.Hand.run_main (F := Bits) m ρ)

/-- The idealized kernel program, at the ideal instance. -/
theorem frame_kernelIdeal : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W6_main_arg0 m ρ c),
     (h c _ (Cert.KernelIdeal.Hand.mem_uc Cert.KernelIdeal.main_arg1 (by decide))).trans (Cert.KernelIdeal.Hand.W6_main_arg1 m ρ c),
     (h c _ (Cert.KernelIdeal.Hand.mem_uc Cert.KernelIdeal.main_arg2 (by decide))).trans (Cert.KernelIdeal.Hand.W6_main_arg2 m ρ c)⟩)
    (Cert.KernelIdeal.Hand.run_main (F := Ideal) m ρ)

end Cert.Proof.Frames

end
-- ==== Proof.Spec.lean ====
/-
  The mathematics of the triplet loss with hardest-example mining, on the extended reals, as ONE function of the
  three embedding matrices: what both programs compute, index by index.

  For anchors a, positives p, negatives n (each 4096 rows of 1024 entries) and the shift ε:
  * the row distance  d(x, y)(r) = sqrt (Σ_k (x(r,k) − y(r,k) + ε)²);
  * the pairwise distance of row r of x to row s of y by the expansion
      ‖x_r − y_s + ε‖² = Σ x_r² + Σ y_s² − 2 Σ x_r y_s + 2ε (Σ x_r − Σ y_s) + 1024 ε²,
    clamped below at 0 before the square root;
  * the hardest negative of anchor r: the largest pairwise distance to a negative that lies strictly below d(a,p)(r),
    and 0 when there is none; the hardest positive: the smallest pairwise distance to a positive strictly above
    d(a,n)(r), and 0 when there is none;
  * the loss: the mean over r of max(0, d(a,p)(r) − ½·mean(hardest positives) − ½·mean(hardest negatives) + 1).
  "No candidate" is spelt here as "the extremum over the masked distances is still the fold's neutral element"
  (⊥ for the maximum, ⊤ for the minimum).
-/
import Idealize.ShloMosaic.Lib.ValueIdx
import Idealize.ShloMosaic.PureOps.Ideal

noncomputable section

namespace Cert.Spec

open Idealize.ShloMosaic Idealize.ShloMosaic.ValueIdx

/-- A 4096 × 1024 matrix of extended reals. -/
abbrev Mat : Type := (⟨2, ![4096, 1024]⟩ : Shape).Idx → EReal

/-- The shift ε added to every difference (the f32 nearest 10⁻⁶, read exactly). -/
abbrev eps : EReal := Ideal.ofBits .f32 0x358637BD#32
abbrev two : EReal := Ideal.ofBits .f32 0x40000000#32
/-- 2ε and 1024 ε², as the f32 words both programs carry. -/
abbrev twoEps : EReal := Ideal.ofBits .f32 0x360637BD#32
abbrev dEps2 : EReal := Ideal.ofBits .f32 0x308CBCCC#32
abbrev half : EReal := Ideal.ofBits .f32 0x3F000000#32
abbrev one : EReal := Ideal.ofBits .f32 0x3F800000#32
abbrev n4096 : EReal := Ideal.ofBits .f32 0x45800000#32

/-- The shifted distance of two rows u, v of 1024 entries: sqrt (Σ_k (u k − v k + ε)²). -/
def rowDistRow (u v : Fin 1024 → EReal) : EReal :=
  Ideal.sqrt (∑ k : Fin 1024, (u k - v k + eps) * (u k - v k + eps))

/-- The squared shifted distance of two rows by the expansion of the square:
    Σ u² + Σ v² − 2 Σ u v + 2ε (Σ u − Σ v) + 1024 ε². -/
def sqRow (u v : Fin 1024 → EReal) : EReal :=
  (∑ k : Fin 1024, u k * u k) + (∑ k : Fin 1024, v k * v k)
    - two * (∑ k : Fin 1024, u k * v k)
    + twoEps * ((∑ k : Fin 1024, u k) - (∑ k : Fin 1024, v k))
    + dEps2

/-- The pairwise distance of two rows: the square root of the expansion clamped at zero. -/
def distRow (u v : Fin 1024 → EReal) : EReal := Ideal.sqrt (max (sqRow u v) 0)

/-- Row r of a matrix. -/
abbrev row (x : Mat) (r : Fin 4096) : Fin 1024 → EReal := fun k => x (ix2 r k)

/-- The distance of row r of x to row r of y, shifted by ε. -/
def rowDist (x y : Mat) (r : Fin 4096) : EReal := rowDistRow (row x r) (row y r)

/-- The squared distance of row r of x to row s of y by the expansion of the square. -/
def sqDist (x y : Mat) (r s : Fin 4096) : EReal := sqRow (row x r) (row y s)

/-- The pairwise distance of row r of x to row s of y. -/
def dist (x y : Mat) (r s : Fin 4096) : EReal := distRow (row x r) (row y s)

/-- The distance of row r of x to row s of y where it lies strictly below the threshold d r, else ⊥. -/
def maskedBelowT (x y : Mat) (d : Fin 4096 → EReal) (r s : Fin 4096) : EReal :=
  if dist x y r s < d r then dist x y r s else ⊥

/-- The largest masked distance of row r, 0 when no row s qualifies (the fold is then still at its neutral ⊥). -/
def hardNegT (x y : Mat) (d : Fin 4096 → EReal) (r : Fin 4096) : EReal :=
  if (Finset.univ : Finset (Fin 4096)).fold max ⊥ (maskedBelowT x y d r) = ⊥ then 0
  else (Finset.univ : Finset (Fin 4096)).fold max ⊥ (maskedBelowT x y d r)

/-- The distance of row r of x to row s of y where it lies strictly above the threshold d r, else ⊤. -/
def maskedAboveT (x y : Mat) (d : Fin 4096 → EReal) (r s : Fin 4096) : EReal :=
  if d r < dist x y r s then dist x y r s else ⊤

/-- The smallest masked distance of row r, 0 when no row s qualifies (the fold is then still at its neutral ⊤). -/
def hardPosT (x y : Mat) (d : Fin 4096 → EReal) (r : Fin 4096) : EReal :=
  if (Finset.univ : Finset (Fin 4096)).fold min ⊤ (maskedAboveT x y d r) = ⊤ then 0
  else (Finset.univ : Finset (Fin 4096)).fold min ⊤ (maskedAboveT x y d r)

/-- The hardest negative of anchor r: the largest distance to a negative strictly below the anchor's distance to its
    own positive, 0 when there is none. -/
def hardNeg (a n p : Mat) (r : Fin 4096) : EReal := hardNegT a n (rowDist a p) r

/-- The hardest positive of anchor r: the smallest distance to a positive strictly above the anchor's distance to its
    own negative, 0 when there is none. -/
def hardPos (a p n : Mat) (r : Fin 4096) : EReal := hardPosT a p (rowDist a n) r

/-- The mean of 4096 values. -/
def mean (f : Fin 4096 → EReal) : EReal := Ideal.div (∑ r : Fin 4096, f r) n4096

/-- The loss from the three columns: the anchors' distances to their positives, the hardest positives, the hardest
    negatives. -/
def lossOf (dap hp hn : Fin 4096 → EReal) : EReal :=
  mean fun r => max 0 (dap r - half * mean hp - half * mean hn + one)

/-- The loss. -/
def loss (a p n : Mat) : EReal := lossOf (rowDist a p) (hardPos a p n) (hardNeg a n p)

end Cert.Spec

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«110565_j10264971838200_1_alg».proof.Proof.LibLayoutCol
import proofs.«110565_j10264971838200_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.KValue0.lean ====
/-
  Region 0's two output arrays after the region, read at a row (at the ideal values).

  At grid point t the region's body reads rows 1024 t … 1024 t + 1023 of the anchors a, the positives p and the
  negatives n and stores the two columns sqrt (Σ_k (a − p + ε)²) and sqrt (Σ_k (a − n + ε)²) of those rows, which the
  point writes back as block t of the two [4096, 1] outputs. The four blocks tile each output, and each is block t of
  ONE whole-array function: the column of shifted row distances. So after the region the first output holds at row r
  the specification's rowDist a p r and the second rowDist a n r.

  The steps: the stored value at an index (the entry-by-entry operations, the sum along a row kept as a column, the
  square root); an input block's element (y, k) is its array's element (1024 t + y, k); what a point writes back is its
  block of the column; row r lies in the block of point r / 1024; the library's whole-array post for a tiled output.
-/
import proofs.«110565_j10264971838200_1_alg».proof.Proof.R0
import proofs.«110565_j10264971838200_1_alg».proof.Proof.Spec
import proofs.«110565_j10264971838200_1_alg».proof.Proof.LibColSum
import Idealize.ShloMosaic.Lib.ValueIdx
import Idealize.ShloMosaic.Lib.Pipeline.Value
import Idealize.ShloMosaic.PureOps.Ideal

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The body's two stored values at an index

Row y of the first stored column is sqrt (Σ_k (x0(y,k) − x1(y,k) + ε)²): the difference, the shift by the broadcast
scalar ε and the square are entry by entry; the sum over axis 1, kept as a column, is the sum over the row's 1024
entries; the square root is entry by entry. The second stored column is the same term of its own two blocks. -/

theorem pay1_apply (x0 x1 : Vec Ideal S1024x1024 .f32) (y : Fin 1024) :
    (k0_pay1 (F := Ideal) x0 x1 : S1024x1.Idx → EReal) (ix2 y (0 : Fin 1))
      = Spec.rowDistRow (fun k => x0 (ix2 y k)) (fun k => x1 (ix2 y k)) := by
  unfold k0_pay1 Spec.rowDistRow
  refine congrArg Ideal.sqrt ((Cert.Lib.ColSum.rowSumCol_apply _ reduces_S1024x1024_S1024 (.inl rfl) rfl shapeCasts_S1024_S1024x1 y 0).trans ?_)
  rfl

theorem pay2_apply (x0 x2 : Vec Ideal S1024x1024 .f32) (y : Fin 1024) :
    (k0_pay2 (F := Ideal) x0 x2 : S1024x1.Idx → EReal) (ix2 y (0 : Fin 1))
      = Spec.rowDistRow (fun k => x0 (ix2 y k)) (fun k => x2 (ix2 y k)) := by
  unfold k0_pay2 Spec.rowDistRow
  refine congrArg Ideal.sqrt ((Cert.Lib.ColSum.rowSumCol_apply _ reduces_S1024x1024_S1024 (.inl rfl) rfl shapeCasts_S1024_S1024x1 y 0).trans ?_)
  rfl

/-! ## The blocks

At point t every window's block index is (t, 0): decided once over the four points. So an element (y, k) of an input
block sits in its array at row 1024 t + y, column k, and element (y, 0) of an output block at row 1024 t + y. -/

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 4 := lt_of_lt_of_eq t.isLt N_0

/-- The anchors' block at point t, at (y, k), is the anchors' array at (1024 t + y, k). -/
theorem iblk0_0_apply (c : Dev nD) (t : Fin cfg0.N) (y k : Fin 1024) (r : Fin 4096) (hr : r.val = 1024 * t.val + y.val) :
    (iblk0 (F := Ideal) V c 0 t : Vec Ideal S1024x1024 .f32) (ix2 y k) = (V c main_arg0 : S4096x1024.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * y.val = r.val; rw [e0, hr]; omega
  | ⟨1, _⟩ => show win0_0.index t (1 : Fin 2) * 1024 + 1 * k.val = k.val; rw [e1]; omega

/-- The positives' block. -/
theorem iblk0_1_apply (c : Dev nD) (t : Fin cfg0.N) (y k : Fin 1024) (r : Fin 4096) (hr : r.val = 1024 * t.val + y.val) :
    (iblk0 (F := Ideal) V c 1 t : Vec Ideal S1024x1024 .f32) (ix2 y k) = (V c main_arg1 : S4096x1024.Idx → EReal) (ix2 r k) := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t (0 : Fin 2) * 1024 + 1 * y.val = r.val; rw [e0, hr]; omega
  | ⟨1, _⟩ => show win0_1.index t (1 : Fin 2) * 1024 + 1 * k.val = k.val; rw [e1]; omega

/-- The negatives' block. -/
theorem iblk0_2_apply (c : Dev nD) (t : Fin cfg0.N) (y k : Fin 1024) (r : Fin 4096) (hr : r.val = 1024 * t.val + y.val) :
    (iblk0 (F := Ideal) V c 2 t : Vec Ideal S1024x1024 .f32) (ix2 y k) = (V c main_arg2 : S4096x1024.Idx → EReal) (ix2 r k) := by
  obtain ⟨-, -, -, -, e0, e1, -⟩ := idx_facts0 t
  unfold iblk0
  rw [View.read_apply]
  show V c main_arg2 _ = V c main_arg2 _
  congr 1
  funext a
  apply Fin.ext
  match a with
  | ⟨0, _⟩ => show win0_2.index t (0 : Fin 2) * 1024 + 1 * y.val = r.val; rw [e0, hr]; omega
  | ⟨1, _⟩ => show win0_2.index t (1 : Fin 2) * 1024 + 1 * k.val = k.val; rw [e1]; omega

/-! ## The two distance columns as whole-array functions -/

/-- The column of the anchors' distances to their positives: at (r, 0) the shifted distance of row r. -/
def distAP (c : Dev nD) : S4096x1.Idx → EReal :=
  fun i => Spec.rowDist (V c main_arg0) (V c main_arg1) ⟨(i 0).val, idx2_lt0 i⟩
/-- The column of the anchors' distances to their negatives. -/
def distAN (c : Dev nD) : S4096x1.Idx → EReal :=
  fun i => Spec.rowDist (V c main_arg0) (V c main_arg2) ⟨(i 0).val, idx2_lt0 i⟩

theorem distAP_apply (c : Dev nD) (i : S4096x1.Idx) (r : Fin 4096) (hr : (i 0).val = r.val) :
    distAP V c i = Spec.rowDistRow (fun k => (V c main_arg0 : S4096x1024.Idx → EReal) (ix2 r k)) (fun k => (V c main_arg1 : S4096x1024.Idx → EReal) (ix2 r k)) := by
  have e : (⟨(i 0).val, idx2_lt0 i⟩ : Fin 4096) = r := Fin.ext hr
  unfold distAP
  rw [e]
  rfl
theorem distAN_apply (c : Dev nD) (i : S4096x1.Idx) (r : Fin 4096) (hr : (i 0).val = r.val) :
    distAN V c i = Spec.rowDistRow (fun k => (V c main_arg0 : S4096x1024.Idx → EReal) (ix2 r k)) (fun k => (V c main_arg2 : S4096x1024.Idx → EReal) (ix2 r k)) := by
  have e : (⟨(i 0).val, idx2_lt0 i⟩ : Fin 4096) = r := Fin.ext hr
  unfold distAN
  rw [e]
  rfl

/-! ## What a point writes back is its block of the column -/

/-- The first stored value of point t, at an index of the block, is the column where the block's rectangle puts that index. -/
theorem stored3_apply (c : Dev nD) (t : Fin cfg0.N) (j : S1024x1.Idx) :
    (k0_pay1 (F := Ideal) (iblk0 (F := Ideal) V c 0 t) (iblk0 (F := Ideal) V c 1 t) : S1024x1.Idx → EReal) j
      = distAP V c (((cfg0.win 3).blk t).view.emb j) := by
  obtain ⟨y, z, rfl⟩ : ∃ (y : Fin 1024) (z : Fin 1), j = ix2 y z := ⟨j 0, j 1, eq_ix2 j⟩
  obtain rfl : z = 0 := Subsingleton.elim _ _
  obtain ⟨-, -, -, -, -, -, e6, -⟩ := idx_facts0 t
  have ht := point_lt t
  have hr : ((((cfg0.win 3).blk t).view.emb (ix2 y (0 : Fin 1))) 0).val = (⟨1024 * t.val + y.val, by omega⟩ : Fin 4096).val := by
    show win0_3.index t (0 : Fin 2) * 1024 + 1 * y.val = 1024 * t.val + y.val
    rw [e6]; omega
  refine (pay1_apply (iblk0 (F := Ideal) V c 0 t) (iblk0 (F := Ideal) V c 1 t) y).trans ?_
  refine Eq.trans ?_ (distAP_apply V c _ ⟨1024 * t.val + y.val, by omega⟩ hr).symm
  congr 1 <;> funext k
  · exact iblk0_0_apply V c t y k _ rfl
  · exact iblk0_1_apply V c t y k _ rfl

theorem stored4_apply (c : Dev nD) (t : Fin cfg0.N) (j : S1024x1.Idx) :
    (k0_pay2 (F := Ideal) (iblk0 (F := Ideal) V c 0 t) (iblk0 (F := Ideal) V c 2 t) : S1024x1.Idx → EReal) j
      = distAN V c (((cfg0.win 4).blk t).view.emb j) := by
  obtain ⟨y, z, rfl⟩ : ∃ (y : Fin 1024) (z : Fin 1), j = ix2 y z := ⟨j 0, j 1, eq_ix2 j⟩
  obtain rfl : z = 0 := Subsingleton.elim _ _
  obtain ⟨-, -, -, -, -, -, -, -, e8, -⟩ := idx_facts0 t
  have ht := point_lt t
  have hr : ((((cfg0.win 4).blk t).view.emb (ix2 y (0 : Fin 1))) 0).val = (⟨1024 * t.val + y.val, by omega⟩ : Fin 4096).val := by
    show win0_4.index t (0 : Fin 2) * 1024 + 1 * y.val = 1024 * t.val + y.val
    rw [e8]; omega
  refine (pay2_apply (iblk0 (F := Ideal) V c 0 t) (iblk0 (F := Ideal) V c 2 t) y).trans ?_
  refine Eq.trans ?_ (distAN_apply V c _ ⟨1024 * t.val + y.val, by omega⟩ hr).symm
  congr 1 <;> funext k
  · exact iblk0_0_apply V c t y k _ rfl
  · exact iblk0_2_apply V c t y k _ rfl

/-- What point t writes back into the first output is block t of the column of anchor–positive distances. -/
theorem flushed0_3_eq (c : Dev nD) (t : Fin cfg0.N) :
    (dat0 (F := Ideal) V c).flushed 3 t = ((cfg0.win 3).blk t).view.read (Elt Ideal) (distAP V c) := by
  show (cfg0.win 3).cut (grid0.coords t) ((dat0 (F := Ideal) V c).after 3 t) = _
  rw [after0_3, out0_3_eq]
  funext j
  exact stored3_apply V c t j

theorem flushed0_4_eq (c : Dev nD) (t : Fin cfg0.N) :
    (dat0 (F := Ideal) V c).flushed 4 t = ((cfg0.win 4).blk t).view.read (Elt Ideal) (distAN V c) := by
  show (cfg0.win 4).cut (grid0.coords t) ((dat0 (F := Ideal) V c).after 4 t) = _
  rw [after0_4, out0_4_eq]
  funext j
  exact stored4_apply V c t j

/-! ## The blocks tile the columns: row r lies in the block of point r / 1024 -/

theorem mem_blk3 (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_0).slice (win0_3.rect t)).set ↔ _
  rw [View.set_slice_whole, Rect.mem_set_unit]
  exact Iff.rfl

theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_1).slice (win0_4.rect t)).set ↔ _
  rw [View.set_slice_whole, Rect.mem_set_unit]
  exact Iff.rfl

theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ : ∃ t : Fin cfg0.N, t.val = (i 0).val / 1024 := ⟨⟨(i 0).val / 1024, by rw [show cfg0.N = 4 from N_0]; omega⟩, rfl⟩
  obtain ⟨-, -, -, -, -, -, e6, e7, -⟩ := idx_facts0 t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; rw [e6, ht]; omega
  | ⟨1, _⟩ => show win0_3.index t (1 : Fin 2) * 1 ≤ (i 1).val ∧ (i 1).val < win0_3.index t (1 : Fin 2) * 1 + 1; rw [e7]; omega

theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  obtain ⟨t, ht⟩ : ∃ t : Fin cfg0.N, t.val = (i 0).val / 1024 := ⟨⟨(i 0).val / 1024, by rw [show cfg0.N = 4 from N_0]; omega⟩, rfl⟩
  obtain ⟨-, -, -, -, -, -, -, -, e8, e9⟩ := idx_facts0 t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; rw [e8, ht]; omega
  | ⟨1, _⟩ => show win0_4.index t (1 : Fin 2) * 1 ≤ (i 1).val ∧ (i 1).val < win0_4.index t (1 : Fin 2) * 1 + 1; rw [e9]; omega

/-! ## The two output arrays after the region -/

/-- After the region the first output holds, at row r, the shifted distance of anchor r to positive r. -/
theorem final0_3 (c : Dev nD) (r : Fin 4096) :
    ((dat0 (F := Ideal) V c).arrAt 3 cfg0.N : S4096x1.Idx → EReal) (ix2 r (0 : Fin 1)) = Spec.rowDist (V c main_arg0) (V c main_arg1) r :=
  congrFun ((dat0 (F := Ideal) V c).arrAt_eq_of_cover 3 (distAP V c) (fun t _ => flushed0_3_eq V c t) cover3) (ix2 r (0 : Fin 1))

/-- And the second, the shifted distance of anchor r to negative r. -/
theorem final0_4 (c : Dev nD) (r : Fin 4096) :
    ((dat0 (F := Ideal) V c).arrAt 4 cfg0.N : S4096x1.Idx → EReal) (ix2 r (0 : Fin 1)) = Spec.rowDist (V c main_arg0) (V c main_arg2) r :=
  congrFun ((dat0 (F := Ideal) V c).arrAt_eq_of_cover 4 (distAN V c) (fun t _ => flushed0_4_eq V c t) cover4) (ix2 r (0 : Fin 1))

end Cert.KernelIdeal.HandV

end
-- ==== Proof.LibMatmulRowRow.lean ====
/-
  A rows-by-rows product read at an entry (a general lemma: nothing here depends on a program).

  For a left factor l of shape [A, K] and a right factor r of shape [C, K], the dimension numbers "contract axis 1 of l
  with axis 1 of r, no batch axis" give a result of shape [A, C].  Into a zero accumulator, over the extended reals,
  its entry (p, q) is the sum over k < K of l (p, k) · r (q, k): the product of l with the transpose of r, the
  transpose never formed.  Any sizes A, K, C.  A printed record with lists [1], [1], [0], [0], [], [] over such shapes
  is `DotDims.transposedRhs A K C` by `rfl`.
-/
import Idealize.ShloMosaic.Lib.ValueIdx
import Idealize.ShloMosaic.PureOps.Ideal.Laws

noncomputable section

namespace Cert.Lib.MatmulRowRow

open Idealize.ShloMosaic Idealize.ShloMosaic.ValueIdx

variable {A K C : Nat}

/-- The left factor is read at the result's row … -/
theorem lhs0 (j : (⟨2, ![A, C]⟩ : Shape).Idx) (q : (DotDims.transposedRhs A K C).contr.Idx) :
    ((DotDims.transposedRhs A K C).lhsIdx j q 0).val = (j 0).val := by
  unfold DotDims.lhsIdx
  rw [dif_neg (show ¬(0 : Fin 2) ∈ (DotDims.transposedRhs A K C).lhsBatch from List.not_mem_nil),
    dif_pos (show (0 : Fin 2) ∈ (DotDims.transposedRhs A K C).lhsNonContracting from List.mem_singleton.mpr rfl)]
  rfl

/-- … and at the contraction coordinate as its column. -/
theorem lhs1 (j : (⟨2, ![A, C]⟩ : Shape).Idx) (q : (DotDims.transposedRhs A K C).contr.Idx) :
    ((DotDims.transposedRhs A K C).lhsIdx j q 1).val = (q ⟨0, Nat.one_pos⟩).val :=
  (DotDims.transposedRhs A K C).lhsIdx_val_of_single rfl j q

/-- The right factor is read at the row that is the result's column … -/
theorem rhs0 (j : (⟨2, ![A, C]⟩ : Shape).Idx) (q : (DotDims.transposedRhs A K C).contr.Idx) :
    ((DotDims.transposedRhs A K C).rhsIdx j q 0).val = (j 1).val := by
  unfold DotDims.rhsIdx
  rw [dif_neg (show ¬(0 : Fin 2) ∈ (DotDims.transposedRhs A K C).rhsBatch from List.not_mem_nil),
    dif_pos (show (0 : Fin 2) ∈ (DotDims.transposedRhs A K C).rhsNonContracting from List.mem_singleton.mpr rfl)]
  rfl

/-- … and at the contraction coordinate as its column. -/
theorem rhs1 (j : (⟨2, ![A, C]⟩ : Shape).Idx) (q : (DotDims.transposedRhs A K C).contr.Idx) :
    ((DotDims.transposedRhs A K C).rhsIdx j q 1).val = (q ⟨0, Nat.one_pos⟩).val :=
  (DotDims.transposedRhs A K C).rhsIdx_val_of_single rfl j q

/-- The contraction at entry (p, q) is the sum over the K products l (p, k) · r (q, k). -/
theorem contr_sum (l : (⟨2, ![A, K]⟩ : Shape).Idx → EReal) (r : (⟨2, ![C, K]⟩ : Shape).Idx → EReal)
    (p : Fin A) (q : Fin C) :
    ∑ s : (DotDims.transposedRhs A K C).contr.Idx,
        l ((DotDims.transposedRhs A K C).lhsIdx (ix2 p q) s) * r ((DotDims.transposedRhs A K C).rhsIdx (ix2 p q) s)
      = ∑ k : Fin K, l (ix2 p k) * r (ix2 q k) := by
  rw [← Equiv.sum_comp (contrEquiv1 (DotDims.transposedRhs A K C) K rfl rfl).symm]
  refine Finset.sum_congr rfl fun k _ => ?_
  have hk := contrEquiv1_symm_val (DotDims.transposedRhs A K C) K rfl rfl k
  have el : (DotDims.transposedRhs A K C).lhsIdx (ix2 p q)
      ((contrEquiv1 (DotDims.transposedRhs A K C) K rfl rfl).symm k) = ix2 p k := funext fun a => Fin.ext (by
    match a with
    | ⟨0, _⟩ => exact lhs0 _ _
    | ⟨1, _⟩ => exact (lhs1 _ _).trans hk)
  have er : (DotDims.transposedRhs A K C).rhsIdx (ix2 p q)
      ((contrEquiv1 (DotDims.transposedRhs A K C) K rfl rfl).symm k) = ix2 q k := funext fun a => Fin.ext (by
    match a with
    | ⟨0, _⟩ => exact rhs0 _ _
    | ⟨1, _⟩ => exact (rhs1 _ _).trans hk)
  rw [el, er]

/-- Entry (p, q) of the product into a zero accumulator. -/
theorem matmul_zero_apply {φ₁ φ₂ : FTy} (prec : Option ContractPrecision)
    (l : FVec Ideal ⟨2, ![A, K]⟩ φ₁) (r : FVec Ideal ⟨2, ![C, K]⟩ φ₂) (p : Fin A) (q : Fin C) :
    FloatOps.matmul (DotDims.transposedRhs A K C) prec l r (constant ⟨2, ![A, C]⟩ .f32 0x00000000#32) (ix2 p q)
      = ∑ k : Fin K, (l (ix2 p k) : EReal) * (r (ix2 q k) : EReal) := by
  rw [Ideal.matmul_constant_zero_apply]
  exact contr_sum l r p q

end Cert.Lib.MatmulRowRow

end
-- ==== Proof.LibColBroadcast.lean ====
/-
  A column repeated along the columns, read at an entry (a general lemma: nothing here depends on a program).

  A column [A, 1] broadcast to B columns [A, B] holds at (p, q) the column's entry p: a broadcast reads a unit axis
  at 0 and every other axis at the result's coordinate.  Any sizes A, B; companion of the row form (a row [1, A]
  broadcast down B rows read at (p, q) is the row at q).
-/
import Idealize.ShloMosaic.Lib.ValueIdx
import Idealize.ShloMosaic.Lib.Pipeline.Value

noncomputable section

namespace Cert.Lib.ColBroadcast

open Idealize.ShloMosaic Idealize.ShloMosaic.ValueIdx

/-- A column [A, 1] broadcast to B columns, at (p, q), is the column at (p, 0). -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

end Cert.Lib.ColBroadcast

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.LibMinReduce.lean ====
/-
  A float `vector.multi_reduction <minimumf>` over ONE axis, read at the ideal values: at each kept index it is the
  fold of `min`, from the accumulator's value, over that axis's coordinates (the companion of the library's reading
  of `<maximumf>`). Any rank, axis and extents.
-/
import Idealize.ShloMosaic.PureOps.Ideal.Laws

namespace Idealize.ShloMosaic.Ideal

variable {φ : FTy}

theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.LibTransposeCol.lean ====
/-
  A column transposed into a row, read at an entry (a general lemma: nothing here depends on a program).

  The transpose of a column [A, 1] under the permutation [1, 0] is the row [1, A] whose entry (0, q) is the column's
  entry (q, 0): result axis 0 is source axis 1 (the unit axis) and result axis 1 is source axis 0.  Any size A.
-/
import Idealize.ShloMosaic.Lib.ValueIdx
import Idealize.ShloMosaic.Lib.Pipeline.Value

noncomputable section

namespace Cert.Lib.TransposeCol

open Idealize.ShloMosaic Idealize.ShloMosaic.ValueIdx

/-- The row [1, A] that is the transpose of a column [A, 1], at (0, q), is the column at (q, 0). -/
theorem colTranspose_apply {α : Type} {A : Nat} (c : (⟨2, ![A, 1]⟩ : Shape).Idx → α)
    (h : (⟨2, ![A, 1]⟩ : Shape).Transposes [1, 0] ⟨2, ![1, A]⟩) (z : Fin 1) (q : Fin A) :
    transpose ⟨2, ![1, A]⟩ [1, 0] c h (ix2 z q) = c (ix2 q (0 : Fin 1)) := by
  refine transpose_apply [1, 0] c h (ix2 z q) (ix2 q (0 : Fin 1)) ?_
  intro b
  match b with
  | ⟨0, _⟩ =>
    show (0 : Nat) = z.val
    have := z.isLt
    omega
  | ⟨1, _⟩ => rfl

end Cert.Lib.TransposeCol

end
-- ==== Proof.PayMath.lean ====
/-
  The arithmetic of the kernel's named payloads, read at an index, over the extended reals.

  For two blocks xa, xn of 1024 rows of 1024 entries, a column xd of 1024 thresholds and a column s of 1024 running
  extrema:
  * the pairwise-distance payload at (y, z) is the distance of row y of xa to row z of xn by the expansion of the square,
      Σ u² + Σ v² − 2 Σ u v + 2ε (Σ u − Σ v) + 1024 ε²   (u = row y of xa, v = row z of xn),
    the five terms associated from the left exactly as the specification writes them, clamped below at 0 and
    square-rooted.  The two sums of squares and the two plain sums are row sums kept as columns; the one over xa is
    repeated along the columns, the one over xn is transposed into a row and repeated down the rows; the middle term is
    the product of xa with the transpose of xn;
  * the mask payload at (y, z) is the bit "that distance lies strictly below (region 1) / strictly above (region 2) the
    threshold xd(y)";
  * the update payload at (y, 0) is the old extremum s(y) joined with the extremum, over z, of the masked entries — the
    entry where the mask bit is set, the given scalar elsewhere — folded from −∞ with max (region 1), from +∞ with
    min (region 2);
  * the write-out payload at (y, 0) is 0 where the first column still holds the fold's neutral element, and the second
    column's entry elsewhere;
  * the reset payload is the neutral element everywhere.
  Combined, the update of s by the distances of xa to xn masked against xd is, at (y, 0),
      max (s y) (max over z of (d(y,z) if d(y,z) < xd(y), else −∞))      in region 1,
      min (s y) (min over z of (d(y,z) if xd(y) < d(y,z), else +∞))      in region 2,
  and the write-out of a column s from itself is "0 if s(y) is still the neutral element, else s(y)".
-/
import proofs.«110565_j10264971838200_1_alg».proof.Proof.Gen.KernelIdeal.Skeleton
import proofs.«110565_j10264971838200_1_alg».proof.Proof.Spec
import proofs.«110565_j10264971838200_1_alg».proof.Proof.LibMatmulRowRow
import proofs.«110565_j10264971838200_1_alg».proof.Proof.LibLayoutCol
import proofs.«110565_j10264971838200_1_alg».proof.Proof.LibColSum
import proofs.«110565_j10264971838200_1_alg».proof.Proof.LibColBroadcast
import proofs.«110565_j10264971838200_1_alg».proof.Proof.LibColToRow
import proofs.«110565_j10264971838200_1_alg».proof.Proof.LibMinReduce
import proofs.«110565_j10264971838200_1_alg».proof.Proof.LibTransposeCol
import Idealize.ShloMosaic.Lib.ValueIdx
import Idealize.ShloMosaic.Lib.Pipeline.Value
import Idealize.ShloMosaic.PureOps.Ideal.Laws

noncomputable section

namespace Cert.KernelIdeal.PayMath

open Cert.KernelIdeal Cert.KernelIdeal.Gen
open Idealize.ShloMosaic Idealize.ShloMosaic.ValueIdx

/-! ## Words and pointwise readings shared by both regions -/

/-- The f32 word 0xFF800000 denotes −∞. -/
theorem ofBits_negInf_f32 : Ideal.ofBits .f32 0xFF800000#32 = ⊥ := by simp [Ideal.ofBits, Ideal.ieee]

/-- The f32 word 0x7F800000 denotes +∞. -/
theorem ofBits_posInf_f32 : Ideal.ofBits .f32 0x7F800000#32 = ⊤ := by simp [Ideal.ofBits, Ideal.ieee]

/-- A square root at an index is the square root of the entry. -/
theorem sqrt_apply {s : Shape} {φ : FTy} (a : FVec Ideal s φ) (i : s.Idx) : sqrt a i = Ideal.sqrt (a i) := rfl

/-- A select on the bit of a strict comparison x < t is "x if x < t, else e". -/
theorem select_olt (x t e : EReal) : Scalar.select (Ideal.cmp .olt x t) x e = if x < t then x else e := by
  unfold Scalar.select Ideal.cmp
  by_cases h : x < t
  · simp [h]
  · simp [h]

/-- A select on the bit of a strict comparison t < x is "x if t < x, else e". -/
theorem select_ogt (x t e : EReal) : Scalar.select (Ideal.cmp .ogt x t) x e = if t < x then x else e := by
  unfold Scalar.select Ideal.cmp
  by_cases h : t < x
  · simp [h]
  · simp [h]

/-- A select on the bit of an equality x = n is "a if x = n, else b". -/
theorem select_oeq (x n a b : EReal) : Scalar.select (Ideal.cmp .oeq x n) a b = if x = n then a else b := by
  unfold Scalar.select Ideal.cmp
  by_cases h : x = n
  · simp [h]
  · simp [h]

/-! ## The five sums of the expansion, as the kernel lays them out -/

/-- The sums along the rows of a block, kept as a column and repeated along the columns: at (y, z) the sum of row y. -/
theorem rowSum_bcastCol (src : FVec Ideal S1024x1024 .f32) (hφ : FKind.Formats .f32)
    (hacc : (0x00000000#32 : BitVec 32) = 0x00000000#32) (y z : Fin 1024) :
    broadcastTo S1024x1024
        (shapeCast S1024x1 (multiReduction (F := Ideal) .add [1] S1024 src 0x00000000#32 reduces_S1024x1024_S1024 hφ hacc)
          shapeCasts_S1024_S1024x1)
        broadcasts_S1024x1_S1024x1024 (ix2 y z)
      = ∑ k : Fin 1024, (src (ix2 y k) : EReal) :=
  (Cert.Lib.ColSum.bcastColMat_apply _ broadcasts_S1024x1_S1024x1024 y z).trans
    (Cert.Lib.ColSum.rowSumCol_apply src reduces_S1024x1024_S1024 hφ hacc shapeCasts_S1024_S1024x1 y 0)

/-- The same column transposed into a row and repeated down the rows: at (y, z) the sum of row z. -/
theorem rowSum_bcastRow (src : FVec Ideal S1024x1024 .f32) (hφ : FKind.Formats .f32)
    (hacc : (0x00000000#32 : BitVec 32) = 0x00000000#32) (y z : Fin 1024) :
    broadcastTo S1024x1024
        (transpose S1x1024 [1, 0]
          (shapeCast S1024x1 (multiReduction (F := Ideal) .add [1] S1024 src 0x00000000#32 reduces_S1024x1024_S1024 hφ hacc)
            shapeCasts_S1024_S1024x1)
          transposes_S1024x1_p1_0_S1x1024)
        broadcasts_S1x1024_S1024x1024 (ix2 y z)
      = ∑ k : Fin 1024, (src (ix2 z k) : EReal) :=
  (Cert.Lib.ColToRow.bcastRowMat_apply _ broadcasts_S1x1024_S1024x1024 y z).trans
    ((Cert.Lib.TransposeCol.colTranspose_apply _ transposes_S1024x1_p1_0_S1x1024 0 z).trans
      (Cert.Lib.ColSum.rowSumCol_apply src reduces_S1024x1024_S1024 hφ hacc shapeCasts_S1024_S1024x1 z 0))

/-- Σ u²: the row sums of the entrywise square of the first block, repeated along the columns. -/
theorem sumSq_left (xa : FVec Ideal S1024x1024 .f32) (hφ : FKind.Formats .f32)
    (hacc : (0x00000000#32 : BitVec 32) = 0x00000000#32) (y z : Fin 1024) :
    broadcastTo S1024x1024
        (shapeCast S1024x1 (multiReduction (F := Ideal) .add [1] S1024 (mulf xa xa) 0x00000000#32 reduces_S1024x1024_S1024 hφ hacc)
          shapeCasts_S1024_S1024x1)
        broadcasts_S1024x1_S1024x1024 (ix2 y z)
      = ∑ k : Fin 1024, xa (ix2 y k) * xa (ix2 y k) :=
  rowSum_bcastCol (mulf xa xa) hφ hacc y z

/-- Σ v²: the row sums of the entrywise square of the second block, transposed and repeated down the rows. -/
theorem sumSq_right (xn : FVec Ideal S1024x1024 .f32) (hφ : FKind.Formats .f32)
    (hacc : (0x00000000#32 : BitVec 32) = 0x00000000#32) (y z : Fin 1024) :
    broadcastTo S1024x1024
        (transpose S1x1024 [1, 0]
          (shapeCast S1024x1 (multiReduction (F := Ideal) .add [1] S1024 (mulf xn xn) 0x00000000#32 reduces_S1024x1024_S1024 hφ hacc)
            shapeCasts_S1024_S1024x1)
          transposes_S1024x1_p1_0_S1x1024)
        broadcasts_S1x1024_S1024x1024 (ix2 y z)
      = ∑ k : Fin 1024, xn (ix2 z k) * xn (ix2 z k) :=
  rowSum_bcastRow (mulf xn xn) hφ hacc y z

/-- Σ u: the row sums of the first block, repeated along the columns. -/
theorem sum_left (xa : FVec Ideal S1024x1024 .f32) (hφ : FKind.Formats .f32)
    (hacc : (0x00000000#32 : BitVec 32) = 0x00000000#32) (y z : Fin 1024) :
    broadcastTo S1024x1024
        (shapeCast S1024x1 (multiReduction (F := Ideal) .add [1] S1024 xa 0x00000000#32 reduces_S1024x1024_S1024 hφ hacc)
          shapeCasts_S1024_S1024x1)
        broadcasts_S1024x1_S1024x1024 (ix2 y z)
      = ∑ k : Fin 1024, xa (ix2 y k) :=
  rowSum_bcastCol xa hφ hacc y z

/-- Σ v: the row sums of the second block, transposed and repeated down the rows. -/
theorem sum_right (xn : FVec Ideal S1024x1024 .f32) (hφ : FKind.Formats .f32)
    (hacc : (0x00000000#32 : BitVec 32) = 0x00000000#32) (y z : Fin 1024) :
    broadcastTo S1024x1024
        (transpose S1x1024 [1, 0]
          (shapeCast S1024x1 (multiReduction (F := Ideal) .add [1] S1024 xn 0x00000000#32 reduces_S1024x1024_S1024 hφ hacc)
            shapeCasts_S1024_S1024x1)
          transposes_S1024x1_p1_0_S1x1024)
        broadcasts_S1x1024_S1024x1024 (ix2 y z)
      = ∑ k : Fin 1024, xn (ix2 z k) :=
  rowSum_bcastRow xn hφ hacc y z

/-- Σ u v: the product of the first block with the transpose of the second, at (y, z), is the inner product of row y
    of the first with row z of the second. -/
theorem sum_cross (xa xn : FVec Ideal S1024x1024 .f32) (y z : Fin 1024) :
    matmul dot_S1024x1024_S1024x1024_S1024x1024_1_1_0_0_n_n none xa xn (constant (F := Ideal) S1024x1024 .f32 0x00000000#32) (ix2 y z)
      = ∑ k : Fin 1024, xa (ix2 y k) * xn (ix2 z k) :=
  Cert.Lib.MatmulRowRow.matmul_zero_apply (A := 1024) (K := 1024) (C := 1024) none xa xn y z

/-! ## The extremum along a row, kept as a column -/

/-- The maxima along the rows of a block, from −∞, laid out as a column: at (y, 0) the fold of max over row y. -/
theorem rowMax_col (src : FVec Ideal S1024x1024 .f32) (hφ : FKind.Formats .f32)
    (hacc : (0xFF800000#32 : BitVec 32) = 0xFF800000#32) (y : Fin 1024) (z : Fin 1) :
    shapeCast S1024x1 (multiReduction (F := Ideal) .maximumf [1] S1024 src 0xFF800000#32 reduces_S1024x1024_S1024 hφ hacc)
        shapeCasts_S1024_S1024x1 (ix2 y z)
      = (Finset.univ : Finset (Fin 1024)).fold max (FloatOps.ofBits (F := Ideal) .f32 0xFF800000#32) (fun k => src (ix2 y k)) := by
  refine (Cert.Lib.LayoutCol.colCast_apply _ shapeCasts_S1024_S1024x1 y z).trans ?_
  refine (Ideal.multiReduction_maximumf_single src 0xFF800000#32 reduces_S1024x1024_S1024 hφ hacc (ix1 y)).trans ?_
  refine congrArg (fun f : Fin 1024 → EReal => (Finset.univ : Finset (Fin 1024)).fold max (FloatOps.ofBits (F := Ideal) .f32 0xFF800000#32) f) ?_
  funext k
  refine congrArg src (funext fun a => ?_)
  match a with
  | ⟨0, _⟩ => rfl
  | ⟨1, _⟩ => rfl

/-- The minima along the rows of a block, from +∞, laid out as a column: at (y, 0) the fold of min over row y. -/
theorem rowMin_col (src : FVec Ideal S1024x1024 .f32) (hφ : FKind.Formats .f32)
    (hacc : (0x7F800000#32 : BitVec 32) = 0x7F800000#32) (y : Fin 1024) (z : Fin 1) :
    shapeCast S1024x1 (multiReduction (F := Ideal) .minimumf [1] S1024 src 0x7F800000#32 reduces_S1024x1024_S1024 hφ hacc)
        shapeCasts_S1024_S1024x1 (ix2 y z)
      = (Finset.univ : Finset (Fin 1024)).fold min (FloatOps.ofBits (F := Ideal) .f32 0x7F800000#32) (fun k => src (ix2 y k)) := by
  refine (Cert.Lib.LayoutCol.colCast_apply _ shapeCasts_S1024_S1024x1 y z).trans ?_
  refine (Ideal.multiReduction_minimumf_single src 0x7F800000#32 reduces_S1024x1024_S1024 hφ hacc (ix1 y)).trans ?_
  refine congrArg (fun f : Fin 1024 → EReal => (Finset.univ : Finset (Fin 1024)).fold min (FloatOps.ofBits (F := Ideal) .f32 0x7F800000#32) f) ?_
  funext k
  refine congrArg src (funext fun a => ?_)
  match a with
  | ⟨0, _⟩ => rfl
  | ⟨1, _⟩ => rfl

/-! ## Region 1: the hardest negative (maxima from −∞, the mask "strictly below the threshold") -/

/-- The reset payload is −∞ everywhere. -/
theorem k1_pay3_apply (y : Fin 1024) : (k1_pay3 (F := Ideal)) (ix2 y 0) = ⊥ := by
  unfold k1_pay3
  rw [shapeCast_self]
  exact ofBits_negInf_f32

/-- The write-out payload at (y, 0): 0 where the first column is −∞, the second column's entry elsewhere. -/
theorem k1_pay2_apply (v51 v54 : Vec Ideal S1024x1 .f32) (y : Fin 1024) :
    k1_pay2 v51 v54 (ix2 y 0) = Scalar.select (Ideal.cmp .oeq (v51 (ix2 y 0)) ⊥) 0 (v54 (ix2 y 0)) := by
  unfold k1_pay2
  rw [select_apply, cmpf_apply, broadcast_apply, broadcast_apply]
  show Scalar.select (Ideal.cmp .oeq (v51 (ix2 y 0)) (Ideal.ofBits .f32 0xFF800000#32)) (Ideal.ofBits .f32 0x00000000#32)
      (v54 (ix2 y 0)) = _
  rw [ofBits_negInf_f32, Ideal.ofBits_zero_f32]

/-- The write-out of a column from itself: 0 where it still holds −∞, its own entry elsewhere. -/
theorem k1_out_apply (s : Vec Ideal S1024x1 .f32) (y : Fin 1024) :
    k1_pay2 s s (ix2 y 0) = if s (ix2 y 0) = ⊥ then 0 else s (ix2 y 0) := by
  rw [k1_pay2_apply, select_oeq]

/-- The pairwise-distance payload at (y, z): the distance of row y of the first block to row z of the second, by the
    expansion Σ u² + Σ v² − 2 Σ u v + 2ε (Σ u − Σ v) + 1024 ε², clamped at 0, square-rooted. -/
theorem k1_pay4_apply (xa xn : Vec Ideal S1024x1024 .f32) (y z : Fin 1024) :
    k1_pay4 xa xn (ix2 y z) = Spec.distRow (fun k => xa (ix2 y k)) (fun k => xn (ix2 z k)) := by
  unfold k1_pay4
  simp only [sqrt_apply, maximumf_apply, addf_apply, subf_apply, mulf_apply, broadcast_apply]
  rw [sumSq_left, sumSq_right, sum_left, sum_right, sum_cross]
  unfold Spec.distRow Spec.sqRow
  rw [Ideal.ofBits_def, Ideal.ofBits_def, Ideal.ofBits_def, Ideal.ofBits_def, Ideal.ofBits_zero_f32]

/-- The mask payload at (y, z): the bit "the distance lies strictly below the threshold of row y". -/
theorem k1_pay5_apply (xa xn : Vec Ideal S1024x1024 .f32) (xd : Vec Ideal S1024x1 .f32) (y z : Fin 1024) :
    k1_pay5 xa xn xd (ix2 y z) = Ideal.cmp .olt (k1_pay4 xa xn (ix2 y z)) (xd (ix2 y 0)) := by
  unfold k1_pay5
  rw [cmpf_apply, shapeCast_self, Cert.Lib.ColBroadcast.bcastColMat_apply]
  rfl

/-- The update payload at (y, 0): the old maximum joined with the maximum, over z, of the entries selected by the mask
    (the given scalar where the bit is clear), folded from −∞. -/
theorem k1_pay1_apply (v34 : FVec Ideal S1024x1024 .f32) (v38 : IVec S1024x1024 1) (cst : Ideal .f32)
    (s : Vec Ideal S1024x1 .f32) (y : Fin 1024) :
    k1_pay1 v34 v38 cst s (ix2 y 0)
      = max (s (ix2 y 0)) ((Finset.univ : Finset (Fin 1024)).fold max (FloatOps.ofBits (F := Ideal) .f32 0xFF800000#32)
          (fun z => Scalar.select (v38 (ix2 y z)) (v34 (ix2 y z)) cst)) := by
  unfold k1_pay1
  rw [shapeCast_self, maximumf_apply, rowMax_col]
  rfl

/-- The update of the running maxima by one pair of blocks, at (y, 0): the old maximum joined with the largest
    distance of row y to a row of the second block that lies strictly below the threshold of row y (−∞ when none does). -/
theorem k1_step_apply (xa xn : Vec Ideal S1024x1024 .f32) (xd s : Vec Ideal S1024x1 .f32) (y : Fin 1024) :
    k1_pay1 (k1_pay4 xa xn) (k1_pay5 xa xn xd) (Scalar.ofBits .f32 0xFF800000#32) s (ix2 y 0)
      = max (s (ix2 y 0)) ((Finset.univ : Finset (Fin 1024)).fold max ⊥
          (fun z => if Spec.distRow (fun k => xa (ix2 y k)) (fun k => xn (ix2 z k)) < xd (ix2 y 0)
            then Spec.distRow (fun k => xa (ix2 y k)) (fun k => xn (ix2 z k)) else ⊥)) := by
  rw [k1_pay1_apply]
  have e : (fun z : Fin 1024 => Scalar.select (k1_pay5 xa xn xd (ix2 y z)) (k1_pay4 xa xn (ix2 y z))
        (Scalar.ofBits (F := Ideal) .f32 0xFF800000#32))
      = fun z => if Spec.distRow (fun k => xa (ix2 y k)) (fun k => xn (ix2 z k)) < xd (ix2 y 0)
          then Spec.distRow (fun k => xa (ix2 y k)) (fun k => xn (ix2 z k)) else ⊥ := by
    funext z
    rw [k1_pay5_apply, k1_pay4_apply, select_olt]
    exact congrArg (fun e : EReal => if Spec.distRow (fun k => xa (ix2 y k)) (fun k => xn (ix2 z k)) < xd (ix2 y 0)
      then Spec.distRow (fun k => xa (ix2 y k)) (fun k => xn (ix2 z k)) else e) ofBits_negInf_f32
  rw [e]
  exact congrArg (fun b : EReal => max (s (ix2 y 0)) ((Finset.univ : Finset (Fin 1024)).fold max b
    (fun z => if Spec.distRow (fun k => xa (ix2 y k)) (fun k => xn (ix2 z k)) < xd (ix2 y 0)
      then Spec.distRow (fun k => xa (ix2 y k)) (fun k => xn (ix2 z k)) else ⊥))) ofBits_negInf_f32

/-! ## Region 2: the hardest positive (minima from +∞, the mask "strictly above the threshold") -/

/-- The reset payload is +∞ everywhere. -/
theorem k2_pay3_apply (y : Fin 1024) : (k2_pay3 (F := Ideal)) (ix2 y 0) = ⊤ := by
  unfold k2_pay3
  rw [shapeCast_self]
  exact ofBits_posInf_f32

/-- The write-out payload at (y, 0): 0 where the first column is +∞, the second column's entry elsewhere. -/
theorem k2_pay2_apply (v51 v54 : Vec Ideal S1024x1 .f32) (y : Fin 1024) :
    k2_pay2 v51 v54 (ix2 y 0) = Scalar.select (Ideal.cmp .oeq (v51 (ix2 y 0)) ⊤) 0 (v54 (ix2 y 0)) := by
  unfold k2_pay2
  rw [select_apply, cmpf_apply, broadcast_apply, broadcast_apply]
  show Scalar.select (Ideal.cmp .oeq (v51 (ix2 y 0)) (Ideal.ofBits .f32 0x7F800000#32)) (Ideal.ofBits .f32 0x00000000#32)
      (v54 (ix2 y 0)) = _
  rw [ofBits_posInf_f32, Ideal.ofBits_zero_f32]

/-- The write-out of a column from itself: 0 where it still holds +∞, its own entry elsewhere. -/
theorem k2_out_apply (s : Vec Ideal S1024x1 .f32) (y : Fin 1024) :
    k2_pay2 s s (ix2 y 0) = if s (ix2 y 0) = ⊤ then 0 else s (ix2 y 0) := by
  rw [k2_pay2_apply, select_oeq]

/-- The pairwise-distance payload at (y, z): the distance of row y of the first block to row z of the second, by the
    expansion Σ u² + Σ v² − 2 Σ u v + 2ε (Σ u − Σ v) + 1024 ε², clamped at 0, square-rooted. -/
theorem k2_pay4_apply (xa xn : Vec Ideal S1024x1024 .f32) (y z : Fin 1024) :
    k2_pay4 xa xn (ix2 y z) = Spec.distRow (fun k => xa (ix2 y k)) (fun k => xn (ix2 z k)) := by
  unfold k2_pay4
  simp only [sqrt_apply, maximumf_apply, addf_apply, subf_apply, mulf_apply, broadcast_apply]
  rw [sumSq_left, sumSq_right, sum_left, sum_right, sum_cross]
  unfold Spec.distRow Spec.sqRow
  rw [Ideal.ofBits_def, Ideal.ofBits_def, Ideal.ofBits_def, Ideal.ofBits_def, Ideal.ofBits_zero_f32]

/-- The mask payload at (y, z): the bit "the distance lies strictly above the threshold of row y". -/
theorem k2_pay5_apply (xa xn : Vec Ideal S1024x1024 .f32) (xd : Vec Ideal S1024x1 .f32) (y z : Fin 1024) :
    k2_pay5 xa xn xd (ix2 y z) = Ideal.cmp .ogt (k2_pay4 xa xn (ix2 y z)) (xd (ix2 y 0)) := by
  unfold k2_pay5
  rw [cmpf_apply, shapeCast_self, Cert.Lib.ColBroadcast.bcastColMat_apply]
  rfl

/-- The update payload at (y, 0): the old minimum joined with the minimum, over z, of the entries selected by the mask
    (the given scalar where the bit is clear), folded from +∞. -/
theorem k2_pay1_apply (v34 : FVec Ideal S1024x1024 .f32) (v38 : IVec S1024x1024 1) (cst : Ideal .f32)
    (s : Vec Ideal S1024x1 .f32) (y : Fin 1024) :
    k2_pay1 v34 v38 cst s (ix2 y 0)
      = min (s (ix2 y 0)) ((Finset.univ : Finset (Fin 1024)).fold min (FloatOps.ofBits (F := Ideal) .f32 0x7F800000#32)
          (fun z => Scalar.select (v38 (ix2 y z)) (v34 (ix2 y z)) cst)) := by
  unfold k2_pay1
  rw [shapeCast_self, minimumf_apply, rowMin_col]
  rfl

/-- The update of the running minima by one pair of blocks, at (y, 0): the old minimum joined with the smallest
    distance of row y to a row of the second block that lies strictly above the threshold of row y (+∞ when none does). -/
theorem k2_step_apply (xa xn : Vec Ideal S1024x1024 .f32) (xd s : Vec Ideal S1024x1 .f32) (y : Fin 1024) :
    k2_pay1 (k2_pay4 xa xn) (k2_pay5 xa xn xd) (Scalar.ofBits .f32 0x7F800000#32) s (ix2 y 0)
      = min (s (ix2 y 0)) ((Finset.univ : Finset (Fin 1024)).fold min ⊤
          (fun z => if xd (ix2 y 0) < Spec.distRow (fun k => xa (ix2 y k)) (fun k => xn (ix2 z k))
            then Spec.distRow (fun k => xa (ix2 y k)) (fun k => xn (ix2 z k)) else ⊤)) := by
  rw [k2_pay1_apply]
  have e : (fun z : Fin 1024 => Scalar.select (k2_pay5 xa xn xd (ix2 y z)) (k2_pay4 xa xn (ix2 y z))
        (Scalar.ofBits (F := Ideal) .f32 0x7F800000#32))
      = fun z => if xd (ix2 y 0) < Spec.distRow (fun k => xa (ix2 y k)) (fun k => xn (ix2 z k))
          then Spec.distRow (fun k => xa (ix2 y k)) (fun k => xn (ix2 z k)) else ⊤ := by
    funext z
    rw [k2_pay5_apply, k2_pay4_apply, select_ogt]
    exact congrArg (fun e : EReal => if xd (ix2 y 0) < Spec.distRow (fun k => xa (ix2 y k)) (fun k => xn (ix2 z k))
      then Spec.distRow (fun k => xa (ix2 y k)) (fun k => xn (ix2 z k)) else e) ofBits_posInf_f32
  rw [e]
  exact congrArg (fun b : EReal => min (s (ix2 y 0)) ((Finset.univ : Finset (Fin 1024)).fold min b
    (fun z => if xd (ix2 y 0) < Spec.distRow (fun k => xa (ix2 y k)) (fun k => xn (ix2 z k))
      then Spec.distRow (fun k => xa (ix2 y k)) (fun k => xn (ix2 z k)) else ⊤))) ofBits_posInf_f32

end Cert.KernelIdeal.PayMath

end
-- ==== Proof.MathFold.lean ====
/-
  Order theory of running extrema: the maximum (minimum) of a finite family, computed as a fold from the neutral
  element ⊥ (⊤), over any linear order that has that element.

  * Each term lies below the fold of max, and the fold lies below c exactly when every term does; so the fold is the
    least upper bound of the family together with ⊥.
  * Hence a family indexed by J·B numbers may be folded block by block: the maximum of the J block maxima is the
    maximum of all (k = (k / B)·B + k % B names the block and the place of k). The case J = 4, B = 1024 is written
    out with the outer fold unrolled from the left.
  * The fold is still ⊥ exactly when every term is ⊥; so for a family masked by a predicate, whose unmasked terms
    are never ⊥, it is still ⊥ exactly when no index passes the predicate.
  Everything is said again for min and ⊤.
-/
import Mathlib.Data.Finset.Fold
import Mathlib.Data.Fintype.Basic
import Mathlib.Order.BoundedOrder.Lattice

namespace Cert.MathFold

variable {α : Type*} [LinearOrder α]

/-! ### The maximum from ⊥ -/

section Max

variable [OrderBot α] {ι : Type*} [Fintype ι]

/-- ⊥ is neutral for max. -/
theorem max_bot_eq (x : α) : max ⊥ x = x := max_bot_left x

/-- ⊥ is neutral for max, on the other side. -/
theorem max_eq_bot (x : α) : max x ⊥ = x := max_bot_right x

/-- Each term lies below the maximum of all. -/
theorem le_foldMax (g : ι → α) (s : ι) : g s ≤ (Finset.univ : Finset ι).fold max ⊥ g :=
  (Finset.le_fold_max _).mpr (Or.inr ⟨s, Finset.mem_univ s, le_rfl⟩)

/-- The maximum of all lies below c exactly when each term does (⊥ lies below everything). -/
theorem foldMax_le_iff (g : ι → α) (c : α) :
    (Finset.univ : Finset ι).fold max ⊥ g ≤ c ↔ ∀ s, g s ≤ c := by
  rw [Finset.fold_max_le]
  exact ⟨fun h s => h.2 s (Finset.mem_univ s), fun h => ⟨bot_le, fun s _ => h s⟩⟩

/-- The maximum of a finite family from ⊥ is ⊥ or one of the terms (a finite linearly ordered family attains its
    least upper bound): by induction on the index set, max of two is one of the two. -/
theorem foldMax_eq_bot_or_mem (g : ι → α) :
    (Finset.univ : Finset ι).fold max ⊥ g = ⊥ ∨ ∃ s, (Finset.univ : Finset ι).fold max ⊥ g = g s := by
  classical
  suffices h : ∀ t : Finset ι, t.fold max ⊥ g = ⊥ ∨ ∃ s, t.fold max ⊥ g = g s from h Finset.univ
  intro t
  induction t using Finset.induction_on with
  | empty => exact Or.inl Finset.fold_empty
  | insert a t ha ih =>
    rw [Finset.fold_insert ha]
    rcases max_cases (g a) (t.fold max ⊥ g) with h | h
    · exact Or.inr ⟨a, h.1⟩
    · rw [h.1]; exact ih

/-- The maximum is still ⊥ exactly when every term is ⊥. -/
theorem foldMax_eq_bot_iff (g : ι → α) :
    (Finset.univ : Finset ι).fold max ⊥ g = ⊥ ↔ ∀ s, g s = ⊥ := by
  rw [← le_bot_iff, foldMax_le_iff]
  exact forall_congr' fun s => le_bot_iff

/-- Masked maximum: if the unmasked terms are never ⊥, the maximum of the masked family is still ⊥ exactly when no
    index passes the mask (a passing index contributes a term above ⊥; a failing one contributes ⊥). -/
theorem foldMax_mask_eq_bot_iff (P : ι → Prop) [DecidablePred P] (d : ι → α) (hd : ∀ s, P s → d s ≠ ⊥) :
    (Finset.univ : Finset ι).fold max ⊥ (fun s => if P s then d s else ⊥) = ⊥ ↔ ¬ ∃ s, P s := by
  rw [foldMax_eq_bot_iff]
  constructor
  · rintro h ⟨s, hs⟩
    have := h s
    rw [if_pos hs] at this
    exact hd s hs this
  · intro h s
    rw [if_neg (fun hs => h ⟨s, hs⟩)]

/-- The place (j, s) of a J × B grid, read row by row, is a number below J·B. -/
theorem grid_lt {J B : ℕ} (j : Fin J) (s : Fin B) : j.val * B + s.val < J * B :=
  calc j.val * B + s.val < j.val * B + B := Nat.add_lt_add_left s.isLt _
    _ = (j.val + 1) * B := (Nat.succ_mul _ _).symm
    _ ≤ J * B := Nat.mul_le_mul_right _ j.isLt

/-- The maximum over J·B numbers is the maximum of the J block maxima: both are the least upper bound of the same
    terms, since every k < J·B is (k / B)·B + k % B and every such place is a number below J·B. -/
theorem foldMax_blocks (J B : ℕ) (g : Fin (J * B) → α) :
    (Finset.univ : Finset (Fin (J * B))).fold max ⊥ g
      = (Finset.univ : Finset (Fin J)).fold max ⊥ (fun j =>
          (Finset.univ : Finset (Fin B)).fold max ⊥ (fun s => g ⟨j.val * B + s.val, grid_lt j s⟩)) := by
  apply le_antisymm
  · rw [foldMax_le_iff]
    intro k
    have hB : 0 < B := Nat.pos_of_ne_zero fun h => by
      have hlt : k.val < J * B := k.isLt
      have h0 : J * B = 0 := by rw [h, Nat.mul_zero]
      omega
    have hj : k.val / B < J := (Nat.div_lt_iff_lt_mul hB).mpr k.isLt
    have hk : k = ⟨(⟨k.val / B, hj⟩ : Fin J).val * B + (⟨k.val % B, Nat.mod_lt _ hB⟩ : Fin B).val,
        grid_lt _ _⟩ := Fin.ext (Nat.div_add_mod' k.val B).symm
    calc g k = g ⟨(⟨k.val / B, hj⟩ : Fin J).val * B + (⟨k.val % B, Nat.mod_lt _ hB⟩ : Fin B).val,
          grid_lt _ _⟩ := congrArg g hk
      _ ≤ (Finset.univ : Finset (Fin B)).fold max ⊥
            (fun s => g ⟨(⟨k.val / B, hj⟩ : Fin J).val * B + s.val, grid_lt _ s⟩) :=
          le_foldMax (fun s : Fin B => g ⟨(⟨k.val / B, hj⟩ : Fin J).val * B + s.val, grid_lt _ s⟩)
            ⟨k.val % B, Nat.mod_lt _ hB⟩
      _ ≤ _ := le_foldMax (fun j : Fin J =>
            (Finset.univ : Finset (Fin B)).fold max ⊥ (fun s => g ⟨j.val * B + s.val, grid_lt j s⟩))
            ⟨k.val / B, hj⟩
  · rw [foldMax_le_iff]
    intro j
    rw [foldMax_le_iff]
    intro s
    exact le_foldMax g _

/-- The maximum over block j (numbers 1024·j … 1024·j + 1023) of a family of 4096 terms, j < 4. -/
def blockMax (g : Fin 4096 → α) (j : ℕ) (hj : j < 4) : α :=
  (Finset.univ : Finset (Fin 1024)).fold max ⊥ (fun s => g ⟨1024 * j + s.val, by have := s.isLt; omega⟩)

/-- 4096 terms in 4 blocks of 1024, the running maximum carried from ⊥ through the blocks in order: the result is
    the maximum of all 4096 (each side is the least upper bound of the same terms; k = 1024·(k / 1024) + k % 1024). -/
theorem foldMax_4096 (g : Fin 4096 → α) :
    (Finset.univ : Finset (Fin 4096)).fold max ⊥ g
      = max (max (max (max ⊥ (blockMax g 0 (by decide))) (blockMax g 1 (by decide))) (blockMax g 2 (by decide)))
          (blockMax g 3 (by decide)) := by
  apply le_antisymm
  · rw [foldMax_le_iff]
    intro k
    have hk := k.isLt
    have key : ∀ (j : ℕ) (hj : j < 4), k.val / 1024 = j → g k ≤ blockMax g j hj := by
      intro j hj hkj
      have hm : k.val % 1024 < 1024 := Nat.mod_lt _ (by decide)
      have hk' : k = ⟨1024 * j + (⟨k.val % 1024, hm⟩ : Fin 1024).val, by omega⟩ :=
        Fin.ext (by have := Nat.div_add_mod k.val 1024; simp only; omega)
      calc g k = g ⟨1024 * j + (⟨k.val % 1024, hm⟩ : Fin 1024).val, by omega⟩ := congrArg g hk'
        _ ≤ blockMax g j hj :=
          le_foldMax (fun s : Fin 1024 => g ⟨1024 * j + s.val, by have := s.isLt; omega⟩) ⟨k.val % 1024, hm⟩
    have hq : k.val / 1024 < 4 := (Nat.div_lt_iff_lt_mul (by decide)).mpr hk
    have h4 : k.val / 1024 = 0 ∨ k.val / 1024 = 1 ∨ k.val / 1024 = 2 ∨ k.val / 1024 = 3 := by omega
    rcases h4 with h | h | h | h
    · exact le_max_of_le_left (le_max_of_le_left (le_max_of_le_left (le_max_of_le_right (key 0 _ h))))
    · exact le_max_of_le_left (le_max_of_le_left (le_max_of_le_right (key 1 _ h)))
    · exact le_max_of_le_left (le_max_of_le_right (key 2 _ h))
    · exact le_max_of_le_right (key 3 _ h)
  · have hb : ∀ (j : ℕ) (hj : j < 4), blockMax g j hj ≤ (Finset.univ : Finset (Fin 4096)).fold max ⊥ g := by
      intro j hj
      unfold blockMax
      rw [foldMax_le_iff]
      intro s
      exact le_foldMax g _
    exact max_le (max_le (max_le (max_le bot_le (hb 0 _)) (hb 1 _)) (hb 2 _)) (hb 3 _)

/-- The same with the neutral head dropped: max ⊥ x = x. -/
theorem foldMax_4096' (g : Fin 4096 → α) :
    (Finset.univ : Finset (Fin 4096)).fold max ⊥ g
      = max (max (max (blockMax g 0 (by decide)) (blockMax g 1 (by decide))) (blockMax g 2 (by decide)))
          (blockMax g 3 (by decide)) := by
  rw [foldMax_4096, max_bot_left]

end Max

/-! ### The minimum from ⊤ -/

section Min

variable [OrderTop α] {ι : Type*} [Fintype ι]

/-- ⊤ is neutral for min. -/
theorem min_top_eq (x : α) : min ⊤ x = x := min_top_left x

/-- ⊤ is neutral for min, on the other side. -/
theorem min_eq_top (x : α) : min x ⊤ = x := min_top_right x

/-- The minimum of all lies below each term. -/
theorem foldMin_le (g : ι → α) (s : ι) : (Finset.univ : Finset ι).fold min ⊤ g ≤ g s :=
  (Finset.fold_min_le _).mpr (Or.inr ⟨s, Finset.mem_univ s, le_rfl⟩)

/-- c lies below the minimum of all exactly when it lies below each term (everything lies below ⊤). -/
theorem le_foldMin_iff (g : ι → α) (c : α) :
    c ≤ (Finset.univ : Finset ι).fold min ⊤ g ↔ ∀ s, c ≤ g s := by
  rw [Finset.le_fold_min]
  exact ⟨fun h s => h.2 s (Finset.mem_univ s), fun h => ⟨le_top, fun s _ => h s⟩⟩

/-- The minimum of a finite family from ⊤ is ⊤ or one of the terms: by induction on the index set, min of two is one
    of the two. -/
theorem foldMin_eq_top_or_mem (g : ι → α) :
    (Finset.univ : Finset ι).fold min ⊤ g = ⊤ ∨ ∃ s, (Finset.univ : Finset ι).fold min ⊤ g = g s := by
  classical
  suffices h : ∀ t : Finset ι, t.fold min ⊤ g = ⊤ ∨ ∃ s, t.fold min ⊤ g = g s from h Finset.univ
  intro t
  induction t using Finset.induction_on with
  | empty => exact Or.inl Finset.fold_empty
  | insert a t ha ih =>
    rw [Finset.fold_insert ha]
    rcases min_cases (g a) (t.fold min ⊤ g) with h | h
    · exact Or.inr ⟨a, h.1⟩
    · rw [h.1]; exact ih

/-- The minimum is still ⊤ exactly when every term is ⊤. -/
theorem foldMin_eq_top_iff (g : ι → α) :
    (Finset.univ : Finset ι).fold min ⊤ g = ⊤ ↔ ∀ s, g s = ⊤ := by
  rw [← top_le_iff, le_foldMin_iff]
  exact forall_congr' fun s => top_le_iff

/-- Masked minimum: if the unmasked terms are never ⊤, the minimum of the masked family is still ⊤ exactly when no
    index passes the mask. -/
theorem foldMin_mask_eq_top_iff (P : ι → Prop) [DecidablePred P] (d : ι → α) (hd : ∀ s, P s → d s ≠ ⊤) :
    (Finset.univ : Finset ι).fold min ⊤ (fun s => if P s then d s else ⊤) = ⊤ ↔ ¬ ∃ s, P s := by
  rw [foldMin_eq_top_iff]
  constructor
  · rintro h ⟨s, hs⟩
    have := h s
    rw [if_pos hs] at this
    exact hd s hs this
  · intro h s
    rw [if_neg (fun hs => h ⟨s, hs⟩)]

/-- The minimum over J·B numbers is the minimum of the J block minima: both are the greatest lower bound of the same
    terms. -/
theorem foldMin_blocks (J B : ℕ) (g : Fin (J * B) → α) :
    (Finset.univ : Finset (Fin (J * B))).fold min ⊤ g
      = (Finset.univ : Finset (Fin J)).fold min ⊤ (fun j =>
          (Finset.univ : Finset (Fin B)).fold min ⊤ (fun s => g ⟨j.val * B + s.val, grid_lt j s⟩)) := by
  apply le_antisymm
  · rw [le_foldMin_iff]
    intro j
    rw [le_foldMin_iff]
    intro s
    exact foldMin_le g _
  · rw [le_foldMin_iff]
    intro k
    have hB : 0 < B := Nat.pos_of_ne_zero fun h => by
      have hlt : k.val < J * B := k.isLt
      have h0 : J * B = 0 := by rw [h, Nat.mul_zero]
      omega
    have hj : k.val / B < J := (Nat.div_lt_iff_lt_mul hB).mpr k.isLt
    have hk : k = ⟨(⟨k.val / B, hj⟩ : Fin J).val * B + (⟨k.val % B, Nat.mod_lt _ hB⟩ : Fin B).val,
        grid_lt _ _⟩ := Fin.ext (Nat.div_add_mod' k.val B).symm
    calc _ ≤ (Finset.univ : Finset (Fin B)).fold min ⊤
            (fun s => g ⟨(⟨k.val / B, hj⟩ : Fin J).val * B + s.val, grid_lt _ s⟩) :=
          foldMin_le (fun j : Fin J =>
            (Finset.univ : Finset (Fin B)).fold min ⊤ (fun s => g ⟨j.val * B + s.val, grid_lt j s⟩))
            ⟨k.val / B, hj⟩
      _ ≤ g ⟨(⟨k.val / B, hj⟩ : Fin J).val * B + (⟨k.val % B, Nat.mod_lt _ hB⟩ : Fin B).val,
          grid_lt _ _⟩ :=
          foldMin_le (fun s : Fin B => g ⟨(⟨k.val / B, hj⟩ : Fin J).val * B + s.val, grid_lt _ s⟩)
            ⟨k.val % B, Nat.mod_lt _ hB⟩
      _ = g k := (congrArg g hk).symm

/-- The minimum over block j (numbers 1024·j … 1024·j + 1023) of a family of 4096 terms, j < 4. -/
def blockMin (g : Fin 4096 → α) (j : ℕ) (hj : j < 4) : α :=
  (Finset.univ : Finset (Fin 1024)).fold min ⊤ (fun s => g ⟨1024 * j + s.val, by have := s.isLt; omega⟩)

/-- 4096 terms in 4 blocks of 1024, the running minimum carried from ⊤ through the blocks in order: the result is
    the minimum of all 4096. -/
theorem foldMin_4096 (g : Fin 4096 → α) :
    (Finset.univ : Finset (Fin 4096)).fold min ⊤ g
      = min (min (min (min ⊤ (blockMin g 0 (by decide))) (blockMin g 1 (by decide))) (blockMin g 2 (by decide)))
          (blockMin g 3 (by decide)) := by
  apply le_antisymm
  · have hb : ∀ (j : ℕ) (hj : j < 4), (Finset.univ : Finset (Fin 4096)).fold min ⊤ g ≤ blockMin g j hj := by
      intro j hj
      unfold blockMin
      rw [le_foldMin_iff]
      intro s
      exact foldMin_le g _
    exact le_min (le_min (le_min (le_min le_top (hb 0 _)) (hb 1 _)) (hb 2 _)) (hb 3 _)
  · rw [le_foldMin_iff]
    intro k
    have hk := k.isLt
    have key : ∀ (j : ℕ) (hj : j < 4), k.val / 1024 = j → blockMin g j hj ≤ g k := by
      intro j hj hkj
      have hm : k.val % 1024 < 1024 := Nat.mod_lt _ (by decide)
      have hk' : k = ⟨1024 * j + (⟨k.val % 1024, hm⟩ : Fin 1024).val, by omega⟩ :=
        Fin.ext (by have := Nat.div_add_mod k.val 1024; simp only; omega)
      calc blockMin g j hj ≤ g ⟨1024 * j + (⟨k.val % 1024, hm⟩ : Fin 1024).val, by omega⟩ :=
          foldMin_le (fun s : Fin 1024 => g ⟨1024 * j + s.val, by have := s.isLt; omega⟩) ⟨k.val % 1024, hm⟩
        _ = g k := (congrArg g hk').symm
    have hq : k.val / 1024 < 4 := (Nat.div_lt_iff_lt_mul (by decide)).mpr hk
    have h4 : k.val / 1024 = 0 ∨ k.val / 1024 = 1 ∨ k.val / 1024 = 2 ∨ k.val / 1024 = 3 := by omega
    rcases h4 with h | h | h | h
    · exact min_le_of_left_le (min_le_of_left_le (min_le_of_left_le (min_le_of_right_le (key 0 _ h))))
    · exact min_le_of_left_le (min_le_of_left_le (min_le_of_right_le (key 1 _ h)))
    · exact min_le_of_left_le (min_le_of_right_le (key 2 _ h))
    · exact min_le_of_right_le (key 3 _ h)

/-- The same with the neutral head dropped: min ⊤ x = x. -/
theorem foldMin_4096' (g : Fin 4096 → α) :
    (Finset.univ : Finset (Fin 4096)).fold min ⊤ g
      = min (min (min (blockMin g 0 (by decide)) (blockMin g 1 (by decide))) (blockMin g 2 (by decide)))
          (blockMin g 3 (by decide)) := by
  rw [foldMin_4096, min_top_left]

end Min

end Cert.MathFold
-- ==== Proof.KValue1.lean ====
/-
  Region 1, read as values: after the region the output column holds, at row r, the hardest negative of anchor r.

  The region runs a 4 × 4 grid; point t = 4 i + j pairs block i of the anchors (rows 1024 i … 1024 i + 1023) and of
  the threshold column with block j of the negatives. For anchor r and negative s write m(r, s) for the pairwise
  distance of row r of the anchors to row s of the negatives where it lies strictly below the threshold of row r, and
  −∞ elsewhere.

  * Blocks. Row y of a block staged at point t is row 1024 · (block index) + y of its array; the block indices are
    t / 4 (anchors, thresholds, output) and t % 4 (negatives).
  * The invariant. After point t = 4 i + j the carried column holds at row y the maximum of m(1024 i + y, s) over the
    negatives s of blocks 0 … j: a point with j = 0 starts from −∞, which is neutral for the maximum, and every point
    raises the column by the maximum over its own block. By induction on the point.
  * The output. Where j = 3 the maximum runs over all four blocks, hence over all 4096 negatives, and what is stored
    is that maximum with 0 in place of −∞: the hardest negative of anchor 1024 i + y.
  * The array. Only the points with j = 3 write their block back; their blocks are the four blocks of 1024 rows, so
    together they cover the column, and row r ends at the hardest negative of anchor r.
-/
import proofs.«110565_j10264971838200_1_alg».proof.Proof.R1
import proofs.«110565_j10264971838200_1_alg».proof.Proof.PayMath
import proofs.«110565_j10264971838200_1_alg».proof.Proof.MathFold
import proofs.«110565_j10264971838200_1_alg».proof.Proof.Spec
import Idealize.ShloMosaic.Lib.Pipeline.Value
import Idealize.ShloMosaic.Lib.ValueIdx
import Idealize.ShloMosaic.PureOps.Ideal
import Mathlib.Data.Finset.Fold

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The blocks of region 1, read off the arrays

Point t = 4 i + j of the 4 × 4 grid stages block i of the anchors and of the threshold column and block j of the
negatives; the output's block is block i. A block's row y is row 1024 · (block index) + y of its array. -/

/-- The block indices of the four windows at point t: t / 4 for the anchors, the thresholds and the output, t % 4 for
    the negatives; 0 along the columns. -/
theorem idx1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0 :=
  (by decide +kernel : ∀ t : Fin grid1.N, _)

/-- The anchors, the negatives and the threshold column as the region finds them, and the three blocks staged at
    point t, each at its literal type. -/
abbrev arrA1 (c : Dev nD) : Spec.Mat := V c main_arg0
abbrev arrN1 (c : Dev nD) : Spec.Mat := V c main_arg2
abbrev colD1 (c : Dev nD) : S4096x1.Idx → EReal := V c main_v0_0
abbrev blkA1 (c : Dev nD) (t : Fin cfg1.N) : Vec Ideal S1024x1024 .f32 := iblk1 (F := Ideal) V c 0 t
abbrev blkN1 (c : Dev nD) (t : Fin cfg1.N) : Vec Ideal S1024x1024 .f32 := iblk1 (F := Ideal) V c 1 t
abbrev blkD1 (c : Dev nD) (t : Fin cfg1.N) : Vec Ideal S1024x1 .f32 := iblk1 (F := Ideal) V c 2 t

theorem t_lt1 (t : Fin cfg1.N) : t.val < 16 := lt_of_lt_of_eq t.isLt (show cfg1.N = 16 from N_1)

/-- Row y of the anchors' block at point t is row 1024 (t / 4) + y of the anchors. -/
theorem blkA1_apply (c : Dev nD) (t : Fin cfg1.N) (y k : Fin 1024) (h : 1024 * (t.val / 4) + y.val < 4096) :
    blkA1 V c t (ix2 y k) = arrA1 V c (ix2 ⟨1024 * (t.val / 4) + y.val, h⟩ k) := by
  obtain ⟨e0, e1, -⟩ := idx1 t
  show iblk1 (F := Ideal) V c 0 t (ix2 y k) = _
  unfold iblk1
  rw [View.read_apply]
  show V c main_arg0 _ = V c main_arg0 _
  congr 1
  funext a
  apply Fin.ext
  match a with
  | ⟨0, _⟩ => show win1_0.index t (0 : Fin 2) * 1024 + 1 * y.val = 1024 * (t.val / 4) + y.val; rw [e0]; omega
  | ⟨1, _⟩ => show win1_0.index t (1 : Fin 2) * 1024 + 1 * k.val = k.val; rw [e1]; omega

/-- Row z of the negatives' block at point t is row 1024 (t % 4) + z of the negatives. -/
theorem blkN1_apply (c : Dev nD) (t : Fin cfg1.N) (z k : Fin 1024) (h : 1024 * (t.val % 4) + z.val < 4096) :
    blkN1 V c t (ix2 z k) = arrN1 V c (ix2 ⟨1024 * (t.val % 4) + z.val, h⟩ k) := by
  obtain ⟨-, -, e0, e1, -⟩ := idx1 t
  show iblk1 (F := Ideal) V c 1 t (ix2 z k) = _
  unfold iblk1
  rw [View.read_apply]
  show V c main_arg2 _ = V c main_arg2 _
  congr 1
  funext a
  apply Fin.ext
  match a with
  | ⟨0, _⟩ => show win1_1.index t (0 : Fin 2) * 1024 + 1 * z.val = 1024 * (t.val % 4) + z.val; rw [e0]; omega
  | ⟨1, _⟩ => show win1_1.index t (1 : Fin 2) * 1024 + 1 * k.val = k.val; rw [e1]; omega

/-- Row y of the thresholds' block at point t is row 1024 (t / 4) + y of the threshold column. -/
theorem blkD1_apply (c : Dev nD) (t : Fin cfg1.N) (y : Fin 1024) (h : 1024 * (t.val / 4) + y.val < 4096) :
    blkD1 V c t (ix2 y 0) = colD1 V c (ix2 ⟨1024 * (t.val / 4) + y.val, h⟩ 0) := by
  obtain ⟨-, -, -, -, e0, e1, -⟩ := idx1 t
  show iblk1 (F := Ideal) V c 2 t (ix2 y 0) = _
  unfold iblk1
  rw [View.read_apply]
  show V c main_v0_0 _ = V c main_v0_0 _
  congr 1
  funext a
  apply Fin.ext
  match a with
  | ⟨0, _⟩ => show win1_2.index t (0 : Fin 2) * 1024 + 1 * y.val = 1024 * (t.val / 4) + y.val; rw [e0]; omega
  | ⟨1, _⟩ => show win1_2.index t (1 : Fin 2) * 1 + 1 * (0 : Fin 1).val = (0 : Fin 1).val; rw [e1]; rfl

/-! ## The running maxima

The scratch column after point t = 4 i + j holds, at row y, the maximum over the first j + 1 blocks of negatives of
the masked distances of anchor r = 1024 i + y: the first block's maximum, then raised block by block. -/

/-- The maximum over blocks 0 … j of a family of 4096 terms, carried from the first block's maximum through the
    blocks in order. -/
def runMax1 (g : Fin 4096 → EReal) : (j : ℕ) → j < 4 → EReal
  | 0, h => Cert.MathFold.blockMax g 0 h
  | j + 1, h => max (runMax1 g j (Nat.lt_of_succ_lt h)) (Cert.MathFold.blockMax g (j + 1) h)

theorem runMax1_first (g : Fin 4096 → EReal) (j : ℕ) (hj : j < 4) (h0 : j = 0) :
    runMax1 g j hj = Cert.MathFold.blockMax g j hj := by
  subst h0; rfl

theorem runMax1_next (g : Fin 4096 → EReal) (j : ℕ) (hj : j < 4) (h0 : j ≠ 0) :
    runMax1 g j hj = max (runMax1 g (j - 1) (Nat.lt_of_le_of_lt (Nat.sub_le _ _) hj)) (Cert.MathFold.blockMax g j hj) := by
  cases j with
  | zero => exact absurd rfl h0
  | succ j => rfl

theorem runMax1_congr (g g' : Fin 4096 → EReal) (j j' : ℕ) (hj : j < 4) (hj' : j' < 4) (eg : g = g') (ej : j = j') :
    runMax1 g j hj = runMax1 g' j' hj' := by
  subst eg; subst ej; rfl

/-- Through all four blocks it is the maximum of all 4096 terms. -/
theorem runMax1_last (g : Fin 4096 → EReal) (j : ℕ) (hj : j < 4) (h3 : j = 3) :
    runMax1 g j hj = (Finset.univ : Finset (Fin 4096)).fold max ⊥ g := by
  subst h3
  rw [Cert.MathFold.foldMax_4096']
  rfl

/-- The thresholds, row by row: the anchors' distances to their own positives, as the region finds them. -/
abbrev thr1 (c : Dev nD) : Fin 4096 → EReal := fun r => colD1 V c (ix2 r 0)

/-- One point's update read at row y. If xa is block i of the anchors A, xn block j of the negatives N and xd block i
    of the thresholds d, then the update of the maxima s is, at row y, the larger of s's entry and the maximum over
    block j of the masked distances of anchor 1024 i + y. -/
theorem step1_apply (A N : Spec.Mat) (d : Fin 4096 → EReal)
    (xa xn : Vec Ideal S1024x1024 .f32) (xd s : Vec Ideal S1024x1 .f32) (i j : ℕ) (hj : j < 4)
    (ha : ∀ (y k : Fin 1024) (h : 1024 * i + y.val < 4096), xa (ix2 y k) = A (ix2 ⟨1024 * i + y.val, h⟩ k))
    (hn : ∀ (z k : Fin 1024) (h : 1024 * j + z.val < 4096), xn (ix2 z k) = N (ix2 ⟨1024 * j + z.val, h⟩ k))
    (hd : ∀ (y : Fin 1024) (h : 1024 * i + y.val < 4096), xd (ix2 y 0) = d ⟨1024 * i + y.val, h⟩)
    (y : Fin 1024) (hr : 1024 * i + y.val < 4096) :
    step1 (F := Ideal) xa xn xd s (ix2 y 0)
      = max (s (ix2 y 0)) (Cert.MathFold.blockMax (Spec.maskedBelowT A N d ⟨1024 * i + y.val, hr⟩) j hj) := by
  unfold step1
  refine (PayMath.k1_step_apply xa xn xd s y).trans ?_
  refine congrArg (max (s (ix2 y 0))) ?_
  unfold Cert.MathFold.blockMax
  refine congrArg (Finset.fold max ⊥ · Finset.univ) ?_
  funext z
  have hz : 1024 * j + z.val < 4096 := by have := z.isLt; omega
  rw [show (fun k => xa (ix2 y k)) = Spec.row A ⟨1024 * i + y.val, hr⟩ from funext fun k => ha y k hr,
    show (fun k => xn (ix2 z k)) = Spec.row N ⟨1024 * j + z.val, hz⟩ from funext fun k => hn z k hz,
    hd y hr]
  rfl

/-- THE INVARIANT. After point n = 4 i + j the scratch column holds at row y the running maximum through blocks
    0 … j of the masked distances of anchor 1024 i + y: by induction on the point, a point with j = 0 starting from
    −∞ (the neutral element of the maximum), a later one raising what the point before left in the same row of
    points. -/
theorem acc1_apply (c : Dev nD) : ∀ (n : ℕ) (hn : n < cfg1.N) (y : Fin 1024) (hr : 1024 * (n / 4) + y.val < 4096),
    acc1 (F := Ideal) V c n hn (ix2 y 0)
      = runMax1 (Spec.maskedBelowT (arrA1 V c) (arrN1 V c) (thr1 V c) ⟨1024 * (n / 4) + y.val, hr⟩) (n % 4)
          (Nat.mod_lt _ (by decide)) := by
  intro n
  induction n using Nat.strong_induction_on with
  | _ n ih =>
    intro hn y hr
    have hN : n < 16 := lt_of_lt_of_eq hn (show cfg1.N = 16 from N_1)
    by_cases h0 : n % 4 = 0
    · refine (congrFun (acc1_first (F := Ideal) V c ⟨n, hn⟩ h0) (ix2 y 0)).trans ?_
      refine (step1_apply (arrA1 V c) (arrN1 V c) (thr1 V c) (blkA1 V c ⟨n, hn⟩) (blkN1 V c ⟨n, hn⟩) (blkD1 V c ⟨n, hn⟩)
        (k1_pay3 (F := Ideal)) (n / 4) (n % 4) (Nat.mod_lt _ (by decide))
        (fun y k h => blkA1_apply V c ⟨n, hn⟩ y k h) (fun z k h => blkN1_apply V c ⟨n, hn⟩ z k h)
        (fun y h => blkD1_apply V c ⟨n, hn⟩ y h) y hr).trans ?_
      rw [PayMath.k1_pay3_apply, max_bot_left, runMax1_first _ _ _ h0]
    · refine (congrFun (acc1_next (F := Ideal) V c ⟨n, hn⟩ h0) (ix2 y 0)).trans ?_
      refine (step1_apply (arrA1 V c) (arrN1 V c) (thr1 V c) (blkA1 V c ⟨n, hn⟩) (blkN1 V c ⟨n, hn⟩) (blkD1 V c ⟨n, hn⟩)
        (acc1 (F := Ideal) V c (n - 1) (Nat.lt_of_le_of_lt (Nat.sub_le _ _) hn)) (n / 4) (n % 4) (Nat.mod_lt _ (by decide))
        (fun y k h => blkA1_apply V c ⟨n, hn⟩ y k h) (fun z k h => blkN1_apply V c ⟨n, hn⟩ z k h)
        (fun y h => blkD1_apply V c ⟨n, hn⟩ y h) y hr).trans ?_
      have hq : (n - 1) / 4 = n / 4 := by omega
      have hr' : 1024 * ((n - 1) / 4) + y.val < 4096 := by rw [hq]; exact hr
      rw [ih (n - 1) (by omega) (Nat.lt_of_le_of_lt (Nat.sub_le _ _) hn) y hr', runMax1_next _ _ _ h0]
      refine congrArg (max · _) ?_
      exact runMax1_congr _ _ _ _ _ _ (congrArg _ (Fin.ext (by show 1024 * ((n - 1) / 4) + y.val = 1024 * (n / 4) + y.val; rw [hq]))) (by omega)

/-- WHAT IS WRITTEN OUT where a row of points ends (j = 3): the maximum of all 4096 masked distances of the anchor,
    with 0 for a maximum that is still −∞ — the hardest negative of anchor 1024 i + y. -/
theorem out1_apply (c : Dev nD) (t : Fin cfg1.N) (h3 : t.val % 4 = 3) (y : Fin 1024) (hr : 1024 * (t.val / 4) + y.val < 4096) :
    out1_3 (F := Ideal) (acc1 (F := Ideal) V c t.val t.isLt) (ix2 y 0)
      = Spec.hardNegT (arrA1 V c) (arrN1 V c) (thr1 V c) ⟨1024 * (t.val / 4) + y.val, hr⟩ := by
  unfold out1_3
  refine (PayMath.k1_out_apply (acc1 (F := Ideal) V c t.val t.isLt) y).trans ?_
  rw [acc1_apply V c t.val t.isLt y hr, runMax1_last _ _ _ h3]
  rfl

/-! ## From the blocks to the array

The output's block is written back only where a row of points ends (t % 4 = 3), and there it is block t / 4 of one
function of the arrays: the hardest negative, row by row. The four written-back blocks tile the 4096 rows. -/

/-- What the output array ends holding: at row r the hardest negative of anchor r. -/
abbrev G1 (c : Dev nD) : S4096x1.Idx → EReal :=
  fun idx => Spec.hardNegT (arrA1 V c) (arrN1 V c) (thr1 V c) (idx 0)

/-- WHAT A POINT WITH j = 3 WRITES BACK is its block of that function: row y of the block is row 1024 (t / 4) + y of
    the array, and the body stored there the hardest negative of that anchor. -/
theorem flushed1_3_eq (c : Dev nD) (t : Fin cfg1.N) (hf : (cfg1.win 3).flush t = true) :
    (dat1 (F := Ideal) V c).flushed 3 t = ((cfg1.win 3).blk t).view.read (Elt Ideal) (G1 V c) := by
  have h3 : t.val % 4 = 3 := (flush1_3 t).mp hf
  obtain ⟨-, -, -, -, -, -, e0, e1⟩ := idx1 t
  show (cfg1.win 3).cut (grid1.coords t) ((dat1 (F := Ideal) V c).after 3 t) = _
  rw [after1_3]
  funext j
  rw [View.read_apply]
  have hy : (j 0).val < 1024 := (j 0).isLt
  have hk : (j 1).val < 1 := (j 1).isLt
  have hr : 1024 * (t.val / 4) + (j 0).val < 4096 := by have := t_lt1 t; omega
  have ex : (cfg1.win 3).xinj (grid1.coords t) j = ix2 (⟨(j 0).val, hy⟩ : Fin 1024) (0 : Fin 1) := by
    funext a
    apply Fin.ext
    match a with
    | ⟨0, _⟩ => rfl
    | ⟨1, _⟩ => show (j 1).val = 0; omega
  have ee : (((cfg1.win 3).blk t).view.emb j) 0 = (⟨1024 * (t.val / 4) + (j 0).val, hr⟩ : Fin 4096) := by
    apply Fin.ext
    show win1_3.index t (0 : Fin 2) * 1024 + 1 * (j 0).val = 1024 * (t.val / 4) + (j 0).val
    rw [e0]; omega
  show out1_3 (F := Ideal) (acc1 (F := Ideal) V c t.val t.isLt) ((cfg1.win 3).xinj (grid1.coords t) j)
    = Spec.hardNegT (arrA1 V c) (arrN1 V c) (thr1 V c) ((((cfg1.win 3).blk t).view.emb j) 0)
  exact ((congrArg (out1_3 (F := Ideal) (acc1 (F := Ideal) V c t.val t.isLt)) ex).trans
    (out1_apply V c t h3 ⟨(j 0).val, hy⟩ hr)).trans
    (congrArg (Spec.hardNegT (arrA1 V c) (arrN1 V c) (thr1 V c)) ee).symm

/-- An index of the output array is in point t's block iff each coordinate is in the block's range on its axis. -/
theorem mem_blk1_3 (t : Fin cfg1.N) (i : S4096x1.Idx) :
    i ∈ ((cfg1.win 3).blk t).view.set
      ↔ ∀ a : Fin 2, win1_3.index t a * S1024x1.size a ≤ (i a).val ∧ (i a).val < win1_3.index t a * S1024x1.size a + S1024x1.size a := by
  show i ∈ ((View.whole main_v1).slice (win1_3.rect t)).set ↔ _
  rw [View.set_slice_whole, Rect.mem_set_unit]
  exact Iff.rfl

/-- THE COVER: row r lies in the block of point 4 (r / 1024) + 3, which writes back. -/
theorem cover1_3 (i : S4096x1.Idx) :
    ∃ t : Fin cfg1.N, (cfg1.win 3).flush t = true ∧ i ∈ ((cfg1.win 3).blk t).view.set := by
  have hi0 : (i 0).val < 4096 := (i 0).isLt
  have hi1 : (i 1).val < 1 := (i 1).isLt
  have ht : 4 * ((i 0).val / 1024) + 3 < cfg1.N := by rw [show cfg1.N = 16 from N_1]; omega
  obtain ⟨-, -, -, -, -, -, e0, e1⟩ := idx1 ⟨4 * ((i 0).val / 1024) + 3, ht⟩
  have e0' : win1_3.index ⟨4 * ((i 0).val / 1024) + 3, ht⟩ (0 : Fin 2) = (4 * ((i 0).val / 1024) + 3) / 4 := e0
  refine ⟨⟨4 * ((i 0).val / 1024) + 3, ht⟩, (flush1_3 _).mpr (by show (4 * ((i 0).val / 1024) + 3) % 4 = 3; omega), ?_⟩
  rw [mem_blk1_3]
  intro a
  match a with
  | ⟨0, _⟩ =>
    show win1_3.index ⟨4 * ((i 0).val / 1024) + 3, ht⟩ (0 : Fin 2) * 1024 ≤ (i 0).val
      ∧ (i 0).val < win1_3.index ⟨4 * ((i 0).val / 1024) + 3, ht⟩ (0 : Fin 2) * 1024 + 1024
    rw [e0']; omega
  | ⟨1, _⟩ =>
    show win1_3.index ⟨4 * ((i 0).val / 1024) + 3, ht⟩ (1 : Fin 2) * 1 ≤ (i 1).val
      ∧ (i 1).val < win1_3.index ⟨4 * ((i 0).val / 1024) + 3, ht⟩ (1 : Fin 2) * 1 + 1
    rw [e1]; omega

/-- THE ARRAY after the region: the column of hardest negatives. -/
theorem final1_3_arr (c : Dev nD) : (dat1 (F := Ideal) V c).arrAt 3 cfg1.N = G1 V c :=
  (dat1 (F := Ideal) V c).arrAt_eq_of_cover 3 (G1 V c) (flushed1_3_eq V c) (fun i => cover1_3 i)

/-- Row by row: after the region the output column holds at row r the hardest negative of anchor r — the largest
    distance of anchor r to a negative that lies strictly below the threshold of row r, 0 when there is none —, the
    anchors, the negatives and the thresholds being what the region found in its three input arrays. -/
theorem final1_3 (c : Dev nD) (r : Fin 4096) :
    ((dat1 (F := Ideal) V c).arrAt 3 cfg1.N : S4096x1.Idx → EReal) (ix2 r (0 : Fin 1))
      = Spec.hardNegT (V c main_arg0) (V c main_arg2)
          (fun r' => (V c main_v0_0 : S4096x1.Idx → EReal) (ix2 r' (0 : Fin 1))) r :=
  congrFun (final1_3_arr V c) (ix2 r (0 : Fin 1))

end Cert.KernelIdeal.HandV

end
-- ==== Proof.KValue2.lean ====
/-
  Region 2, read as values: after the region the output column holds, at row r, the hardest positive of anchor r.

  The region runs a 4 × 4 grid; point t = 4 i + j pairs block i of the anchors (rows 1024 i … 1024 i + 1023) and of
  the threshold column with block j of the positives. For anchor r and positive s write m(r, s) for the pairwise
  distance of row r of the anchors to row s of the positives where it lies strictly above the threshold of row r, and
  +∞ elsewhere.

  * Blocks. Row y of a block staged at point t is row 1024 · (block index) + y of its array; the block indices are
    t / 4 (anchors, thresholds, output) and t % 4 (positives).
  * The invariant. After point t = 4 i + j the carried column holds at row y the minimum of m(1024 i + y, s) over the
    positives s of blocks 0 … j: a point with j = 0 starts from +∞, which is neutral for the minimum, and every point
    lowers the column by the minimum over its own block. By induction on the point.
  * The output. Where j = 3 the minimum runs over all four blocks, hence over all 4096 positives, and what is stored
    is that minimum with 0 in place of +∞: the hardest positive of anchor 1024 i + y.
  * The array. Only the points with j = 3 write their block back; their blocks are the four blocks of 1024 rows, so
    together they cover the column, and row r ends at the hardest positive of anchor r.
-/
import proofs.«110565_j10264971838200_1_alg».proof.Proof.R2
import proofs.«110565_j10264971838200_1_alg».proof.Proof.PayMath
import proofs.«110565_j10264971838200_1_alg».proof.Proof.MathFold
import proofs.«110565_j10264971838200_1_alg».proof.Proof.Spec
import Idealize.ShloMosaic.Lib.Pipeline.Value
import Idealize.ShloMosaic.Lib.ValueIdx
import Idealize.ShloMosaic.PureOps.Ideal
import Mathlib.Data.Finset.Fold

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The blocks of region 2, read off the arrays

Point t = 4 i + j of the 4 × 4 grid stages block i of the anchors and of the threshold column and block j of the
positives; the output's block is block i. A block's row y is row 1024 · (block index) + y of its array. -/

/-- The block indices of the four windows at point t: t / 4 for the anchors, the thresholds and the output, t % 4 for
    the positives; 0 along the columns. -/
theorem idx2 : ∀ t : Fin cfg2.N,
    win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0 :=
  (by decide +kernel : ∀ t : Fin grid2.N, _)

/-- The anchors, the positives and the threshold column as the region finds them, and the three blocks staged at
    point t, each at its literal type. -/
abbrev arrA2 (c : Dev nD) : Spec.Mat := V c main_arg0
abbrev arrP2 (c : Dev nD) : Spec.Mat := V c main_arg1
abbrev colD2 (c : Dev nD) : S4096x1.Idx → EReal := V c main_v0_1
abbrev blkA2 (c : Dev nD) (t : Fin cfg2.N) : Vec Ideal S1024x1024 .f32 := iblk2 (F := Ideal) V c 0 t
abbrev blkP2 (c : Dev nD) (t : Fin cfg2.N) : Vec Ideal S1024x1024 .f32 := iblk2 (F := Ideal) V c 1 t
abbrev blkD2 (c : Dev nD) (t : Fin cfg2.N) : Vec Ideal S1024x1 .f32 := iblk2 (F := Ideal) V c 2 t

theorem t_lt2 (t : Fin cfg2.N) : t.val < 16 := lt_of_lt_of_eq t.isLt (show cfg2.N = 16 from N_2)

/-- Row y of the anchors' block at point t is row 1024 (t / 4) + y of the anchors. -/
theorem blkA2_apply (c : Dev nD) (t : Fin cfg2.N) (y k : Fin 1024) (h : 1024 * (t.val / 4) + y.val < 4096) :
    blkA2 V c t (ix2 y k) = arrA2 V c (ix2 ⟨1024 * (t.val / 4) + y.val, h⟩ k) := by
  obtain ⟨e0, e1, -⟩ := idx2 t
  show iblk2 (F := Ideal) V c 0 t (ix2 y k) = _
  unfold iblk2
  rw [View.read_apply]
  show V c main_arg0 _ = V c main_arg0 _
  congr 1
  funext a
  apply Fin.ext
  match a with
  | ⟨0, _⟩ => show win2_0.index t (0 : Fin 2) * 1024 + 1 * y.val = 1024 * (t.val / 4) + y.val; rw [e0]; omega
  | ⟨1, _⟩ => show win2_0.index t (1 : Fin 2) * 1024 + 1 * k.val = k.val; rw [e1]; omega

/-- Row z of the positives' block at point t is row 1024 (t % 4) + z of the positives. -/
theorem blkP2_apply (c : Dev nD) (t : Fin cfg2.N) (z k : Fin 1024) (h : 1024 * (t.val % 4) + z.val < 4096) :
    blkP2 V c t (ix2 z k) = arrP2 V c (ix2 ⟨1024 * (t.val % 4) + z.val, h⟩ k) := by
  obtain ⟨-, -, e0, e1, -⟩ := idx2 t
  show iblk2 (F := Ideal) V c 1 t (ix2 z k) = _
  unfold iblk2
  rw [View.read_apply]
  show V c main_arg1 _ = V c main_arg1 _
  congr 1
  funext a
  apply Fin.ext
  match a with
  | ⟨0, _⟩ => show win2_1.index t (0 : Fin 2) * 1024 + 1 * z.val = 1024 * (t.val % 4) + z.val; rw [e0]; omega
  | ⟨1, _⟩ => show win2_1.index t (1 : Fin 2) * 1024 + 1 * k.val = k.val; rw [e1]; omega

/-- Row y of the thresholds' block at point t is row 1024 (t / 4) + y of the threshold column. -/
theorem blkD2_apply (c : Dev nD) (t : Fin cfg2.N) (y : Fin 1024) (h : 1024 * (t.val / 4) + y.val < 4096) :
    blkD2 V c t (ix2 y 0) = colD2 V c (ix2 ⟨1024 * (t.val / 4) + y.val, h⟩ 0) := by
  obtain ⟨-, -, -, -, e0, e1, -⟩ := idx2 t
  show iblk2 (F := Ideal) V c 2 t (ix2 y 0) = _
  unfold iblk2
  rw [View.read_apply]
  show V c main_v0_1 _ = V c main_v0_1 _
  congr 1
  funext a
  apply Fin.ext
  match a with
  | ⟨0, _⟩ => show win2_2.index t (0 : Fin 2) * 1024 + 1 * y.val = 1024 * (t.val / 4) + y.val; rw [e0]; omega
  | ⟨1, _⟩ => show win2_2.index t (1 : Fin 2) * 1 + 1 * (0 : Fin 1).val = (0 : Fin 1).val; rw [e1]; rfl

/-! ## The running minima

The scratch column after point t = 4 i + j holds, at row y, the minimum over the first j + 1 blocks of positives of
the masked distances of anchor r = 1024 i + y: the first block's minimum, then lowered block by block. -/

/-- The minimum over blocks 0 … j of a family of 4096 terms, carried from the first block's minimum through the
    blocks in order. -/
def runMin2 (g : Fin 4096 → EReal) : (j : ℕ) → j < 4 → EReal
  | 0, h => Cert.MathFold.blockMin g 0 h
  | j + 1, h => min (runMin2 g j (Nat.lt_of_succ_lt h)) (Cert.MathFold.blockMin g (j + 1) h)

theorem runMin2_first (g : Fin 4096 → EReal) (j : ℕ) (hj : j < 4) (h0 : j = 0) :
    runMin2 g j hj = Cert.MathFold.blockMin g j hj := by
  subst h0; rfl

theorem runMin2_next (g : Fin 4096 → EReal) (j : ℕ) (hj : j < 4) (h0 : j ≠ 0) :
    runMin2 g j hj = min (runMin2 g (j - 1) (Nat.lt_of_le_of_lt (Nat.sub_le _ _) hj)) (Cert.MathFold.blockMin g j hj) := by
  cases j with
  | zero => exact absurd rfl h0
  | succ j => rfl

theorem runMin2_congr (g g' : Fin 4096 → EReal) (j j' : ℕ) (hj : j < 4) (hj' : j' < 4) (eg : g = g') (ej : j = j') :
    runMin2 g j hj = runMin2 g' j' hj' := by
  subst eg; subst ej; rfl

/-- Through all four blocks it is the minimum of all 4096 terms. -/
theorem runMin2_last (g : Fin 4096 → EReal) (j : ℕ) (hj : j < 4) (h3 : j = 3) :
    runMin2 g j hj = (Finset.univ : Finset (Fin 4096)).fold min ⊤ g := by
  subst h3
  rw [Cert.MathFold.foldMin_4096']
  rfl

/-- The thresholds, row by row: the anchors' distances to their own negatives, as the region finds them. -/
abbrev thr2 (c : Dev nD) : Fin 4096 → EReal := fun r => colD2 V c (ix2 r 0)

/-- One point's update read at row y. If xa is block i of the anchors A, xp block j of the positives P and xd block i
    of the thresholds d, then the update of the minima s is, at row y, the smaller of s's entry and the minimum over
    block j of the masked distances of anchor 1024 i + y. -/
theorem step2_apply (A P : Spec.Mat) (d : Fin 4096 → EReal)
    (xa xp : Vec Ideal S1024x1024 .f32) (xd s : Vec Ideal S1024x1 .f32) (i j : ℕ) (hj : j < 4)
    (ha : ∀ (y k : Fin 1024) (h : 1024 * i + y.val < 4096), xa (ix2 y k) = A (ix2 ⟨1024 * i + y.val, h⟩ k))
    (hp : ∀ (z k : Fin 1024) (h : 1024 * j + z.val < 4096), xp (ix2 z k) = P (ix2 ⟨1024 * j + z.val, h⟩ k))
    (hd : ∀ (y : Fin 1024) (h : 1024 * i + y.val < 4096), xd (ix2 y 0) = d ⟨1024 * i + y.val, h⟩)
    (y : Fin 1024) (hr : 1024 * i + y.val < 4096) :
    step2 (F := Ideal) xa xp xd s (ix2 y 0)
      = min (s (ix2 y 0)) (Cert.MathFold.blockMin (Spec.maskedAboveT A P d ⟨1024 * i + y.val, hr⟩) j hj) := by
  unfold step2
  refine (PayMath.k2_step_apply xa xp xd s y).trans ?_
  refine congrArg (min (s (ix2 y 0))) ?_
  unfold Cert.MathFold.blockMin
  refine congrArg (Finset.fold min ⊤ · Finset.univ) ?_
  funext z
  have hz : 1024 * j + z.val < 4096 := by have := z.isLt; omega
  rw [show (fun k => xa (ix2 y k)) = Spec.row A ⟨1024 * i + y.val, hr⟩ from funext fun k => ha y k hr,
    show (fun k => xp (ix2 z k)) = Spec.row P ⟨1024 * j + z.val, hz⟩ from funext fun k => hp z k hz,
    hd y hr]
  rfl

/-- THE INVARIANT. After point n = 4 i + j the scratch column holds at row y the running minimum through blocks
    0 … j of the masked distances of anchor 1024 i + y: by induction on the point, a point with j = 0 starting from
    +∞ (the neutral element of the minimum), a later one lowering what the point before left in the same row of
    points. -/
theorem acc2_apply (c : Dev nD) : ∀ (n : ℕ) (hn : n < cfg2.N) (y : Fin 1024) (hr : 1024 * (n / 4) + y.val < 4096),
    acc2 (F := Ideal) V c n hn (ix2 y 0)
      = runMin2 (Spec.maskedAboveT (arrA2 V c) (arrP2 V c) (thr2 V c) ⟨1024 * (n / 4) + y.val, hr⟩) (n % 4)
          (Nat.mod_lt _ (by decide)) := by
  intro n
  induction n using Nat.strong_induction_on with
  | _ n ih =>
    intro hn y hr
    have hN : n < 16 := lt_of_lt_of_eq hn (show cfg2.N = 16 from N_2)
    by_cases h0 : n % 4 = 0
    · refine (congrFun (acc2_first (F := Ideal) V c ⟨n, hn⟩ h0) (ix2 y 0)).trans ?_
      refine (step2_apply (arrA2 V c) (arrP2 V c) (thr2 V c) (blkA2 V c ⟨n, hn⟩) (blkP2 V c ⟨n, hn⟩) (blkD2 V c ⟨n, hn⟩)
        (k2_pay3 (F := Ideal)) (n / 4) (n % 4) (Nat.mod_lt _ (by decide))
        (fun y k h => blkA2_apply V c ⟨n, hn⟩ y k h) (fun z k h => blkP2_apply V c ⟨n, hn⟩ z k h)
        (fun y h => blkD2_apply V c ⟨n, hn⟩ y h) y hr).trans ?_
      rw [PayMath.k2_pay3_apply, min_top_left, runMin2_first _ _ _ h0]
    · refine (congrFun (acc2_next (F := Ideal) V c ⟨n, hn⟩ h0) (ix2 y 0)).trans ?_
      refine (step2_apply (arrA2 V c) (arrP2 V c) (thr2 V c) (blkA2 V c ⟨n, hn⟩) (blkP2 V c ⟨n, hn⟩) (blkD2 V c ⟨n, hn⟩)
        (acc2 (F := Ideal) V c (n - 1) (Nat.lt_of_le_of_lt (Nat.sub_le _ _) hn)) (n / 4) (n % 4) (Nat.mod_lt _ (by decide))
        (fun y k h => blkA2_apply V c ⟨n, hn⟩ y k h) (fun z k h => blkP2_apply V c ⟨n, hn⟩ z k h)
        (fun y h => blkD2_apply V c ⟨n, hn⟩ y h) y hr).trans ?_
      have hq : (n - 1) / 4 = n / 4 := by omega
      have hr' : 1024 * ((n - 1) / 4) + y.val < 4096 := by rw [hq]; exact hr
      rw [ih (n - 1) (by omega) (Nat.lt_of_le_of_lt (Nat.sub_le _ _) hn) y hr', runMin2_next _ _ _ h0]
      refine congrArg (min · _) ?_
      exact runMin2_congr _ _ _ _ _ _ (congrArg _ (Fin.ext (by show 1024 * ((n - 1) / 4) + y.val = 1024 * (n / 4) + y.val; rw [hq]))) (by omega)

/-- WHAT IS WRITTEN OUT where a row of points ends (j = 3): the minimum of all 4096 masked distances of the anchor,
    with 0 for a minimum that is still +∞ — the hardest positive of anchor 1024 i + y. -/
theorem out2_apply (c : Dev nD) (t : Fin cfg2.N) (h3 : t.val % 4 = 3) (y : Fin 1024) (hr : 1024 * (t.val / 4) + y.val < 4096) :
    out2_3 (F := Ideal) (acc2 (F := Ideal) V c t.val t.isLt) (ix2 y 0)
      = Spec.hardPosT (arrA2 V c) (arrP2 V c) (thr2 V c) ⟨1024 * (t.val / 4) + y.val, hr⟩ := by
  unfold out2_3
  refine (PayMath.k2_out_apply (acc2 (F := Ideal) V c t.val t.isLt) y).trans ?_
  rw [acc2_apply V c t.val t.isLt y hr, runMin2_last _ _ _ h3]
  rfl

/-! ## From the blocks to the array

The output's block is written back only where a row of points ends (t % 4 = 3), and there it is block t / 4 of one
function of the arrays: the hardest positive, row by row. The four written-back blocks tile the 4096 rows. -/

/-- What the output array ends holding: at row r the hardest positive of anchor r. -/
abbrev G2 (c : Dev nD) : S4096x1.Idx → EReal :=
  fun idx => Spec.hardPosT (arrA2 V c) (arrP2 V c) (thr2 V c) (idx 0)

/-- WHAT A POINT WITH j = 3 WRITES BACK is its block of that function: row y of the block is row 1024 (t / 4) + y of
    the array, and the body stored there the hardest positive of that anchor. -/
theorem flushed2_3_eq (c : Dev nD) (t : Fin cfg2.N) (hf : (cfg2.win 3).flush t = true) :
    (dat2 (F := Ideal) V c).flushed 3 t = ((cfg2.win 3).blk t).view.read (Elt Ideal) (G2 V c) := by
  have h3 : t.val % 4 = 3 := (flush2_3 t).mp hf
  obtain ⟨-, -, -, -, -, -, e0, e1⟩ := idx2 t
  show (cfg2.win 3).cut (grid2.coords t) ((dat2 (F := Ideal) V c).after 3 t) = _
  rw [after2_3]
  funext j
  rw [View.read_apply]
  have hy : (j 0).val < 1024 := (j 0).isLt
  have hk : (j 1).val < 1 := (j 1).isLt
  have hr : 1024 * (t.val / 4) + (j 0).val < 4096 := by have := t_lt2 t; omega
  have ex : (cfg2.win 3).xinj (grid2.coords t) j = ix2 (⟨(j 0).val, hy⟩ : Fin 1024) (0 : Fin 1) := by
    funext a
    apply Fin.ext
    match a with
    | ⟨0, _⟩ => rfl
    | ⟨1, _⟩ => show (j 1).val = 0; omega
  have ee : (((cfg2.win 3).blk t).view.emb j) 0 = (⟨1024 * (t.val / 4) + (j 0).val, hr⟩ : Fin 4096) := by
    apply Fin.ext
    show win2_3.index t (0 : Fin 2) * 1024 + 1 * (j 0).val = 1024 * (t.val / 4) + (j 0).val
    rw [e0]; omega
  show out2_3 (F := Ideal) (acc2 (F := Ideal) V c t.val t.isLt) ((cfg2.win 3).xinj (grid2.coords t) j)
    = Spec.hardPosT (arrA2 V c) (arrP2 V c) (thr2 V c) ((((cfg2.win 3).blk t).view.emb j) 0)
  exact ((congrArg (out2_3 (F := Ideal) (acc2 (F := Ideal) V c t.val t.isLt)) ex).trans
    (out2_apply V c t h3 ⟨(j 0).val, hy⟩ hr)).trans
    (congrArg (Spec.hardPosT (arrA2 V c) (arrP2 V c) (thr2 V c)) ee).symm

/-- An index of the output array is in point t's block iff each coordinate is in the block's range on its axis. -/
theorem mem_blk2_3 (t : Fin cfg2.N) (i : S4096x1.Idx) :
    i ∈ ((cfg2.win 3).blk t).view.set
      ↔ ∀ a : Fin 2, win2_3.index t a * S1024x1.size a ≤ (i a).val ∧ (i a).val < win2_3.index t a * S1024x1.size a + S1024x1.size a := by
  show i ∈ ((View.whole main_v2).slice (win2_3.rect t)).set ↔ _
  rw [View.set_slice_whole, Rect.mem_set_unit]
  exact Iff.rfl

/-- THE COVER: row r lies in the block of point 4 (r / 1024) + 3, which writes back. -/
theorem cover2_3 (i : S4096x1.Idx) :
    ∃ t : Fin cfg2.N, (cfg2.win 3).flush t = true ∧ i ∈ ((cfg2.win 3).blk t).view.set := by
  have hi0 : (i 0).val < 4096 := (i 0).isLt
  have hi1 : (i 1).val < 1 := (i 1).isLt
  have ht : 4 * ((i 0).val / 1024) + 3 < cfg2.N := by rw [show cfg2.N = 16 from N_2]; omega
  obtain ⟨-, -, -, -, -, -, e0, e1⟩ := idx2 ⟨4 * ((i 0).val / 1024) + 3, ht⟩
  have e0' : win2_3.index ⟨4 * ((i 0).val / 1024) + 3, ht⟩ (0 : Fin 2) = (4 * ((i 0).val / 1024) + 3) / 4 := e0
  refine ⟨⟨4 * ((i 0).val / 1024) + 3, ht⟩, (flush2_3 _).mpr (by show (4 * ((i 0).val / 1024) + 3) % 4 = 3; omega), ?_⟩
  rw [mem_blk2_3]
  intro a
  match a with
  | ⟨0, _⟩ =>
    show win2_3.index ⟨4 * ((i 0).val / 1024) + 3, ht⟩ (0 : Fin 2) * 1024 ≤ (i 0).val
      ∧ (i 0).val < win2_3.index ⟨4 * ((i 0).val / 1024) + 3, ht⟩ (0 : Fin 2) * 1024 + 1024
    rw [e0']; omega
  | ⟨1, _⟩ =>
    show win2_3.index ⟨4 * ((i 0).val / 1024) + 3, ht⟩ (1 : Fin 2) * 1 ≤ (i 1).val
      ∧ (i 1).val < win2_3.index ⟨4 * ((i 0).val / 1024) + 3, ht⟩ (1 : Fin 2) * 1 + 1
    rw [e1]; omega

/-- THE ARRAY after the region: the column of hardest positives. -/
theorem final2_3_arr (c : Dev nD) : (dat2 (F := Ideal) V c).arrAt 3 cfg2.N = G2 V c :=
  (dat2 (F := Ideal) V c).arrAt_eq_of_cover 3 (G2 V c) (flushed2_3_eq V c) (fun i => cover2_3 i)

/-- Row by row: after the region the output column holds at row r the hardest positive of anchor r — the smallest
    distance of anchor r to a positive that lies strictly above the threshold of row r, 0 when there is none —, the
    anchors, the positives and the thresholds being what the region found in its three input arrays. -/
theorem final2_3 (c : Dev nD) (r : Fin 4096) :
    ((dat2 (F := Ideal) V c).arrAt 3 cfg2.N : S4096x1.Idx → EReal) (ix2 r (0 : Fin 1))
      = Spec.hardPosT (V c main_arg0) (V c main_arg1)
          (fun r' => (V c main_v0_1 : S4096x1.Idx → EReal) (ix2 r' (0 : Fin 1))) r :=
  congrFun (final2_3_arr V c) (ix2 r (0 : Fin 1))

end Cert.KernelIdeal.HandV

end
-- ==== Proof.KTail.lean ====
/-
  The end of the kernel program: from the three columns its regions leave — the anchors' distances to their
  positives, the hardest negatives, the hardest positives, each a [4096, 1] array — the host operations compute
      mean_r max(0, ((d_ap(r) − ½·mean(hardest positives)) − ½·mean(hardest negatives)) + 1),
  a mean being the sum over all entries from 0, divided by 4096.
  Here: that composed term, that the three stretches of host operations leave exactly it in the result scalar at any
  valuation of the buffers before them, and that at the extended reals it is the loss of the three columns read row
  by row.
-/
import proofs.«110565_j10264971838200_1_alg».proof.Proof.Gen.KernelIdeal.Launch
import proofs.«110565_j10264971838200_1_alg».proof.Proof.Spec
import Idealize.ShloMosaic.Lib.StableHlo.Run
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

namespace Cert.KernelIdeal.HandV

open Cert.KernelIdeal Cert.KernelIdeal.Gen
open Idealize.ShloMosaic Idealize.ShloMosaic.TcCoe Idealize.SL.Sem Idealize.ShloMosaic.StableHlo
open Idealize.ShloMosaic.ValueIdx

/-- The mean of a [4096, 1] column as the host computes it: the sum over both axes from 0, divided by 4096. -/
def tailColMean (v : Vec Ideal S4096x1 .f32) : Vec Ideal S_ .f32 :=
  Host.divf (F := Ideal)
    (Host.reduceAdd (F := Ideal) v (constant (F := Ideal) S_ .f32 0x00000000#32) reducesTo_S4096x1_S_d0_1 h_S_)
    (constant (F := Ideal) S_ .f32 0x45800000#32)

/-- The 28 host operations composed: with d_an the mean of the hardest negatives `v1` and d_pp the mean of the hardest
    positives `v2`, the mean over the rows r of max(0, ((v00 r − ½·d_pp) − ½·d_an) + 1), the column `v00` reshaped to a
    vector, the scalars ½·d_pp, ½·d_an, 1 and 0 broadcast along it. -/
def tailTerm (v00 v1 v2 : Vec Ideal S4096x1 .f32) : Vec Ideal S_ .f32 :=
  Host.divf (F := Ideal)
    (Host.reduceAdd (F := Ideal)
      (maximumf (F := Ideal)
        (broadcastInDim S4096 ![] bcast_S_S4096 (constant (F := Ideal) S_ .f32 0x00000000#32))
        (addf (F := Ideal)
          (subf (F := Ideal)
            (subf (F := Ideal)
              (shapeCast S4096 v00 shapeCasts_S4096x1_S4096)
              (broadcastInDim S4096 ![] bcast_S_S4096
                (mulf (F := Ideal) (constant (F := Ideal) S_ .f32 0x3F000000#32) (tailColMean v2))))
            (broadcastInDim S4096 ![] bcast_S_S4096
              (mulf (F := Ideal) (constant (F := Ideal) S_ .f32 0x3F000000#32) (tailColMean v1))))
          (broadcastInDim S4096 ![] bcast_S_S4096 (constant (F := Ideal) S_ .f32 0x3F800000#32))))
      (constant (F := Ideal) S_ .f32 0x00000000#32) reducesTo_S4096_S_d0 h_S_)
    (constant (F := Ideal) S_ .f32 0x45800000#32)

/-- Whatever the buffers hold before them, the three stretches of host operations leave in the result scalar the
    composed term of the three columns: each operation's result read at its own buffer is its function of its
    operands' contents, and no operation writes a column. -/
theorem tail_of_valuation (W : Valuation τ sig (Elt Ideal)) :
    StableHlo.after hostOps3_2 (StableHlo.after hostOps3_1 (StableHlo.after hostOps3 W)) (Proc.devRef .tc main_v18)
      = tailTerm (W (Proc.devRef .tc main_v0_0)) (W (Proc.devRef .tc main_v1)) (W (Proc.devRef .tc main_v2)) := by
  after_results
  rfl

/-! ## The term at the extended reals -/

/-- A sum over the indices of a vector is the sum over its entries. -/
theorem tail_sum_vec {n : Nat} (f : (⟨1, ![n]⟩ : Shape).Idx → EReal) : ∑ j, f j = ∑ r : Fin n, f (ix1 r) := by
  rw [← Equiv.sum_comp (idxEquiv1 (n := n)).symm f]
  rfl

/-- A sum over the indices of an [n, 1] column is the sum over its rows: the second coordinate has the one value 0. -/
theorem tail_sum_col {n : Nat} (f : (⟨2, ![n, 1]⟩ : Shape).Idx → EReal) : ∑ j, f j = ∑ r : Fin n, f (ix2 r 0) := by
  rw [sum_idx2]
  exact Finset.sum_congr rfl fun r _ => Fin.sum_univ_one _

/-- A scalar broadcast along the vector reads, at every row, as the scalar. -/
theorem tail_bcast_apply (y : Vec Ideal S_ .f32) (r : Fin 4096) :
    broadcastInDim S4096 ![] bcast_S_S4096 y (ix1 r) = y ix0 :=
  broadcastInDim_apply _ bcast_S_S4096 y (ix1 r) ix0 (fun a => a.elim0)

/-- The [4096, 1] column reshaped to a vector reads at row r as the column's entry (r, 0): both sit at row-major
    position r. -/
theorem tail_reshape_apply (v : Vec Ideal S4096x1 .f32) (r : Fin 4096) :
    shapeCast S4096 v shapeCasts_S4096x1_S4096 (ix1 r) = v (ix2 r 0) := by
  refine shapeCast_apply v shapeCasts_S4096x1_S4096 (ix1 r) (ix2 r 0) ?_
  rw [Shape.rowMajor_val_two, Shape.rowMajor_val_one]
  show r.val * 1 + 0 = r.val
  omega

/-- The host's mean of a column is the mean of its 4096 rows: the sum into a scalar adds every entry to the initial 0,
    and the entries of a column are its rows. -/
theorem tailColMean_apply (v : Vec Ideal S4096x1 .f32) (i : S_.Idx) :
    tailColMean v i = Spec.mean fun r => v (ix2 r 0) := by
  unfold tailColMean Spec.mean
  show Ideal.div (Host.reduceAdd (F := Ideal) v (constant (F := Ideal) S_ .f32 0x00000000#32) reducesTo_S4096x1_S_d0_1 h_S_ i)
      (Ideal.ofBits .f32 0x45800000#32) = _
  congr 1
  simp only [Host.reduceAdd, Ideal.hostReduceAdd_def]
  rw [Ideal.hostReduceAdd_total reducesTo_S4096x1_S_d0_1 (fun b => b.elim0) v _ i, constant_apply,
    Ideal.ofBits_zero_f32, zero_add]
  exact tail_sum_col v

/-- At the extended reals the composed term is the loss of the three columns read row by row: the anchors' distances
    to their positives, then the hardest positives (whose half mean is subtracted first), then the hardest negatives. -/
theorem tail_apply (v00 v1 v2 : Vec Ideal S4096x1 .f32) :
    tailTerm v00 v1 v2
      = fun _ => Spec.lossOf (fun r => v00 (ix2 r 0)) (fun r => v2 (ix2 r 0)) (fun r => v1 (ix2 r 0)) := by
  funext i
  unfold tailTerm Spec.lossOf
  generalize hY : (maximumf (F := Ideal)
        (broadcastInDim S4096 ![] bcast_S_S4096 (constant (F := Ideal) S_ .f32 0x00000000#32))
        (addf (F := Ideal)
          (subf (F := Ideal)
            (subf (F := Ideal)
              (shapeCast S4096 v00 shapeCasts_S4096x1_S4096)
              (broadcastInDim S4096 ![] bcast_S_S4096
                (mulf (F := Ideal) (constant (F := Ideal) S_ .f32 0x3F000000#32) (tailColMean v2))))
            (broadcastInDim S4096 ![] bcast_S_S4096
              (mulf (F := Ideal) (constant (F := Ideal) S_ .f32 0x3F000000#32) (tailColMean v1))))
          (broadcastInDim S4096 ![] bcast_S_S4096 (constant (F := Ideal) S_ .f32 0x3F800000#32))) : Vec Ideal S4096 .f32) = Y
  show Ideal.div (Host.reduceAdd (F := Ideal) Y (constant (F := Ideal) S_ .f32 0x00000000#32) reducesTo_S4096_S_d0 h_S_ i)
      (Ideal.ofBits .f32 0x45800000#32) = _
  unfold Spec.mean
  congr 1
  simp only [Host.reduceAdd, Ideal.hostReduceAdd_def]
  rw [Ideal.hostReduceAdd_total reducesTo_S4096_S_d0 (fun b => b.elim0) Y _ i, constant_apply,
    Ideal.ofBits_zero_f32, zero_add, tail_sum_vec]
  refine Finset.sum_congr rfl fun r _ => ?_
  subst hY
  rw [maximumf_apply, addf_apply, subf_apply, subf_apply, tail_bcast_apply, tail_bcast_apply, tail_bcast_apply, tail_bcast_apply,
    tail_reshape_apply, mulf_apply, mulf_apply, constant_apply, constant_apply, constant_apply, tailColMean_apply, tailColMean_apply,
    Ideal.ofBits_zero_f32]
  rfl

end Cert.KernelIdeal.HandV

end
-- ==== Proof.KValue.lean ====
/-
  What the idealized kernel program returns, as the loss of its three argument matrices.

  The buffers' contents are followed through @main: the row-distance region leaves in its two output columns the
  anchors' distances to their positives and to their negatives; the two mining regions are entered from those
  contents, read the thresholds from those columns, and leave the hardest negatives and the hardest positives; the
  host tail turns the three columns into the mean of the clipped margins. No region and no host operation writes an
  argument, so every region reads the argument matrices as launched.
-/
import proofs.«110565_j10264971838200_1_alg».proof.Proof.Run
import proofs.«110565_j10264971838200_1_alg».proof.Proof.KValue0
import proofs.«110565_j10264971838200_1_alg».proof.Proof.KValue1
import proofs.«110565_j10264971838200_1_alg».proof.Proof.KValue2
import proofs.«110565_j10264971838200_1_alg».proof.Proof.KTail
import proofs.«110565_j10264971838200_1_alg».proof.Proof.Spec

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The arguments, as every region finds them -/

theorem V0_arg (c : Dev nD) (b : Ref sig .tc) : V0 m ρ c b = m ((c : Thread nD τ).loc b) := rfl

theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_arg1 (c : Dev nD) : V1 m ρ c main_arg1 = m ((c : Thread nD τ).loc main_arg1) :=
  (W1_arr m ρ c 1).trans (((dat0 (V0 m ρ) c).arrAt_in 1 rfl _).trans (A_eq0 (V0 m ρ) c 1))
theorem V1_arg2 (c : Dev nD) : V1 m ρ c main_arg2 = m ((c : Thread nD τ).loc main_arg2) :=
  (W1_arr m ρ c 2).trans (((dat0 (V0 m ρ) c).arrAt_in 2 rfl _).trans (A_eq0 (V0 m ρ) c 2))
/-- The two columns the first region leaves. -/
theorem V1_v0_0 (c : Dev nD) : V1 m ρ c main_v0_0 = (dat0 (V0 m ρ) c).arrAt 3 cfg0.N := W1_arr m ρ c 3
theorem V1_v0_1 (c : Dev nD) : V1 m ρ c main_v0_1 = (dat0 (V0 m ρ) c).arrAt 4 cfg0.N := W1_arr m ρ c 4

theorem V2_arg0 (c : Dev nD) : V2 m ρ c main_arg0 = m ((c : Thread nD τ).loc main_arg0) :=
  ((W2_arr m ρ c 0).trans (((dat1 (V1 m ρ) c).arrAt_in 0 rfl _).trans (A_eq1 (V1 m ρ) c 0))).trans (V1_arg0 m ρ c)
theorem V2_arg1 (c : Dev nD) : V2 m ρ c main_arg1 = m ((c : Thread nD τ).loc main_arg1) :=
  (W2_of_ne m ρ c main_arg1 (by decide)).trans (V1_arg1 m ρ c)
/-- The second region does not touch the column of distances to the negatives. -/
theorem V2_v0_1 (c : Dev nD) : V2 m ρ c main_v0_1 = (dat0 (V0 m ρ) c).arrAt 4 cfg0.N :=
  (W2_of_ne m ρ c main_v0_1 (by decide)).trans (V1_v0_1 m ρ c)
/-- It reads the column of distances to the positives through an input window, and leaves it as found. -/
theorem V2_v0_0 (c : Dev nD) : V2 m ρ c main_v0_0 = (dat0 (V0 m ρ) c).arrAt 3 cfg0.N :=
  ((W2_arr m ρ c 2).trans (((dat1 (V1 m ρ) c).arrAt_in 2 rfl _).trans (A_eq1 (V1 m ρ) c 2))).trans (V1_v0_0 m ρ c)
theorem V2_v1 (c : Dev nD) : V2 m ρ c main_v1 = (dat1 (V1 m ρ) c).arrAt 3 cfg1.N := W2_arr m ρ c 3

theorem V3_v0_0 (c : Dev nD) : V3 m ρ c main_v0_0 = (dat0 (V0 m ρ) c).arrAt 3 cfg0.N :=
  (W3_of_ne m ρ c main_v0_0 (by decide)).trans (V2_v0_0 m ρ c)
theorem V3_v1 (c : Dev nD) : V3 m ρ c main_v1 = (dat1 (V1 m ρ) c).arrAt 3 cfg1.N :=
  (W3_of_ne m ρ c main_v1 (by decide)).trans (V2_v1 m ρ c)
theorem V3_v2 (c : Dev nD) : V3 m ρ c main_v2 = (dat2 (V2 m ρ) c).arrAt 3 cfg2.N := W3_arr m ρ c 3

/-! ## The three columns after the regions -/

/-- The anchors' distances to their positives. -/
theorem col_dap (c : Dev nD) (r : Fin 4096) :
    (V3 m ρ c main_v0_0 : S4096x1.Idx → EReal) (ix2 r 0)
      = Spec.rowDist (m ((c : Thread nD τ).loc main_arg0)) (m ((c : Thread nD τ).loc main_arg1)) r := by
  rw [V3_v0_0]; exact final0_3 (V0 m ρ) c r

/-- The hardest negatives: the thresholds the second region reads are the first region's column. -/
theorem col_hn (c : Dev nD) (r : Fin 4096) :
    (V3 m ρ c main_v1 : S4096x1.Idx → EReal) (ix2 r 0)
      = Spec.hardNeg (m ((c : Thread nD τ).loc main_arg0)) (m ((c : Thread nD τ).loc main_arg2)) (m ((c : Thread nD τ).loc main_arg1)) r := by
  rw [V3_v1, final1_3 (V1 m ρ) c r, V1_arg0, V1_arg2, V1_v0_0]
  unfold Spec.hardNeg
  exact congrArg (fun d => Spec.hardNegT _ _ d r) (funext fun r' => final0_3 (V0 m ρ) c r')

/-- The hardest positives: the thresholds the third region reads are the first region's other column. -/
theorem col_hp (c : Dev nD) (r : Fin 4096) :
    (V3 m ρ c main_v2 : S4096x1.Idx → EReal) (ix2 r 0)
      = Spec.hardPos (m ((c : Thread nD τ).loc main_arg0)) (m ((c : Thread nD τ).loc main_arg1)) (m ((c : Thread nD τ).loc main_arg2)) r := by
  rw [V3_v2, final2_3 (V2 m ρ) c r, V2_arg0, V2_arg1, V2_v0_1]
  unfold Spec.hardPos
  exact congrArg (fun d => Spec.hardPosT _ _ d r) (funext fun r' => final0_4 (V0 m ρ) c r')

/-! ## The result -/

/-- The scalar the program returns is the loss of the three argument matrices. -/
theorem result_eq (c : Dev nD) :
    W6 m ρ c (Proc.devRef .tc main_v18)
      = fun _ => Spec.loss (m ((c : Thread nD τ).loc main_arg0)) (m ((c : Thread nD τ).loc main_arg1)) (m ((c : Thread nD τ).loc main_arg2)) := by
  refine (tail_of_valuation (W3 m ρ c)).trans ((tail_apply _ _ _).trans ?_)
  funext _
  unfold Spec.loss
  exact congrArg₂ (fun hp hn => Spec.lossOf _ hp hn) (funext fun r => col_hp m ρ c r) (funext fun r => col_hn m ρ c r) |>.trans
    (congrArg (fun d => Spec.lossOf d _ _) (funext fun r => col_dap m ρ c r))

end Cert.KernelIdeal.HandV

end
-- ==== Proof.LibTypedRef.lean ====
/-
  Typed references: the transport between a value's type and its buffer's.
-/
import Idealize.ShloMosaic.Lib.StableHlo

namespace Cert.LibTypedRef

open Idealize.ShloMosaic Idealize.ShloMosaic.StableHlo

variable {sig : RefSig} {Val : EltTy → Type} {T : BufTy}

/-- A typed reference moves contents of its value's type `T` into its buffer's type and back along one equation of
    types; there and back is the identity.  (An operation of a module-local function, stated over typed references,
    writes its result through `toBuf` and the next one reads it through `ofBuf`: composed, the pair disappears, for any
    signature, value types and reference.) -/
theorem ofBuf_toBuf (x : TRef sig T) (v : T.Contents Val) : x.ofBuf (x.toBuf v) = v := by
  obtain ⟨r, rfl, _, _⟩ := x
  rfl

/-- And back and there. -/
theorem toBuf_ofBuf (x : TRef sig T) (v : x.ref.ty.Contents Val) : x.toBuf (x.ofBuf v) = v := by
  obtain ⟨r, rfl, _, _⟩ := x
  rfl

end Cert.LibTypedRef
-- ==== Proof.LibTypedRefSame.lean ====
/-
  Typed references taken at their buffer's own type: the transport is along a reflexive equation.
-/
import Idealize.ShloMosaic.Lib.StableHlo

namespace Cert.LibTypedRefSame

open Idealize.ShloMosaic Idealize.ShloMosaic.StableHlo

variable {sig : RefSig} {Val : EltTy → Type}

/-- A typed reference whose value type is its buffer's own type moves contents into the buffer along a reflexive
    equation of types, that is, nowhere. Stated at `T := r.ty` so that it holds by definition; at a use site where the
    value type is a literal that only UNFOLDS to `r.ty`, rewrite with it by `erw`, which may unfold the buffer's type
    (`rw` and `simp` compare the two types without unfolding and find no instance). Any signature, value types and
    reference. -/
theorem toBuf_same (r : Ref sig .tc) (h : r.ty = r.ty) (hd : r.space ≠ .host) (hu : r.isScoped = false)
    (v : r.ty.Contents Val) : (TRef.of (T := r.ty) r h hd hu).toBuf v = v := rfl

/-- And out of the buffer likewise. -/
theorem ofBuf_same (r : Ref sig .tc) (h : r.ty = r.ty) (hd : r.space ≠ .host) (hu : r.isScoped = false)
    (v : r.ty.Contents Val) : (TRef.of (T := r.ty) r h hd hu).ofBuf v = v := rfl

end Cert.LibTypedRefSame
-- ==== Proof.RefRunH.lean ====
/-
  The reference program's run, read stretch by stretch.

  @main of the reference is a straight line of 147 host operations (a called function's operations standing in its
  call's place). Run from launch contents `V`, a core's buffers end at `after ops V`: the fold of the operations'
  results. Claimed here: the result buffer `main_v94` ends at its stage `ReadP.val_main_v94` of the three arguments'
  launch contents, and no argument is written.

  The composed term of all 147 operations is never formed. The line is cut into eleven consecutive stretches,
  `ops = s1 ++ … ++ s7`, at points where few buffers are still to be read: after the first norm (`main_v3`), the
  second norm (`main_v7`), the first distance matrix (`main_v36`), the mean of its rows' masked maxima (`main_v45`,
  in three pieces: the comparison, the maxima, the mean), the second distance matrix (`main_v74`), the mean of its rows'
  masked minima (`main_v83`, in three pieces likewise), and the end. Between two stretches an invariant says what the
  buffers that a later stretch reads hold: each its stage `ReadP.val_<buffer>` of the arguments. One stretch is run by
  the fold over its own operations only: its last buffer is the composition of that stretch's operations over the
  buffers it reads — by the invariant those hold stages, and a stage is by definition its operation applied to its
  operands' stages —, and every buffer the stretch does not write is as before.
-/
import proofs.«110565_j10264971838200_1_alg».proof.Proof.RefRead
import proofs.«110565_j10264971838200_1_alg».proof.Proof.LibTypedRef
import proofs.«110565_j10264971838200_1_alg».proof.Proof.LibTypedRefSame

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-! ## The stretches -/

/-- The first norm: the difference of the first two arguments plus a small constant, squared, summed along each row,
    the root taken. -/
abbrev s1 : List (HloOp τ sig (Elt F)) :=
  [ binary main_arg0 main_arg1 main_v0 (subf : (⟨S4096x1024, .f32⟩ : BufTy).Contents (Elt F) → (⟨S4096x1024, .f32⟩ : BufTy).Contents (Elt F) → (⟨S4096x1024, .f32⟩ : BufTy).Contents (Elt F)),
    nullary main_cst (constant S_ .f32 0x358637BD#32),
    unary main_cst main_v1 (broadcastInDim S4096x1024 ![] bcast_S_S4096x1024 : (⟨S_, .f32⟩ : BufTy).Contents (Elt F) → (⟨S4096x1024, .f32⟩ : BufTy).Contents (Elt F)),
    binary main_v0 main_v1 main_v2 (addf : (⟨S4096x1024, .f32⟩ : BufTy).Contents (Elt F) → (⟨S4096x1024, .f32⟩ : BufTy).Contents (Elt F) → (⟨S4096x1024, .f32⟩ : BufTy).Contents (Elt F)),
    TRef.binary (TRef.of (T := ⟨S4096x1024, .f32⟩) main_v2) (TRef.of (T := ⟨S4096x1024, .f32⟩) main_v2) (TRef.of (T := ⟨S4096x1024, .f32⟩) main_call0_v0) mulf,
    TRef.nullary (TRef.of (T := ⟨S_, .f32⟩) main_call0_cst) (constant S_ .f32 0x00000000#32),
    TRef.binary (TRef.of (T := ⟨S4096x1024, .f32⟩) main_call0_v0) (TRef.of (T := ⟨S_, .f32⟩) main_call0_cst) (TRef.of (T := ⟨S4096, .f32⟩) main_call0_v1) (fun x v => Host.reduceAdd x v reducesTo_S4096x1024_S4096_d1 h_S_),
    TRef.unary (TRef.of (T := ⟨S4096, .f32⟩) main_call0_v1) (TRef.of (T := ⟨S4096, .f32⟩) main_v3) Host.sqrt ]

/-- The second norm: the same of the first and third arguments. -/
abbrev s2 : List (HloOp τ sig (Elt F)) :=
  [ binary main_arg0 main_arg2 main_v4 (subf : (⟨S4096x1024, .f32⟩ : BufTy).Contents (Elt F) → (⟨S4096x1024, .f32⟩ : BufTy).Contents (Elt F) → (⟨S4096x1024, .f32⟩ : BufTy).Contents (Elt F)),
    nullary main_cst_0 (constant S_ .f32 0x358637BD#32),
    unary main_cst_0 main_v5 (broadcastInDim S4096x1024 ![] bcast_S_S4096x1024 : (⟨S_, .f32⟩ : BufTy).Contents (Elt F) → (⟨S4096x1024, .f32⟩ : BufTy).Contents (Elt F)),
    binary main_v4 main_v5 main_v6 (addf : (⟨S4096x1024, .f32⟩ : BufTy).Contents (Elt F) → (⟨S4096x1024, .f32⟩ : BufTy).Contents (Elt F) → (⟨S4096x1024, .f32⟩ : BufTy).Contents (Elt F)),
    TRef.binary (TRef.of (T := ⟨S4096x1024, .f32⟩) main_v6) (TRef.of (T := ⟨S4096x1024, .f32⟩) main_v6) (TRef.of (T := ⟨S4096x1024, .f32⟩) main_call1_v0) mulf,
    TRef.nullary (TRef.of (T := ⟨S_, .f32⟩) main_call1_cst) (constant S_ .f32 0x00000000#32),
    TRef.binary (TRef.of (T := ⟨S4096x1024, .f32⟩) main_call1_v0) (TRef.of (T := ⟨S_, .f32⟩) main_call1_cst) (TRef.of (T := ⟨S4096, .f32⟩) main_call1_v1) (fun x v => Host.reduceAdd x v reducesTo_S4096x1024_S4096_d1 h_S_),
    TRef.unary (TRef.of (T := ⟨S4096, .f32⟩) main_call1_v1) (TRef.of (T := ⟨S4096, .f32⟩) main_v7) Host.sqrt ]

/-- The first distance matrix, between the rows of the first and third arguments: the rows' squared lengths, one
    broadcast along rows and one along columns, less twice the matrix of inner products, plus a small multiple of the
    difference of the rows' entry sums and a small constant, floored at zero, the root taken. -/
abbrev s3 : List (HloOp τ sig (Elt F)) :=
  [ binary main_arg0 main_arg0 main_v8 (mulf : (⟨S4096x1024, .f32⟩ : BufTy).Contents (Elt F) → (⟨S4096x1024, .f32⟩ : BufTy).Contents (Elt F) → (⟨S4096x1024, .f32⟩ : BufTy).Contents (Elt F)),
    nullary main_cst_1 (constant S_ .f32 0x00000000#32),
    binary main_v8 main_cst_1 main_v9 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v9 main_v10 (broadcastInDim S4096x1 ![0] bcast_S4096_S4096x1_0 : (⟨S4096, .f32⟩ : BufTy).Contents (Elt F) → (⟨S4096x1, .f32⟩ : BufTy).Contents (Elt F)),
    binary main_arg2 main_arg2 main_v11 (mulf : (⟨S4096x1024, .f32⟩ : BufTy).Contents (Elt F) → (⟨S4096x1024, .f32⟩ : BufTy).Contents (Elt F) → (⟨S4096x1024, .f32⟩ : BufTy).Contents (Elt F)),
    nullary main_cst_2 (constant S_ .f32 0x00000000#32),
    binary main_v11 main_cst_2 main_v12 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v12 main_v13 (broadcastInDim S1x4096 ![1] bcast_S4096_S1x4096_1 : (⟨S4096, .f32⟩ : BufTy).Contents (Elt F) → (⟨S1x4096, .f32⟩ : BufTy).Contents (Elt F)),
    unary main_v10 main_v14 (broadcastInDim S4096x4096 ![0, 1] bcast_S4096x1_S4096x4096_0_1 : (⟨S4096x1, .f32⟩ : BufTy).Contents (Elt F) → (⟨S4096x4096, .f32⟩ : BufTy).Contents (Elt F)),
    unary main_v13 main_v15 (broadcastInDim S4096x4096 ![0, 1] bcast_S1x4096_S4096x4096_0_1 : (⟨S1x4096, .f32⟩ : BufTy).Contents (Elt F) → (⟨S4096x4096, .f32⟩ : BufTy).Contents (Elt F)),
    binary main_v14 main_v15 main_v16 (addf : (⟨S4096x4096, .f32⟩ : BufTy).Contents (Elt F) → (⟨S4096x4096, .f32⟩ : BufTy).Contents (Elt F) → (⟨S4096x4096, .f32⟩ : BufTy).Contents (Elt F)),
    unary main_arg2 main_v17 ((transpose S1024x4096 [1, 0] · transposes_S4096x1024_S1024x4096_1_0) : (⟨S4096x1024, .f32⟩ : BufTy).Contents (Elt F) → (⟨S1024x4096, .f32⟩ : BufTy).Contents (Elt F)),
    binary main_arg0 main_v17 main_v18 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    nullary main_cst_3 (constant S_ .f32 0x40000000#32),
    unary main_cst_3 main_v19 (broadcastInDim S4096x4096 ![] bcast_S_S4096x4096 : (⟨S_, .f32⟩ : BufTy).Contents (Elt F) → (⟨S4096x4096, .f32⟩ : BufTy).Contents (Elt F)),
    binary main_v19 main_v18 main_v20 (mulf : (⟨S4096x4096, .f32⟩ : BufTy).Contents (Elt F) → (⟨S4096x4096, .f32⟩ : BufTy).Contents (Elt F) → (⟨S4096x4096, .f32⟩ : BufTy).Contents (Elt F)),
    binary main_v16 main_v20 main_v21 (subf : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x00000000#32),
    binary main_arg0 main_cst_4 main_v22 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v22 main_v23 (broadcastInDim S4096x1 ![0] bcast_S4096_S4096x1_0 : (⟨S4096, .f32⟩ : BufTy).Contents (Elt F) → (⟨S4096x1, .f32⟩ : BufTy).Contents (Elt F)),
    nullary main_cst_5 (constant S_ .f32 0x00000000#32),
    binary main_arg2 main_cst_5 main_v24 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v24 main_v25 (broadcastInDim S1x4096 ![1] bcast_S4096_S1x4096_1 : (⟨S4096, .f32⟩ : BufTy).Contents (Elt F) → (⟨S1x4096, .f32⟩ : BufTy).Contents (Elt F)),
    unary main_v23 main_v26 (broadcastInDim S4096x4096 ![0, 1] bcast_S4096x1_S4096x4096_0_1 : (⟨S4096x1, .f32⟩ : BufTy).Contents (Elt F) → (⟨S4096x4096, .f32⟩ : BufTy).Contents (Elt F)),
    unary main_v25 main_v27 (broadcastInDim S4096x4096 ![0, 1] bcast_S1x4096_S4096x4096_0_1 : (⟨S1x4096, .f32⟩ : BufTy).Contents (Elt F) → (⟨S4096x4096, .f32⟩ : BufTy).Contents (Elt F)),
    binary main_v26 main_v27 main_v28 (subf : (⟨S4096x4096, .f32⟩ : BufTy).Contents (Elt F) → (⟨S4096x4096, .f32⟩ : BufTy).Contents (Elt F) → (⟨S4096x4096, .f32⟩ : BufTy).Contents (Elt F)),
    nullary main_cst_6 (constant S_ .f32 0x360637BD#32),
    unary main_cst_6 main_v29 (broadcastInDim S4096x4096 ![] bcast_S_S4096x4096 : (⟨S_, .f32⟩ : BufTy).Contents (Elt F) → (⟨S4096x4096, .f32⟩ : BufTy).Contents (Elt F)),
    binary main_v29 main_v28 main_v30 (mulf : (⟨S4096x4096, .f32⟩ : BufTy).Contents (Elt F) → (⟨S4096x4096, .f32⟩ : BufTy).Contents (Elt F) → (⟨S4096x4096, .f32⟩ : BufTy).Contents (Elt F)),
    binary main_v21 main_v30 main_v31 (addf : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x308CBCCC#32),
    unary main_cst_7 main_v32 (broadcastInDim S4096x4096 ![] bcast_S_S4096x4096 : (⟨S_, .f32⟩ : BufTy).Contents (Elt F) → (⟨S4096x4096, .f32⟩ : BufTy).Contents (Elt F)),
    binary main_v31 main_v32 main_v33 (addf : (⟨S4096x4096, .f32⟩ : BufTy).Contents (Elt F) → (⟨S4096x4096, .f32⟩ : BufTy).Contents (Elt F) → (⟨S4096x4096, .f32⟩ : BufTy).Contents (Elt F)),
    nullary main_cst_8 (constant S_ .f32 0x00000000#32),
    unary main_cst_8 main_v34 (broadcastInDim S4096x4096 ![] bcast_S_S4096x4096 : (⟨S_, .f32⟩ : BufTy).Contents (Elt F) → (⟨S4096x4096, .f32⟩ : BufTy).Contents (Elt F)),
    binary main_v33 main_v34 main_v35 (maximumf : (⟨S4096x4096, .f32⟩ : BufTy).Contents (Elt F) → (⟨S4096x4096, .f32⟩ : BufTy).Contents (Elt F) → (⟨S4096x4096, .f32⟩ : BufTy).Contents (Elt F)),
    unary main_v35 main_v36 (Host.sqrt : (⟨S4096x4096, .f32⟩ : BufTy).Contents (Elt F) → (⟨S4096x4096, .f32⟩ : BufTy).Contents (Elt F)) ]

/-- Where the first distance matrix is below its row's first norm, and which rows have such an entry. -/
abbrev s4a : List (HloOp τ sig (Elt F)) :=
  [ unary main_v3 main_v37 (broadcastInDim S4096x1 ![0] bcast_S4096_S4096x1_0 : (⟨S4096, .f32⟩ : BufTy).Contents (Elt F) → (⟨S4096x1, .f32⟩ : BufTy).Contents (Elt F)),
    unary main_v37 main_v38 (broadcastInDim S4096x4096 ![0, 1] bcast_S4096x1_S4096x4096_0_1 : (⟨S4096x1, .f32⟩ : BufTy).Contents (Elt F) → (⟨S4096x4096, .f32⟩ : BufTy).Contents (Elt F)),
    binary main_v36 main_v38 main_v39 (cmpf .olt : (⟨S4096x4096, .f32⟩ : BufTy).Contents (Elt F) → (⟨S4096x4096, .f32⟩ : BufTy).Contents (Elt F) → (⟨S4096x4096, .i1⟩ : BufTy).Contents (Elt F)),
    nullary main_c (constantI S_ 1 0#1),
    binary main_v39 main_c main_v40 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)) ]

/-- Each row's largest such entry (minus infinity standing for the others). -/
abbrev s4b : List (HloOp τ sig (Elt F)) :=
  [ nullary main_cst_9 (constant S_ .f32 0xFF800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S4096x4096, .f32⟩) main_call2_v1) (broadcastInDim S4096x4096 ![] bcast_S_S4096x4096),
    TRef.ternary (TRef.of (T := ⟨S4096x4096, .i1⟩) main_v39) (TRef.of (T := ⟨S4096x4096, .f32⟩) main_v36) (TRef.of (T := ⟨S4096x4096, .f32⟩) main_call2_v1) (TRef.of (T := ⟨S4096x4096, .f32⟩) main_v41) select,
    nullary main_cst_10 (constant S_ .f32 0xFF800000#32),
    binary main_v41 main_cst_10 main_v42 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)) ]

/-- The mean over the rows of that maximum, zero for a row that has none. -/
abbrev s4c : List (HloOp τ sig (Elt F)) :=
  [ nullary main_cst_11 (constant S_ .f32 0x00000000#32),
    TRef.unary (TRef.of (T := ⟨S_, .f32⟩) main_cst_11) (TRef.of (T := ⟨S_, .f32⟩) main_call3_v0) id,
    TRef.unary (TRef.of (T := ⟨S_, .f32⟩) main_call3_v0) (TRef.of (T := ⟨S4096, .f32⟩) main_call3_v1) (broadcastInDim S4096 ![] bcast_S_S4096),
    TRef.ternary (TRef.of (T := ⟨S4096, .i1⟩) main_v40) (TRef.of (T := ⟨S4096, .f32⟩) main_v42) (TRef.of (T := ⟨S4096, .f32⟩) main_call3_v1) (TRef.of (T := ⟨S4096, .f32⟩) main_v43) select,
    nullary main_cst_12 (constant S_ .f32 0x00000000#32),
    binary main_v43 main_cst_12 main_v44 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_13 (constant S_ .f32 0x45800000#32),
    binary main_v44 main_cst_13 main_v45 (Host.divf : (⟨S_, .f32⟩ : BufTy).Contents (Elt F) → (⟨S_, .f32⟩ : BufTy).Contents (Elt F) → (⟨S_, .f32⟩ : BufTy).Contents (Elt F)) ]

/-- The second distance matrix, between the rows of the first and second arguments. -/
abbrev s5 : List (HloOp τ sig (Elt F)) :=
  [ binary main_arg0 main_arg0 main_v46 (mulf : (⟨S4096x1024, .f32⟩ : BufTy).Contents (Elt F) → (⟨S4096x1024, .f32⟩ : BufTy).Contents (Elt F) → (⟨S4096x1024, .f32⟩ : BufTy).Contents (Elt F)),
    nullary main_cst_14 (constant S_ .f32 0x00000000#32),
    binary main_v46 main_cst_14 main_v47 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v47 main_v48 (broadcastInDim S4096x1 ![0] bcast_S4096_S4096x1_0 : (⟨S4096, .f32⟩ : BufTy).Contents (Elt F) → (⟨S4096x1, .f32⟩ : BufTy).Contents (Elt F)),
    binary main_arg1 main_arg1 main_v49 (mulf : (⟨S4096x1024, .f32⟩ : BufTy).Contents (Elt F) → (⟨S4096x1024, .f32⟩ : BufTy).Contents (Elt F) → (⟨S4096x1024, .f32⟩ : BufTy).Contents (Elt F)),
    nullary main_cst_15 (constant S_ .f32 0x00000000#32),
    binary main_v49 main_cst_15 main_v50 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v50 main_v51 (broadcastInDim S1x4096 ![1] bcast_S4096_S1x4096_1 : (⟨S4096, .f32⟩ : BufTy).Contents (Elt F) → (⟨S1x4096, .f32⟩ : BufTy).Contents (Elt F)),
    unary main_v48 main_v52 (broadcastInDim S4096x4096 ![0, 1] bcast_S4096x1_S4096x4096_0_1 : (⟨S4096x1, .f32⟩ : BufTy).Contents (Elt F) → (⟨S4096x4096, .f32⟩ : BufTy).Contents (Elt F)),
    unary main_v51 main_v53 (broadcastInDim S4096x4096 ![0, 1] bcast_S1x4096_S4096x4096_0_1 : (⟨S1x4096, .f32⟩ : BufTy).Contents (Elt F) → (⟨S4096x4096, .f32⟩ : BufTy).Contents (Elt F)),
    binary main_v52 main_v53 main_v54 (addf : (⟨S4096x4096, .f32⟩ : BufTy).Contents (Elt F) → (⟨S4096x4096, .f32⟩ : BufTy).Contents (Elt F) → (⟨S4096x4096, .f32⟩ : BufTy).Contents (Elt F)),
    unary main_arg1 main_v55 ((transpose S1024x4096 [1, 0] · transposes_S4096x1024_S1024x4096_1_0) : (⟨S4096x1024, .f32⟩ : BufTy).Contents (Elt F) → (⟨S1024x4096, .f32⟩ : BufTy).Contents (Elt F)),
    binary main_arg0 main_v55 main_v56 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    nullary main_cst_16 (constant S_ .f32 0x40000000#32),
    unary main_cst_16 main_v57 (broadcastInDim S4096x4096 ![] bcast_S_S4096x4096 : (⟨S_, .f32⟩ : BufTy).Contents (Elt F) → (⟨S4096x4096, .f32⟩ : BufTy).Contents (Elt F)),
    binary main_v57 main_v56 main_v58 (mulf : (⟨S4096x4096, .f32⟩ : BufTy).Contents (Elt F) → (⟨S4096x4096, .f32⟩ : BufTy).Contents (Elt F) → (⟨S4096x4096, .f32⟩ : BufTy).Contents (Elt F)),
    binary main_v54 main_v58 main_v59 (subf : (⟨S4096x4096, .f32⟩ : BufTy).Contents (Elt F) → (⟨S4096x4096, .f32⟩ : BufTy).Contents (Elt F) → (⟨S4096x4096, .f32⟩ : BufTy).Contents (Elt F)),
    nullary main_cst_17 (constant S_ .f32 0x00000000#32),
    binary main_arg0 main_cst_17 main_v60 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v60 main_v61 (broadcastInDim S4096x1 ![0] bcast_S4096_S4096x1_0 : (⟨S4096, .f32⟩ : BufTy).Contents (Elt F) → (⟨S4096x1, .f32⟩ : BufTy).Contents (Elt F)),
    nullary main_cst_18 (constant S_ .f32 0x00000000#32),
    binary main_arg1 main_cst_18 main_v62 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v62 main_v63 (broadcastInDim S1x4096 ![1] bcast_S4096_S1x4096_1 : (⟨S4096, .f32⟩ : BufTy).Contents (Elt F) → (⟨S1x4096, .f32⟩ : BufTy).Contents (Elt F)),
    unary main_v61 main_v64 (broadcastInDim S4096x4096 ![0, 1] bcast_S4096x1_S4096x4096_0_1 : (⟨S4096x1, .f32⟩ : BufTy).Contents (Elt F) → (⟨S4096x4096, .f32⟩ : BufTy).Contents (Elt F)),
    unary main_v63 main_v65 (broadcastInDim S4096x4096 ![0, 1] bcast_S1x4096_S4096x4096_0_1 : (⟨S1x4096, .f32⟩ : BufTy).Contents (Elt F) → (⟨S4096x4096, .f32⟩ : BufTy).Contents (Elt F)),
    binary main_v64 main_v65 main_v66 (subf : (⟨S4096x4096, .f32⟩ : BufTy).Contents (Elt F) → (⟨S4096x4096, .f32⟩ : BufTy).Contents (Elt F) → (⟨S4096x4096, .f32⟩ : BufTy).Contents (Elt F)),
    nullary main_cst_19 (constant S_ .f32 0x360637BD#32),
    unary main_cst_19 main_v67 (broadcastInDim S4096x4096 ![] bcast_S_S4096x4096 : (⟨S_, .f32⟩ : BufTy).Contents (Elt F) → (⟨S4096x4096, .f32⟩ : BufTy).Contents (Elt F)),
    binary main_v67 main_v66 main_v68 (mulf : (⟨S4096x4096, .f32⟩ : BufTy).Contents (Elt F) → (⟨S4096x4096, .f32⟩ : BufTy).Contents (Elt F) → (⟨S4096x4096, .f32⟩ : BufTy).Contents (Elt F)),
    binary main_v59 main_v68 main_v69 (addf : (⟨S4096x4096, .f32⟩ : BufTy).Contents (Elt F) → (⟨S4096x4096, .f32⟩ : BufTy).Contents (Elt F) → (⟨S4096x4096, .f32⟩ : BufTy).Contents (Elt F)),
    nullary main_cst_20 (constant S_ .f32 0x308CBCCC#32),
    unary main_cst_20 main_v70 (broadcastInDim S4096x4096 ![] bcast_S_S4096x4096 : (⟨S_, .f32⟩ : BufTy).Contents (Elt F) → (⟨S4096x4096, .f32⟩ : BufTy).Contents (Elt F)),
    binary main_v69 main_v70 main_v71 (addf : (⟨S4096x4096, .f32⟩ : BufTy).Contents (Elt F) → (⟨S4096x4096, .f32⟩ : BufTy).Contents (Elt F) → (⟨S4096x4096, .f32⟩ : BufTy).Contents (Elt F)),
    nullary main_cst_21 (constant S_ .f32 0x00000000#32),
    unary main_cst_21 main_v72 (broadcastInDim S4096x4096 ![] bcast_S_S4096x4096 : (⟨S_, .f32⟩ : BufTy).Contents (Elt F) → (⟨S4096x4096, .f32⟩ : BufTy).Contents (Elt F)),
    binary main_v71 main_v72 main_v73 (maximumf : (⟨S4096x4096, .f32⟩ : BufTy).Contents (Elt F) → (⟨S4096x4096, .f32⟩ : BufTy).Contents (Elt F) → (⟨S4096x4096, .f32⟩ : BufTy).Contents (Elt F)),
    unary main_v73 main_v74 (Host.sqrt : (⟨S4096x4096, .f32⟩ : BufTy).Contents (Elt F) → (⟨S4096x4096, .f32⟩ : BufTy).Contents (Elt F)) ]

/-- Where the second distance matrix is above its row's second norm, and which rows have such an entry. -/
abbrev s6a : List (HloOp τ sig (Elt F)) :=
  [ unary main_v7 main_v75 (broadcastInDim S4096x1 ![0] bcast_S4096_S4096x1_0 : (⟨S4096, .f32⟩ : BufTy).Contents (Elt F) → (⟨S4096x1, .f32⟩ : BufTy).Contents (Elt F)),
    unary main_v75 main_v76 (broadcastInDim S4096x4096 ![0, 1] bcast_S4096x1_S4096x4096_0_1 : (⟨S4096x1, .f32⟩ : BufTy).Contents (Elt F) → (⟨S4096x4096, .f32⟩ : BufTy).Contents (Elt F)),
    binary main_v74 main_v76 main_v77 (cmpf .ogt : (⟨S4096x4096, .f32⟩ : BufTy).Contents (Elt F) → (⟨S4096x4096, .f32⟩ : BufTy).Contents (Elt F) → (⟨S4096x4096, .i1⟩ : BufTy).Contents (Elt F)),
    nullary main_c_22 (constantI S_ 1 0#1),
    binary main_v77 main_c_22 main_v78 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)) ]

/-- Each row's smallest such entry (plus infinity standing for the others). -/
abbrev s6b : List (HloOp τ sig (Elt F)) :=
  [ nullary main_cst_23 (constant S_ .f32 0x7F800000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S4096x4096, .f32⟩) main_call4_v1) (broadcastInDim S4096x4096 ![] bcast_S_S4096x4096),
    TRef.ternary (TRef.of (T := ⟨S4096x4096, .i1⟩) main_v77) (TRef.of (T := ⟨S4096x4096, .f32⟩) main_v74) (TRef.of (T := ⟨S4096x4096, .f32⟩) main_call4_v1) (TRef.of (T := ⟨S4096x4096, .f32⟩) main_v79) select,
    nullary main_cst_24 (constant S_ .f32 0x7F800000#32),
    binary main_v79 main_cst_24 main_v80 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)) ]

/-- The mean over the rows of that minimum, zero for a row that has none. -/
abbrev s6c : List (HloOp τ sig (Elt F)) :=
  [ nullary main_cst_25 (constant S_ .f32 0x00000000#32),
    TRef.unary (TRef.of (T := ⟨S_, .f32⟩) main_cst_25) (TRef.of (T := ⟨S_, .f32⟩) main_call5_v0) id,
    TRef.unary (TRef.of (T := ⟨S_, .f32⟩) main_call5_v0) (TRef.of (T := ⟨S4096, .f32⟩) main_call5_v1) (broadcastInDim S4096 ![] bcast_S_S4096),
    TRef.ternary (TRef.of (T := ⟨S4096, .i1⟩) main_v78) (TRef.of (T := ⟨S4096, .f32⟩) main_v80) (TRef.of (T := ⟨S4096, .f32⟩) main_call5_v1) (TRef.of (T := ⟨S4096, .f32⟩) main_v81) select,
    nullary main_cst_26 (constant S_ .f32 0x00000000#32),
    binary main_v81 main_cst_26 main_v82 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_27 (constant S_ .f32 0x45800000#32),
    binary main_v82 main_cst_27 main_v83 (Host.divf : (⟨S_, .f32⟩ : BufTy).Contents (Elt F) → (⟨S_, .f32⟩ : BufTy).Contents (Elt F) → (⟨S_, .f32⟩ : BufTy).Contents (Elt F)) ]

/-- The end: the first norm less half of each of the two means, plus one, floored at zero, averaged over the rows. -/
abbrev s7 : List (HloOp τ sig (Elt F)) :=
  [ nullary main_cst_28 (constant S_ .f32 0x3F000000#32),
    binary main_cst_28 main_v83 main_v84 (mulf : (⟨S_, .f32⟩ : BufTy).Contents (Elt F) → (⟨S_, .f32⟩ : BufTy).Contents (Elt F) → (⟨S_, .f32⟩ : BufTy).Contents (Elt F)),
    unary main_v84 main_v85 (broadcastInDim S4096 ![] bcast_S_S4096 : (⟨S_, .f32⟩ : BufTy).Contents (Elt F) → (⟨S4096, .f32⟩ : BufTy).Contents (Elt F)),
    binary main_v3 main_v85 main_v86 (subf : (⟨S4096, .f32⟩ : BufTy).Contents (Elt F) → (⟨S4096, .f32⟩ : BufTy).Contents (Elt F) → (⟨S4096, .f32⟩ : BufTy).Contents (Elt F)),
    nullary main_cst_29 (constant S_ .f32 0x3F000000#32),
    binary main_cst_29 main_v45 main_v87 (mulf : (⟨S_, .f32⟩ : BufTy).Contents (Elt F) → (⟨S_, .f32⟩ : BufTy).Contents (Elt F) → (⟨S_, .f32⟩ : BufTy).Contents (Elt F)),
    unary main_v87 main_v88 (broadcastInDim S4096 ![] bcast_S_S4096 : (⟨S_, .f32⟩ : BufTy).Contents (Elt F) → (⟨S4096, .f32⟩ : BufTy).Contents (Elt F)),
    binary main_v86 main_v88 main_v89 (subf : (⟨S4096, .f32⟩ : BufTy).Contents (Elt F) → (⟨S4096, .f32⟩ : BufTy).Contents (Elt F) → (⟨S4096, .f32⟩ : BufTy).Contents (Elt F)),
    nullary main_cst_30 (constant S_ .f32 0x3F800000#32),
    unary main_cst_30 main_v90 (broadcastInDim S4096 ![] bcast_S_S4096 : (⟨S_, .f32⟩ : BufTy).Contents (Elt F) → (⟨S4096, .f32⟩ : BufTy).Contents (Elt F)),
    binary main_v89 main_v90 main_v91 (addf : (⟨S4096, .f32⟩ : BufTy).Contents (Elt F) → (⟨S4096, .f32⟩ : BufTy).Contents (Elt F) → (⟨S4096, .f32⟩ : BufTy).Contents (Elt F)),
    nullary main_cst_31 (constant S_ .f32 0x00000000#32),
    TRef.unary (TRef.of (T := ⟨S_, .f32⟩) main_cst_31) (TRef.of (T := ⟨S_, .f32⟩) main_call6_v0) id,
    TRef.unary (TRef.of (T := ⟨S_, .f32⟩) main_call6_v0) (TRef.of (T := ⟨S4096, .f32⟩) main_call6_v1) (broadcastInDim S4096 ![] bcast_S_S4096),
    TRef.binary (TRef.of (T := ⟨S4096, .f32⟩) main_call6_v1) (TRef.of (T := ⟨S4096, .f32⟩) main_v91) (TRef.of (T := ⟨S4096, .f32⟩) main_v92) maximumf,
    nullary main_cst_32 (constant S_ .f32 0x00000000#32),
    binary main_v92 main_cst_32 main_v93 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_33 (constant S_ .f32 0x45800000#32),
    binary main_v93 main_cst_33 main_v94 (Host.divf : (⟨S_, .f32⟩ : BufTy).Contents (Elt F) → (⟨S_, .f32⟩ : BufTy).Contents (Elt F) → (⟨S_, .f32⟩ : BufTy).Contents (Elt F)) ]

/-- The line is its stretches in a row: the two lists have the same 147 entries. -/
theorem ops_eq : (ops : List (HloOp τ sig (Elt F))) = s1 ++ (s2 ++ (s3 ++ (s4a ++ (s4b ++ (s4c ++ (s5 ++ (s6a ++ (s6b ++ (s6c ++ (s7)))))))))) := rfl

/-- So the fold over the line is the stretches' folds one after the other. -/
theorem after_ops (V : Valuation τ sig (Elt F)) :
    after ops V = after s7 (after s6c (after s6b (after s6a (after s5 (after s4c (after s4b (after s4a (after s3 (after s2 (after s1 (V))))))))))) := by
  rw [ops_eq]; simp only [StableHlo.after_append]

/-! ## What a stretch leaves

A stretch writes only its own operations' result buffers; at any other buffer the fold over it is what was there. Stated
for the arguments, which nothing writes, and for the buffers that are read after the stretch. -/

set_option maxHeartbeats 4000000 in
theorem s1_keeps (W : Valuation τ sig (Elt F)) {r : Ref sig .tc}
    (hr : r ∈ ([main_arg0, main_arg1, main_arg2] : List (Ref sig .tc))) :
    after s1 W (r : DevRef τ sig) = W (r : DevRef τ sig) := by
  simp only [List.mem_cons, List.not_mem_nil, or_false] at hr
  rcases hr with rfl | rfl | rfl <;> after_results

set_option maxHeartbeats 4000000 in
theorem s2_keeps (W : Valuation τ sig (Elt F)) {r : Ref sig .tc}
    (hr : r ∈ ([main_arg0, main_arg1, main_arg2, main_v3] : List (Ref sig .tc))) :
    after s2 W (r : DevRef τ sig) = W (r : DevRef τ sig) := by
  simp only [List.mem_cons, List.not_mem_nil, or_false] at hr
  rcases hr with rfl | rfl | rfl | rfl <;> after_results

set_option maxHeartbeats 4000000 in
theorem s3_keeps (W : Valuation τ sig (Elt F)) {r : Ref sig .tc}
    (hr : r ∈ ([main_arg0, main_arg1, main_arg2, main_v3, main_v7] : List (Ref sig .tc))) :
    after s3 W (r : DevRef τ sig) = W (r : DevRef τ sig) := by
  simp only [List.mem_cons, List.not_mem_nil, or_false] at hr
  rcases hr with rfl | rfl | rfl | rfl | rfl <;> after_results

set_option maxHeartbeats 4000000 in
theorem s4a_keeps (W : Valuation τ sig (Elt F)) {r : Ref sig .tc}
    (hr : r ∈ ([main_arg0, main_arg1, main_arg2, main_v3, main_v7, main_v36] : List (Ref sig .tc))) :
    after s4a W (r : DevRef τ sig) = W (r : DevRef τ sig) := by
  simp only [List.mem_cons, List.not_mem_nil, or_false] at hr
  rcases hr with rfl | rfl | rfl | rfl | rfl | rfl <;> after_results

set_option maxHeartbeats 4000000 in
theorem s4b_keeps (W : Valuation τ sig (Elt F)) {r : Ref sig .tc}
    (hr : r ∈ ([main_arg0, main_arg1, main_arg2, main_v3, main_v7, main_v40] : List (Ref sig .tc))) :
    after s4b W (r : DevRef τ sig) = W (r : DevRef τ sig) := by
  simp only [List.mem_cons, List.not_mem_nil, or_false] at hr
  rcases hr with rfl | rfl | rfl | rfl | rfl | rfl <;> after_results

set_option maxHeartbeats 4000000 in
theorem s4c_keeps (W : Valuation τ sig (Elt F)) {r : Ref sig .tc}
    (hr : r ∈ ([main_arg0, main_arg1, main_arg2, main_v3, main_v7] : List (Ref sig .tc))) :
    after s4c W (r : DevRef τ sig) = W (r : DevRef τ sig) := by
  simp only [List.mem_cons, List.not_mem_nil, or_false] at hr
  rcases hr with rfl | rfl | rfl | rfl | rfl <;> after_results

set_option maxHeartbeats 4000000 in
theorem s5_keeps (W : Valuation τ sig (Elt F)) {r : Ref sig .tc}
    (hr : r ∈ ([main_arg0, main_arg1, main_arg2, main_v3, main_v7, main_v45] : List (Ref sig .tc))) :
    after s5 W (r : DevRef τ sig) = W (r : DevRef τ sig) := by
  simp only [List.mem_cons, List.not_mem_nil, or_false] at hr
  rcases hr with rfl | rfl | rfl | rfl | rfl | rfl <;> after_results

set_option maxHeartbeats 4000000 in
theorem s6a_keeps (W : Valuation τ sig (Elt F)) {r : Ref sig .tc}
    (hr : r ∈ ([main_arg0, main_arg1, main_arg2, main_v3, main_v45, main_v74] : List (Ref sig .tc))) :
    after s6a W (r : DevRef τ sig) = W (r : DevRef τ sig) := by
  simp only [List.mem_cons, List.not_mem_nil, or_false] at hr
  rcases hr with rfl | rfl | rfl | rfl | rfl | rfl <;> after_results

set_option maxHeartbeats 4000000 in
theorem s6b_keeps (W : Valuation τ sig (Elt F)) {r : Ref sig .tc}
    (hr : r ∈ ([main_arg0, main_arg1, main_arg2, main_v3, main_v45, main_v78] : List (Ref sig .tc))) :
    after s6b W (r : DevRef τ sig) = W (r : DevRef τ sig) := by
  simp only [List.mem_cons, List.not_mem_nil, or_false] at hr
  rcases hr with rfl | rfl | rfl | rfl | rfl | rfl <;> after_results

set_option maxHeartbeats 4000000 in
theorem s6c_keeps (W : Valuation τ sig (Elt F)) {r : Ref sig .tc}
    (hr : r ∈ ([main_arg0, main_arg1, main_arg2, main_v3, main_v45] : List (Ref sig .tc))) :
    after s6c W (r : DevRef τ sig) = W (r : DevRef τ sig) := by
  simp only [List.mem_cons, List.not_mem_nil, or_false] at hr
  rcases hr with rfl | rfl | rfl | rfl | rfl <;> after_results

set_option maxHeartbeats 4000000 in
theorem s7_keeps (W : Valuation τ sig (Elt F)) {r : Ref sig .tc}
    (hr : r ∈ ([main_arg0, main_arg1, main_arg2] : List (Ref sig .tc))) :
    after s7 W (r : DevRef τ sig) = W (r : DevRef τ sig) := by
  simp only [List.mem_cons, List.not_mem_nil, or_false] at hr
  rcases hr with rfl | rfl | rfl <;> after_results

/-! ## What a stretch computes

The fold over one stretch at a result buffer is the composition of the stretch's operations over the buffers it reads.
Where those hold the arguments, or stages of the arguments, the composition is that buffer's stage: a stage is its
operation applied to its operands' stages, so unfolding the stages of the stretch, and no further, gives the same term.
(A called function's operation writes its value into the buffer through the identification of the value's type with the
buffer's type, and reads its operands through the same identification; at these buffers the two types are the same and
the identification is the identity. In the two stretches that select between a reduction's result and zero, the
identifications are taken off first, while what they are applied to is still a buffer's contents and not yet its stage.) -/

section Computes

variable {x0 x1 x2 : (⟨S4096x1024, .f32⟩ : BufTy).Contents (Elt F)} {W : Valuation τ sig (Elt F)}

set_option maxHeartbeats 4000000 in
theorem s1_v3 (h0 : W (main_arg0 : DevRef τ sig) = x0) (h1 : W (main_arg1 : DevRef τ sig) = x1) :
    after s1 W (main_v3 : DevRef τ sig) = ReadP.val_main_v3 x0 x1 := by
  after_results; rw [h0, h1]; rfl

set_option maxHeartbeats 4000000 in
theorem s2_v7 (h0 : W (main_arg0 : DevRef τ sig) = x0) (h2 : W (main_arg2 : DevRef τ sig) = x2) :
    after s2 W (main_v7 : DevRef τ sig) = ReadP.val_main_v7 x0 x2 := by
  after_results; rw [h0, h2]; rfl

set_option maxHeartbeats 4000000 in
theorem s3_v36 (h0 : W (main_arg0 : DevRef τ sig) = x0) (h2 : W (main_arg2 : DevRef τ sig) = x2) :
    after s3 W (main_v36 : DevRef τ sig) = ReadP.val_main_v36 x0 x2 := by
  after_results; rw [h0, h2]; rfl

set_option maxHeartbeats 4000000 in
theorem s4a_v39 (h3 : W (main_v3 : DevRef τ sig) = ReadP.val_main_v3 x0 x1) (h36 : W (main_v36 : DevRef τ sig) = ReadP.val_main_v36 x0 x2) :
    after s4a W (main_v39 : DevRef τ sig) = ReadP.val_main_v39 x0 x1 x2 := by
  after_results; rw [h3, h36]; rfl

set_option maxHeartbeats 4000000 in
theorem s4a_v40 (h3 : W (main_v3 : DevRef τ sig) = ReadP.val_main_v3 x0 x1) (h36 : W (main_v36 : DevRef τ sig) = ReadP.val_main_v36 x0 x2) :
    after s4a W (main_v40 : DevRef τ sig) = ReadP.val_main_v40 x0 x1 x2 := by
  after_results; rw [h3, h36]; rfl

set_option maxHeartbeats 4000000 in
theorem s4b_v42 (h39 : W (main_v39 : DevRef τ sig) = ReadP.val_main_v39 x0 x1 x2) (h36 : W (main_v36 : DevRef τ sig) = ReadP.val_main_v36 x0 x2) :
    after s4b W (main_v42 : DevRef τ sig) = ReadP.val_main_v42 x0 x1 x2 := by
  after_results; rw [h39, h36]; rfl

set_option maxHeartbeats 4000000 in
theorem s4c_v45 (h40 : W (main_v40 : DevRef τ sig) = ReadP.val_main_v40 x0 x1 x2) (h42 : W (main_v42 : DevRef τ sig) = ReadP.val_main_v42 x0 x1 x2) :
    after s4c W (main_v45 : DevRef τ sig) = ReadP.val_main_v45 x0 x1 x2 := by
  after_results
  simp only [Cert.LibTypedRef.ofBuf_toBuf]
  erw [Cert.LibTypedRefSame.toBuf_same main_v43, Cert.LibTypedRefSame.ofBuf_same main_v40, Cert.LibTypedRefSame.ofBuf_same main_v42,
    Cert.LibTypedRefSame.ofBuf_same main_cst_11]
  rw [h40, h42]; rfl

set_option maxHeartbeats 4000000 in
theorem s5_v74 (h0 : W (main_arg0 : DevRef τ sig) = x0) (h1 : W (main_arg1 : DevRef τ sig) = x1) :
    after s5 W (main_v74 : DevRef τ sig) = ReadP.val_main_v74 x0 x1 := by
  after_results; rw [h0, h1]; rfl

set_option maxHeartbeats 4000000 in
theorem s6a_v77 (h7 : W (main_v7 : DevRef τ sig) = ReadP.val_main_v7 x0 x2) (h74 : W (main_v74 : DevRef τ sig) = ReadP.val_main_v74 x0 x1) :
    after s6a W (main_v77 : DevRef τ sig) = ReadP.val_main_v77 x0 x1 x2 := by
  after_results; rw [h7, h74]; rfl

set_option maxHeartbeats 4000000 in
theorem s6a_v78 (h7 : W (main_v7 : DevRef τ sig) = ReadP.val_main_v7 x0 x2) (h74 : W (main_v74 : DevRef τ sig) = ReadP.val_main_v74 x0 x1) :
    after s6a W (main_v78 : DevRef τ sig) = ReadP.val_main_v78 x0 x1 x2 := by
  after_results; rw [h7, h74]; rfl

set_option maxHeartbeats 4000000 in
theorem s6b_v80 (h77 : W (main_v77 : DevRef τ sig) = ReadP.val_main_v77 x0 x1 x2) (h74 : W (main_v74 : DevRef τ sig) = ReadP.val_main_v74 x0 x1) :
    after s6b W (main_v80 : DevRef τ sig) = ReadP.val_main_v80 x0 x1 x2 := by
  after_results; rw [h77, h74]; rfl

set_option maxHeartbeats 4000000 in
theorem s6c_v83 (h78 : W (main_v78 : DevRef τ sig) = ReadP.val_main_v78 x0 x1 x2) (h80 : W (main_v80 : DevRef τ sig) = ReadP.val_main_v80 x0 x1 x2) :
    after s6c W (main_v83 : DevRef τ sig) = ReadP.val_main_v83 x0 x1 x2 := by
  after_results
  simp only [Cert.LibTypedRef.ofBuf_toBuf]
  erw [Cert.LibTypedRefSame.toBuf_same main_v81, Cert.LibTypedRefSame.ofBuf_same main_v78, Cert.LibTypedRefSame.ofBuf_same main_v80,
    Cert.LibTypedRefSame.ofBuf_same main_cst_25]
  rw [h78, h80]; rfl

set_option maxHeartbeats 4000000 in
theorem s7_v94 (h83 : W (main_v83 : DevRef τ sig) = ReadP.val_main_v83 x0 x1 x2) (h3 : W (main_v3 : DevRef τ sig) = ReadP.val_main_v3 x0 x1) (h45 : W (main_v45 : DevRef τ sig) = ReadP.val_main_v45 x0 x1 x2) :
    after s7 W (main_v94 : DevRef τ sig) = ReadP.val_main_v94 x0 x1 x2 := by
  after_results; rw [h83, h3, h45]; rfl

end Computes

/-! ## The invariant between stretches

`Live… x0 x1 x2 W`: at contents `W`, reached after a stretch, every buffer a later stretch reads holds its stage of the
arguments `x0 x1 x2` (an argument's buffer the argument itself). A buffer is dropped once its last reader is past. -/

section Invariant

variable (x0 x1 x2 : (⟨S4096x1024, .f32⟩ : BufTy).Contents (Elt F)) (W : Valuation τ sig (Elt F))

/-- After the first norm. -/
structure Live1 : Prop where
  arg0 : W (main_arg0 : DevRef τ sig) = x0
  arg1 : W (main_arg1 : DevRef τ sig) = x1
  arg2 : W (main_arg2 : DevRef τ sig) = x2
  v3 : W (main_v3 : DevRef τ sig) = ReadP.val_main_v3 x0 x1

/-- After the second norm. -/
structure Live2 : Prop where
  arg0 : W (main_arg0 : DevRef τ sig) = x0
  arg1 : W (main_arg1 : DevRef τ sig) = x1
  arg2 : W (main_arg2 : DevRef τ sig) = x2
  v3 : W (main_v3 : DevRef τ sig) = ReadP.val_main_v3 x0 x1
  v7 : W (main_v7 : DevRef τ sig) = ReadP.val_main_v7 x0 x2

/-- After the first distance matrix; the third argument is not read again. -/
structure Live3 : Prop where
  arg0 : W (main_arg0 : DevRef τ sig) = x0
  arg1 : W (main_arg1 : DevRef τ sig) = x1
  v3 : W (main_v3 : DevRef τ sig) = ReadP.val_main_v3 x0 x1
  v7 : W (main_v7 : DevRef τ sig) = ReadP.val_main_v7 x0 x2
  v36 : W (main_v36 : DevRef τ sig) = ReadP.val_main_v36 x0 x2

/-- After the first comparison. -/
structure Live4a : Prop where
  arg0 : W (main_arg0 : DevRef τ sig) = x0
  arg1 : W (main_arg1 : DevRef τ sig) = x1
  v3 : W (main_v3 : DevRef τ sig) = ReadP.val_main_v3 x0 x1
  v7 : W (main_v7 : DevRef τ sig) = ReadP.val_main_v7 x0 x2
  v36 : W (main_v36 : DevRef τ sig) = ReadP.val_main_v36 x0 x2
  v39 : W (main_v39 : DevRef τ sig) = ReadP.val_main_v39 x0 x1 x2
  v40 : W (main_v40 : DevRef τ sig) = ReadP.val_main_v40 x0 x1 x2

/-- After the rows' maxima; the first distance matrix and its comparison are not read again. -/
structure Live4b : Prop where
  arg0 : W (main_arg0 : DevRef τ sig) = x0
  arg1 : W (main_arg1 : DevRef τ sig) = x1
  v3 : W (main_v3 : DevRef τ sig) = ReadP.val_main_v3 x0 x1
  v7 : W (main_v7 : DevRef τ sig) = ReadP.val_main_v7 x0 x2
  v40 : W (main_v40 : DevRef τ sig) = ReadP.val_main_v40 x0 x1 x2
  v42 : W (main_v42 : DevRef τ sig) = ReadP.val_main_v42 x0 x1 x2

/-- After the first mean. -/
structure Live4 : Prop where
  arg0 : W (main_arg0 : DevRef τ sig) = x0
  arg1 : W (main_arg1 : DevRef τ sig) = x1
  v3 : W (main_v3 : DevRef τ sig) = ReadP.val_main_v3 x0 x1
  v7 : W (main_v7 : DevRef τ sig) = ReadP.val_main_v7 x0 x2
  v45 : W (main_v45 : DevRef τ sig) = ReadP.val_main_v45 x0 x1 x2

/-- After the second distance matrix; no argument is read again. -/
structure Live5 : Prop where
  v3 : W (main_v3 : DevRef τ sig) = ReadP.val_main_v3 x0 x1
  v7 : W (main_v7 : DevRef τ sig) = ReadP.val_main_v7 x0 x2
  v45 : W (main_v45 : DevRef τ sig) = ReadP.val_main_v45 x0 x1 x2
  v74 : W (main_v74 : DevRef τ sig) = ReadP.val_main_v74 x0 x1

/-- After the second comparison; the second norm is not read again. -/
structure Live6a : Prop where
  v3 : W (main_v3 : DevRef τ sig) = ReadP.val_main_v3 x0 x1
  v45 : W (main_v45 : DevRef τ sig) = ReadP.val_main_v45 x0 x1 x2
  v74 : W (main_v74 : DevRef τ sig) = ReadP.val_main_v74 x0 x1
  v77 : W (main_v77 : DevRef τ sig) = ReadP.val_main_v77 x0 x1 x2
  v78 : W (main_v78 : DevRef τ sig) = ReadP.val_main_v78 x0 x1 x2

/-- After the rows' minima; the second distance matrix and its comparison are not read again. -/
structure Live6b : Prop where
  v3 : W (main_v3 : DevRef τ sig) = ReadP.val_main_v3 x0 x1
  v45 : W (main_v45 : DevRef τ sig) = ReadP.val_main_v45 x0 x1 x2
  v78 : W (main_v78 : DevRef τ sig) = ReadP.val_main_v78 x0 x1 x2
  v80 : W (main_v80 : DevRef τ sig) = ReadP.val_main_v80 x0 x1 x2

/-- After the second mean. -/
structure Live6 : Prop where
  v3 : W (main_v3 : DevRef τ sig) = ReadP.val_main_v3 x0 x1
  v45 : W (main_v45 : DevRef τ sig) = ReadP.val_main_v45 x0 x1 x2
  v83 : W (main_v83 : DevRef τ sig) = ReadP.val_main_v83 x0 x1 x2

end Invariant

/-! ## Each stretch carries the invariant on -/

section Steps

variable {x0 x1 x2 : (⟨S4096x1024, .f32⟩ : BufTy).Contents (Elt F)} {W : Valuation τ sig (Elt F)}

/-- From the launch contents, the arguments being whatever their buffers hold there. -/
theorem live1 (V : Valuation τ sig (Elt F)) :
    Live1 (V (main_arg0 : DevRef τ sig)) (V (main_arg1 : DevRef τ sig)) (V (main_arg2 : DevRef τ sig)) (after s1 V) where
  arg0 := s1_keeps V (by decide)
  arg1 := s1_keeps V (by decide)
  arg2 := s1_keeps V (by decide)
  v3 := s1_v3 rfl rfl

theorem live2 (h : Live1 x0 x1 x2 W) : Live2 x0 x1 x2 (after s2 W) where
  arg0 := (s2_keeps W (by decide)).trans h.arg0
  arg1 := (s2_keeps W (by decide)).trans h.arg1
  arg2 := (s2_keeps W (by decide)).trans h.arg2
  v3 := (s2_keeps W (by decide)).trans h.v3
  v7 := s2_v7 h.arg0 h.arg2

theorem live3 (h : Live2 x0 x1 x2 W) : Live3 x0 x1 x2 (after s3 W) where
  arg0 := (s3_keeps W (by decide)).trans h.arg0
  arg1 := (s3_keeps W (by decide)).trans h.arg1
  v3 := (s3_keeps W (by decide)).trans h.v3
  v7 := (s3_keeps W (by decide)).trans h.v7
  v36 := s3_v36 h.arg0 h.arg2

theorem live4a (h : Live3 x0 x1 x2 W) : Live4a x0 x1 x2 (after s4a W) where
  arg0 := (s4a_keeps W (by decide)).trans h.arg0
  arg1 := (s4a_keeps W (by decide)).trans h.arg1
  v3 := (s4a_keeps W (by decide)).trans h.v3
  v7 := (s4a_keeps W (by decide)).trans h.v7
  v36 := (s4a_keeps W (by decide)).trans h.v36
  v39 := s4a_v39 h.v3 h.v36
  v40 := s4a_v40 h.v3 h.v36

theorem live4b (h : Live4a x0 x1 x2 W) : Live4b x0 x1 x2 (after s4b W) where
  arg0 := (s4b_keeps W (by decide)).trans h.arg0
  arg1 := (s4b_keeps W (by decide)).trans h.arg1
  v3 := (s4b_keeps W (by decide)).trans h.v3
  v7 := (s4b_keeps W (by decide)).trans h.v7
  v40 := (s4b_keeps W (by decide)).trans h.v40
  v42 := s4b_v42 h.v39 h.v36

theorem live4 (h : Live4b x0 x1 x2 W) : Live4 x0 x1 x2 (after s4c W) where
  arg0 := (s4c_keeps W (by decide)).trans h.arg0
  arg1 := (s4c_keeps W (by decide)).trans h.arg1
  v3 := (s4c_keeps W (by decide)).trans h.v3
  v7 := (s4c_keeps W (by decide)).trans h.v7
  v45 := s4c_v45 h.v40 h.v42

theorem live5 (h : Live4 x0 x1 x2 W) : Live5 x0 x1 x2 (after s5 W) where
  v3 := (s5_keeps W (by decide)).trans h.v3
  v7 := (s5_keeps W (by decide)).trans h.v7
  v45 := (s5_keeps W (by decide)).trans h.v45
  v74 := s5_v74 h.arg0 h.arg1

theorem live6a (h : Live5 x0 x1 x2 W) : Live6a x0 x1 x2 (after s6a W) where
  v3 := (s6a_keeps W (by decide)).trans h.v3
  v45 := (s6a_keeps W (by decide)).trans h.v45
  v74 := (s6a_keeps W (by decide)).trans h.v74
  v77 := s6a_v77 h.v7 h.v74
  v78 := s6a_v78 h.v7 h.v74

theorem live6b (h : Live6a x0 x1 x2 W) : Live6b x0 x1 x2 (after s6b W) where
  v3 := (s6b_keeps W (by decide)).trans h.v3
  v45 := (s6b_keeps W (by decide)).trans h.v45
  v78 := (s6b_keeps W (by decide)).trans h.v78
  v80 := s6b_v80 h.v77 h.v74

theorem live6 (h : Live6b x0 x1 x2 W) : Live6 x0 x1 x2 (after s6c W) where
  v3 := (s6c_keeps W (by decide)).trans h.v3
  v45 := (s6c_keeps W (by decide)).trans h.v45
  v83 := s6c_v83 h.v78 h.v80

end Steps

/-! ## The whole line -/

/-- The result buffer after the whole line: its stage of the arguments' contents. -/
theorem after_ops_v94 (V : Valuation τ sig (Elt F)) :
    after ops V (main_v94 : DevRef τ sig)
      = ReadP.val_main_v94 (F := F) (V (main_arg0 : DevRef τ sig)) (V (main_arg1 : DevRef τ sig)) (V (main_arg2 : DevRef τ sig)) := by
  have h := live6 (live6b (live6a (live5 (live4 (live4b (live4a (live3 (live2 (live1 V)))))))))
  rw [after_ops]
  exact s7_v94 h.v83 h.v3 h.v45

/-- No stretch writes an argument's buffer. -/
theorem after_ops_arg {r : Ref sig .tc} (hr : r ∈ ([main_arg0, main_arg1, main_arg2] : List (Ref sig .tc)))
    (V : Valuation τ sig (Elt F)) : after ops V (r : DevRef τ sig) = V (r : DevRef τ sig) := by
  have hr' : ∀ l : List (Ref sig .tc), [main_arg0, main_arg1, main_arg2] ⊆ l → r ∈ l := fun l hl => hl hr
  rw [after_ops, s7_keeps _ hr, s6c_keeps _ (hr' _ (by decide)), s6b_keeps _ (hr' _ (by decide)), s6a_keeps _ (hr' _ (by decide)),
    s5_keeps _ (hr' _ (by decide)), s4c_keeps _ (hr' _ (by decide)), s4b_keeps _ (hr' _ (by decide)), s4a_keeps _ (hr' _ (by decide)),
    s3_keeps _ (hr' _ (by decide)), s2_keeps _ (hr' _ (by decide)), s1_keeps _ hr]

/-- On every device, for any float values, from any memory with zero counters: every weakly fair execution of @main
    terminates with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = ReadP.val_main_v94 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v94).trans (after_ops_v94 (launchContents m c)),
      (h c main_arg0).trans (after_ops_arg (by decide) (launchContents m c)),
      (h c main_arg1).trans (after_ops_arg (by decide) (launchContents m c)),
      (h c main_arg2).trans (after_ops_arg (by decide) (launchContents m c))⟩)
    (run_seq scopedRefs_eq scopedSems_eq defs main (fun _ => ops) main_eq (fun _ => ops_sub) m ρ)

end Cert.ReferenceIdeal.RunH

end
-- ==== Proof.RefValueA.lean ====
/-
  The reference program's four distance buffers, read at an index, at the ideal instance (a float is an extended real
  and every operation is exact).

  For anchors a, positives p, negatives n (each 4096 rows of 1024 entries):
  * the program's norm of a − p + ε along a row (subtract, add the splat ε, square, sum the row from 0, square root)
    is the specification's row distance  sqrt (Σ_k (a(r,k) − p(r,k) + ε)²); likewise for a − n + ε;
  * the program's pairwise distance matrix is built from five row sums — Σ_k x(r,k)², Σ_k y(s,k)², the contraction
    Σ_k x(r,k) · y(s,k) of x with the transpose of y, Σ_k x(r,k), Σ_k y(s,k) — each computed per row, broadcast to a
    column or a row of the 4096 × 4096 matrix, and combined entrywise as
      (Σ x_r² + Σ y_s²) − 2 · Σ x_r y_s + 2ε · (Σ x_r − Σ y_s) + 1024 ε²,
    clamped below at 0 and rooted: the specification's pairwise distance of row r of x to row s of y.
  Every layout operation (a broadcast of a scalar, of a vector to a column or a row, a transpose) reads its operand at
  an index computed from the result's index; at the index (r, s) those computed indices are (r), (s), (r, k), (s, k),
  which is all the index equations below say. A sum's initial value is the word of +0, which reads 0.
-/
import proofs.«110565_j10264971838200_1_alg».proof.Proof.RefRead
import proofs.«110565_j10264971838200_1_alg».proof.Proof.Spec
import Idealize.ShloMosaic.Lib.ValueIdx
import Idealize.ShloMosaic.PureOps.Ideal.Laws

noncomputable section

namespace Cert.RefValue

open Cert.ReferenceIdeal Cert.ReferenceIdeal.ReadP Cert.Spec Idealize.ShloMosaic Idealize.ShloMosaic.ValueIdx

-- A 4096 × 1024 argument array of the program at the ideal instance: a matrix of extended reals.
set_option quotPrecheck false in
local notation "RMat" => (⟨S4096x1024, .f32⟩ : BufTy).Contents (Elt Ideal)

/-! ## The row distances -/

/-- The k-th summand of row r's sum in the first norm is the entry (r, k). -/
theorem idx_call0_v1_ix (r : Fin 4096) (k : Fin 1024) : idx_main_call0_v1 (ix1 r) k = ix2 r k :=
  funext fun a => Fin.ext (by match a with | ⟨0, _⟩ => rfl | ⟨1, _⟩ => rfl)

/-- The same for the second norm. -/
theorem idx_call1_v1_ix (r : Fin 4096) (k : Fin 1024) : idx_main_call1_v1 (ix1 r) k = ix2 r k :=
  funext fun a => Fin.ext (by match a with | ⟨0, _⟩ => rfl | ⟨1, _⟩ => rfl)

/-- The norm of a − p + ε along row r: sqrt (0 + Σ_k (a(r,k) − p(r,k) + ε) · (a(r,k) − p(r,k) + ε)). -/
theorem v3_apply (a p : RMat) (r : Fin 4096) :
    val_main_v3 (F := Ideal) a p (ix1 r) = Spec.rowDist a p r := by
  rw [val_main_v3_apply, val_main_call0_v1_apply, val_main_call0_cst_apply]
  simp only [val_main_call0_v0_apply, val_main_v2_apply, val_main_v0_apply, val_main_v1_apply, val_main_cst_apply,
    idx_call0_v1_ix, Ideal.hostUnary_sqrt_def, Ideal.mulf_def, Ideal.addf_def, Ideal.subf_def, Ideal.ofBits_def,
    Ideal.ofBits_zero_f32, zero_add, Spec.rowDist, Spec.rowDistRow, Spec.row]

/-- The norm of a − n + ε along row r. -/
theorem v7_apply (a n : RMat) (r : Fin 4096) :
    val_main_v7 (F := Ideal) a n (ix1 r) = Spec.rowDist a n r := by
  rw [val_main_v7_apply, val_main_call1_v1_apply, val_main_call1_cst_apply]
  simp only [val_main_call1_v0_apply, val_main_v6_apply, val_main_v4_apply, val_main_v5_apply, val_main_cst_0_apply,
    idx_call1_v1_ix, Ideal.hostUnary_sqrt_def, Ideal.mulf_def, Ideal.addf_def, Ideal.subf_def, Ideal.ofBits_def,
    Ideal.ofBits_zero_f32, zero_add, Spec.rowDist, Spec.rowDistRow, Spec.row]

/-! ## The pairwise distances to the negatives -/

/-- Row r's k-th summand is the entry (r, k): for Σ_k a(r,k)², … -/
theorem idx_v9_ix (r : Fin 4096) (k : Fin 1024) : idx_main_v9 (ix1 r) k = ix2 r k :=
  funext fun a => Fin.ext (by match a with | ⟨0, _⟩ => rfl | ⟨1, _⟩ => rfl)
/-- … for Σ_k n(s,k)², … -/
theorem idx_v12_ix (s : Fin 4096) (k : Fin 1024) : idx_main_v12 (ix1 s) k = ix2 s k :=
  funext fun a => Fin.ext (by match a with | ⟨0, _⟩ => rfl | ⟨1, _⟩ => rfl)
/-- … for Σ_k a(r,k), … -/
theorem idx_v22_ix (r : Fin 4096) (k : Fin 1024) : idx_main_v22 (ix1 r) k = ix2 r k :=
  funext fun a => Fin.ext (by match a with | ⟨0, _⟩ => rfl | ⟨1, _⟩ => rfl)
/-- … and for Σ_k n(s,k). -/
theorem idx_v24_ix (s : Fin 4096) (k : Fin 1024) : idx_main_v24 (ix1 s) k = ix2 s k :=
  funext fun a => Fin.ext (by match a with | ⟨0, _⟩ => rfl | ⟨1, _⟩ => rfl)

/-- A vector broadcast to a column and then along the rows reads, at (r, s), its entry r: for the squares' sums … -/
theorem idx_v10_v14 (r s : Fin 4096) : idx_main_v10 (idx_main_v14 (ix2 r s)) = ix1 r :=
  funext fun a => Fin.ext (by match a with | ⟨0, _⟩ => rfl)
/-- … and for the plain sums. -/
theorem idx_v23_v26 (r s : Fin 4096) : idx_main_v23 (idx_main_v26 (ix2 r s)) = ix1 r :=
  funext fun a => Fin.ext (by match a with | ⟨0, _⟩ => rfl)
/-- A vector broadcast to a row and then along the columns reads, at (r, s), its entry s: for the squares' sums … -/
theorem idx_v13_v15 (r s : Fin 4096) : idx_main_v13 (idx_main_v15 (ix2 r s)) = ix1 s :=
  funext fun a => Fin.ext (by match a with | ⟨0, _⟩ => rfl)
/-- … and for the plain sums. -/
theorem idx_v25_v27 (r s : Fin 4096) : idx_main_v25 (idx_main_v27 (ix2 r s)) = ix1 s :=
  funext fun a => Fin.ext (by match a with | ⟨0, _⟩ => rfl)

/-- The contraction's k-th left factor at (r, s) is the entry (r, k) of the left operand … -/
theorem lidx_v18_ix (r s : Fin 4096) (k : Fin 1024) : lidx_main_v18 (ix2 r s) k = ix2 r k :=
  funext fun a => Fin.ext (by match a with | ⟨0, _⟩ => rfl | ⟨1, _⟩ => rfl)
/-- … and its k-th right factor is the entry (k, s) of the transpose, which is the entry (s, k) of the matrix. -/
theorem ridx_v17_v18_ix (r s : Fin 4096) (k : Fin 1024) : idx_main_v17 (ridx_main_v18 (ix2 r s) k) = ix2 s k :=
  funext fun a => Fin.ext (by match a with | ⟨0, _⟩ => rfl | ⟨1, _⟩ => rfl)

/-- Σ_k a(r,k)², row by row. -/
theorem v9_apply (a : RMat) (r : Fin 4096) :
    val_main_v9 (F := Ideal) a (ix1 r) = ∑ k : Fin 1024, a (ix2 r k) * a (ix2 r k) := by
  rw [val_main_v9_apply, val_main_cst_1_apply]
  simp only [val_main_v8_apply, idx_v9_ix, Ideal.mulf_def, Ideal.ofBits_def, Ideal.ofBits_zero_f32, zero_add]

/-- Σ_k n(s,k)², row by row. -/
theorem v12_apply (n : RMat) (s : Fin 4096) :
    val_main_v12 (F := Ideal) n (ix1 s) = ∑ k : Fin 1024, n (ix2 s k) * n (ix2 s k) := by
  rw [val_main_v12_apply, val_main_cst_2_apply]
  simp only [val_main_v11_apply, idx_v12_ix, Ideal.mulf_def, Ideal.ofBits_def, Ideal.ofBits_zero_f32, zero_add]

/-- Σ_k a(r,k), row by row. -/
theorem v22_apply (a : RMat) (r : Fin 4096) :
    val_main_v22 (F := Ideal) a (ix1 r) = ∑ k : Fin 1024, a (ix2 r k) := by
  rw [val_main_v22_apply, val_main_cst_4_apply]
  simp only [idx_v22_ix, Ideal.ofBits_def, Ideal.ofBits_zero_f32, zero_add]

/-- Σ_k n(s,k), row by row. -/
theorem v24_apply (n : RMat) (s : Fin 4096) :
    val_main_v24 (F := Ideal) n (ix1 s) = ∑ k : Fin 1024, n (ix2 s k) := by
  rw [val_main_v24_apply, val_main_cst_5_apply]
  simp only [idx_v24_ix, Ideal.ofBits_def, Ideal.ofBits_zero_f32, zero_add]

/-- The first of the five sums at (r, s): Σ_k a(r,k)². -/
theorem v14_apply (a : RMat) (r s : Fin 4096) :
    val_main_v14 (F := Ideal) a (ix2 r s) = ∑ k : Fin 1024, a (ix2 r k) * a (ix2 r k) := by
  rw [val_main_v14_apply, val_main_v10_apply, idx_v10_v14, v9_apply]

/-- The second: Σ_k n(s,k)². -/
theorem v15_apply (n : RMat) (r s : Fin 4096) :
    val_main_v15 (F := Ideal) n (ix2 r s) = ∑ k : Fin 1024, n (ix2 s k) * n (ix2 s k) := by
  rw [val_main_v15_apply, val_main_v13_apply, idx_v13_v15, v12_apply]

/-- The third, the contraction of a with the transpose of n: Σ_k a(r,k) · n(s,k). -/
theorem v18_apply (a n : RMat) (r s : Fin 4096) :
    val_main_v18 (F := Ideal) a n (ix2 r s) = ∑ k : Fin 1024, a (ix2 r k) * n (ix2 s k) := by
  rw [val_main_v18_apply]
  simp only [val_main_v17_apply, lidx_v18_ix, ridx_v17_v18_ix]

/-- The fourth: Σ_k a(r,k). -/
theorem v26_apply (a : RMat) (r s : Fin 4096) :
    val_main_v26 (F := Ideal) a (ix2 r s) = ∑ k : Fin 1024, a (ix2 r k) := by
  rw [val_main_v26_apply, val_main_v23_apply, idx_v23_v26, v22_apply]

/-- The fifth: Σ_k n(s,k). -/
theorem v27_apply (n : RMat) (r s : Fin 4096) :
    val_main_v27 (F := Ideal) n (ix2 r s) = ∑ k : Fin 1024, n (ix2 s k) := by
  rw [val_main_v27_apply, val_main_v25_apply, idx_v25_v27, v24_apply]

/-- The expansion at (r, s): (Σ a_r² + Σ n_s²) − 2 · Σ a_r n_s + 2ε · (Σ a_r − Σ n_s) + 1024 ε², the splat constants
    read as their words. -/
theorem v33_apply (a n : RMat) (r s : Fin 4096) :
    val_main_v33 (F := Ideal) a n (ix2 r s) = Spec.sqDist a n r s := by
  rw [val_main_v33_apply, val_main_v31_apply, val_main_v21_apply, val_main_v16_apply, val_main_v20_apply,
    val_main_v30_apply, val_main_v28_apply, val_main_v19_apply, val_main_v29_apply, val_main_v32_apply,
    val_main_cst_3_apply, val_main_cst_6_apply, val_main_cst_7_apply,
    v14_apply, v15_apply, v18_apply, v26_apply, v27_apply]
  simp only [Ideal.mulf_def, Ideal.addf_def, Ideal.subf_def, Ideal.ofBits_def, Spec.sqDist, Spec.sqRow, Spec.row]

/-- The clamp at 0 and the square root: the pairwise distance of row r of a to row s of n. -/
theorem v36_apply (a n : RMat) (r s : Fin 4096) :
    val_main_v36 (F := Ideal) a n (ix2 r s) = Spec.dist a n r s := by
  rw [val_main_v36_apply, val_main_v35_apply, val_main_v34_apply, val_main_cst_8_apply, v33_apply]
  simp only [Ideal.hostUnary_sqrt_def, Ideal.maximumf_def, Ideal.ofBits_def, Ideal.ofBits_zero_f32, Spec.dist,
    Spec.distRow, Spec.sqDist]

/-! ## The pairwise distances to the positives

The same computation on the anchors and the positives. -/

/-- Row r's k-th summand is the entry (r, k): for Σ_k a(r,k)², … -/
theorem idx_v47_ix (r : Fin 4096) (k : Fin 1024) : idx_main_v47 (ix1 r) k = ix2 r k :=
  funext fun a => Fin.ext (by match a with | ⟨0, _⟩ => rfl | ⟨1, _⟩ => rfl)
/-- … for Σ_k p(s,k)², … -/
theorem idx_v50_ix (s : Fin 4096) (k : Fin 1024) : idx_main_v50 (ix1 s) k = ix2 s k :=
  funext fun a => Fin.ext (by match a with | ⟨0, _⟩ => rfl | ⟨1, _⟩ => rfl)
/-- … for Σ_k a(r,k), … -/
theorem idx_v60_ix (r : Fin 4096) (k : Fin 1024) : idx_main_v60 (ix1 r) k = ix2 r k :=
  funext fun a => Fin.ext (by match a with | ⟨0, _⟩ => rfl | ⟨1, _⟩ => rfl)
/-- … and for Σ_k p(s,k). -/
theorem idx_v62_ix (s : Fin 4096) (k : Fin 1024) : idx_main_v62 (ix1 s) k = ix2 s k :=
  funext fun a => Fin.ext (by match a with | ⟨0, _⟩ => rfl | ⟨1, _⟩ => rfl)

/-- A vector broadcast to a column and then along the rows reads, at (r, s), its entry r: for the squares' sums … -/
theorem idx_v48_v52 (r s : Fin 4096) : idx_main_v48 (idx_main_v52 (ix2 r s)) = ix1 r :=
  funext fun a => Fin.ext (by match a with | ⟨0, _⟩ => rfl)
/-- … and for the plain sums. -/
theorem idx_v61_v64 (r s : Fin 4096) : idx_main_v61 (idx_main_v64 (ix2 r s)) = ix1 r :=
  funext fun a => Fin.ext (by match a with | ⟨0, _⟩ => rfl)
/-- A vector broadcast to a row and then along the columns reads, at (r, s), its entry s: for the squares' sums … -/
theorem idx_v51_v53 (r s : Fin 4096) : idx_main_v51 (idx_main_v53 (ix2 r s)) = ix1 s :=
  funext fun a => Fin.ext (by match a with | ⟨0, _⟩ => rfl)
/-- … and for the plain sums. -/
theorem idx_v63_v65 (r s : Fin 4096) : idx_main_v63 (idx_main_v65 (ix2 r s)) = ix1 s :=
  funext fun a => Fin.ext (by match a with | ⟨0, _⟩ => rfl)

/-- The contraction's k-th left factor at (r, s) is the entry (r, k) of the left operand … -/
theorem lidx_v56_ix (r s : Fin 4096) (k : Fin 1024) : lidx_main_v56 (ix2 r s) k = ix2 r k :=
  funext fun a => Fin.ext (by match a with | ⟨0, _⟩ => rfl | ⟨1, _⟩ => rfl)
/-- … and its k-th right factor is the entry (k, s) of the transpose, which is the entry (s, k) of the matrix. -/
theorem ridx_v55_v56_ix (r s : Fin 4096) (k : Fin 1024) : idx_main_v55 (ridx_main_v56 (ix2 r s) k) = ix2 s k :=
  funext fun a => Fin.ext (by match a with | ⟨0, _⟩ => rfl | ⟨1, _⟩ => rfl)

/-- Σ_k a(r,k)², row by row. -/
theorem v47_apply (a : RMat) (r : Fin 4096) :
    val_main_v47 (F := Ideal) a (ix1 r) = ∑ k : Fin 1024, a (ix2 r k) * a (ix2 r k) := by
  rw [val_main_v47_apply, val_main_cst_14_apply]
  simp only [val_main_v46_apply, idx_v47_ix, Ideal.mulf_def, Ideal.ofBits_def, Ideal.ofBits_zero_f32, zero_add]

/-- Σ_k p(s,k)², row by row. -/
theorem v50_apply (p : RMat) (s : Fin 4096) :
    val_main_v50 (F := Ideal) p (ix1 s) = ∑ k : Fin 1024, p (ix2 s k) * p (ix2 s k) := by
  rw [val_main_v50_apply, val_main_cst_15_apply]
  simp only [val_main_v49_apply, idx_v50_ix, Ideal.mulf_def, Ideal.ofBits_def, Ideal.ofBits_zero_f32, zero_add]

/-- Σ_k a(r,k), row by row. -/
theorem v60_apply (a : RMat) (r : Fin 4096) :
    val_main_v60 (F := Ideal) a (ix1 r) = ∑ k : Fin 1024, a (ix2 r k) := by
  rw [val_main_v60_apply, val_main_cst_17_apply]
  simp only [idx_v60_ix, Ideal.ofBits_def, Ideal.ofBits_zero_f32, zero_add]

/-- Σ_k p(s,k), row by row. -/
theorem v62_apply (p : RMat) (s : Fin 4096) :
    val_main_v62 (F := Ideal) p (ix1 s) = ∑ k : Fin 1024, p (ix2 s k) := by
  rw [val_main_v62_apply, val_main_cst_18_apply]
  simp only [idx_v62_ix, Ideal.ofBits_def, Ideal.ofBits_zero_f32, zero_add]

/-- The first of the five sums at (r, s): Σ_k a(r,k)². -/
theorem v52_apply (a : RMat) (r s : Fin 4096) :
    val_main_v52 (F := Ideal) a (ix2 r s) = ∑ k : Fin 1024, a (ix2 r k) * a (ix2 r k) := by
  rw [val_main_v52_apply, val_main_v48_apply, idx_v48_v52, v47_apply]

/-- The second: Σ_k p(s,k)². -/
theorem v53_apply (p : RMat) (r s : Fin 4096) :
    val_main_v53 (F := Ideal) p (ix2 r s) = ∑ k : Fin 1024, p (ix2 s k) * p (ix2 s k) := by
  rw [val_main_v53_apply, val_main_v51_apply, idx_v51_v53, v50_apply]

/-- The third, the contraction of a with the transpose of p: Σ_k a(r,k) · p(s,k). -/
theorem v56_apply (a p : RMat) (r s : Fin 4096) :
    val_main_v56 (F := Ideal) a p (ix2 r s) = ∑ k : Fin 1024, a (ix2 r k) * p (ix2 s k) := by
  rw [val_main_v56_apply]
  simp only [val_main_v55_apply, lidx_v56_ix, ridx_v55_v56_ix]

/-- The fourth: Σ_k a(r,k). -/
theorem v64_apply (a : RMat) (r s : Fin 4096) :
    val_main_v64 (F := Ideal) a (ix2 r s) = ∑ k : Fin 1024, a (ix2 r k) := by
  rw [val_main_v64_apply, val_main_v61_apply, idx_v61_v64, v60_apply]

/-- The fifth: Σ_k p(s,k). -/
theorem v65_apply (p : RMat) (r s : Fin 4096) :
    val_main_v65 (F := Ideal) p (ix2 r s) = ∑ k : Fin 1024, p (ix2 s k) := by
  rw [val_main_v65_apply, val_main_v63_apply, idx_v63_v65, v62_apply]

/-- The expansion at (r, s): (Σ a_r² + Σ p_s²) − 2 · Σ a_r p_s + 2ε · (Σ a_r − Σ p_s) + 1024 ε², the splat constants
    read as their words. -/
theorem v71_apply (a p : RMat) (r s : Fin 4096) :
    val_main_v71 (F := Ideal) a p (ix2 r s) = Spec.sqDist a p r s := by
  rw [val_main_v71_apply, val_main_v69_apply, val_main_v59_apply, val_main_v54_apply, val_main_v58_apply,
    val_main_v68_apply, val_main_v66_apply, val_main_v57_apply, val_main_v67_apply, val_main_v70_apply,
    val_main_cst_16_apply, val_main_cst_19_apply, val_main_cst_20_apply,
    v52_apply, v53_apply, v56_apply, v64_apply, v65_apply]
  simp only [Ideal.mulf_def, Ideal.addf_def, Ideal.subf_def, Ideal.ofBits_def, Spec.sqDist, Spec.sqRow, Spec.row]

/-- The clamp at 0 and the square root: the pairwise distance of row r of a to row s of p. -/
theorem v74_apply (a p : RMat) (r s : Fin 4096) :
    val_main_v74 (F := Ideal) a p (ix2 r s) = Spec.dist a p r s := by
  rw [val_main_v74_apply, val_main_v73_apply, val_main_v72_apply, val_main_cst_21_apply, v71_apply]
  simp only [Ideal.hostUnary_sqrt_def, Ideal.maximumf_def, Ideal.ofBits_def, Ideal.ofBits_zero_f32, Spec.dist,
    Spec.distRow, Spec.sqDist]

end Cert.RefValue

end
-- ==== Proof.SpecFacts.lean ====
/-
  Facts about the specification's distances, on the extended reals.

  * The square root used here sends a nonnegative extended real to a nonnegative one (√ of a nonnegative real, and
    ⊤ to ⊤); the pairwise distance is the square root of a quantity clamped below at 0, so it is ≥ 0 and in
    particular never ⊥, whatever the matrices hold.  A row distance is the square root of a sum of squares a·a,
    and a·a ≥ 0 for every extended real (⊥·⊥ = ⊤·⊤ = ⊤), so it too is ≥ 0.
  * A family of extended reals is REAL when no entry is ⊤ or ⊥, that is when it is the coercion of a family of real
    numbers.  The four literals ε, 2, 2ε, 1024ε² are finite f32 words, hence real.  Sums, products, differences
    and maxima of coerced reals are coerced reals, so for real rows the radicands are coerced nonnegative reals and
    the distances are coerced reals: neither ⊤ nor ⊥.
  * Therefore "the masked maximum is still ⊥" says exactly "no candidate lies below the threshold", with no
    hypothesis; and for real matrices "the masked minimum is still ⊤" says exactly "no candidate lies above the
    threshold" (a distance equal to ⊤ would pass the test and still leave the minimum at ⊤, which is why the
    matrices must be real there).
-/
import proofs.«110565_j10264971838200_1_alg».proof.Proof.Spec
import proofs.«110565_j10264971838200_1_alg».proof.Proof.MathFold
import Idealize.ShloMosaic.PureOps.Ideal
import Mathlib.Data.EReal.Operations

noncomputable section

namespace Cert.SpecFacts

open Idealize.ShloMosaic Idealize.ShloMosaic.ValueIdx Cert.Spec

/-! ### The square root -/

/-- The square root of a nonnegative extended real is nonnegative: √r ≥ 0 for a real r ≥ 0, and ⊤ goes to ⊤. -/
theorem sqrt_nonneg {a : EReal} (h : 0 ≤ a) : 0 ≤ Ideal.sqrt a := by
  induction a using EReal.rec with
  | bot => exact absurd h (by simp)
  | coe r =>
    have hr : 0 ≤ r := EReal.coe_nonneg.mp h
    rw [Ideal.sqrt_coe, if_neg (not_lt.mpr hr)]
    exact EReal.coe_nonneg.mpr (Real.sqrt_nonneg r)
  | top => exact le_top

/-- On a nonnegative real the square root is the real square root. -/
theorem sqrt_coe_nonneg {r : ℝ} (hr : 0 ≤ r) : Ideal.sqrt (r : EReal) = ((Real.sqrt r : ℝ) : EReal) := by
  rw [Ideal.sqrt_coe, if_neg (not_lt.mpr hr)]

/-! ### Coercion of reals through sums and maxima -/

/-- A finite sum of coerced reals is the coerced sum (induction on the index set; coercion is additive). -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- The maximum of two coerced reals is the coerced maximum (coercion is monotone). -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- Every extended real has a nonnegative square: r·r ≥ 0 for a real r, and ⊥·⊥ = ⊤·⊤ = ⊤. -/
theorem mul_self_nonneg (a : EReal) : 0 ≤ a * a := by
  induction a using EReal.rec with
  | bot => rw [EReal.bot_mul_bot]; exact le_top
  | coe r => rw [← EReal.coe_mul]; exact EReal.coe_nonneg.mpr (_root_.mul_self_nonneg r)
  | top => rw [EReal.top_mul_top]; exact le_top

/-! ### Real families -/

/-- A family of extended reals is real when no entry is ⊤ or ⊥. -/
def IsReal {ι : Type*} (x : ι → EReal) : Prop := ∀ i, x i ≠ ⊤ ∧ x i ≠ ⊥

/-- Real, entry by entry: each entry is the coercion of a real number (an extended real other than ±∞ is real). -/
theorem isReal_iff_forall_exists {ι : Type*} (x : ι → EReal) :
    IsReal x ↔ ∀ i, ∃ r : ℝ, x i = (r : EReal) := by
  constructor
  · intro h i
    exact ⟨(x i).toReal, (EReal.coe_toReal (h i).1 (h i).2).symm⟩
  · intro h i
    obtain ⟨r, hr⟩ := h i
    rw [hr]
    exact ⟨EReal.coe_ne_top r, EReal.coe_ne_bot r⟩

/-- Real, as a whole: the family is the coercion of a family of real numbers. -/
theorem isReal_iff_exists_coe {ι : Type*} (x : ι → EReal) :
    IsReal x ↔ ∃ x' : ι → ℝ, x = fun i => (x' i : EReal) := by
  constructor
  · intro h
    exact ⟨fun i => (x i).toReal, funext fun i => (EReal.coe_toReal (h i).1 (h i).2).symm⟩
  · rintro ⟨x', rfl⟩ i
    exact ⟨EReal.coe_ne_top _, EReal.coe_ne_bot _⟩

/-- A coerced family of reals is real. -/
theorem isReal_coe {ι : Type*} (x' : ι → ℝ) : IsReal (fun i => (x' i : EReal)) :=
  fun _ => ⟨EReal.coe_ne_top _, EReal.coe_ne_bot _⟩

/-- Each row of a real matrix is real. -/
theorem IsReal.row {x : Mat} (h : IsReal x) (r : Fin 4096) : IsReal (row x r) := fun k => h (ix2 r k)

/-! ### The literals are real -/

/-- A binary floating-point word whose exponent field is not all ones denotes a real number (only the all-ones
    exponent spells an infinity or a junk value). -/
theorem ieee_real {e m w : ℕ} (b : BitVec w) (h : (b.extractLsb' m e).toNat ≠ 2 ^ e - 1) :
    ∃ v : ℝ, Ideal.ieee e m b = (v : EReal) := by
  unfold Ideal.ieee
  simp only []
  rw [if_neg h]
  split_ifs <;> exact ⟨_, rfl⟩

theorem eps_real : ∃ v : ℝ, eps = (v : EReal) :=
  ieee_real (e := 8) (m := 23) (0x358637BD#32 : BitVec 32) (by decide)
theorem two_real : ∃ v : ℝ, two = (v : EReal) :=
  ieee_real (e := 8) (m := 23) (0x40000000#32 : BitVec 32) (by decide)
theorem twoEps_real : ∃ v : ℝ, twoEps = (v : EReal) :=
  ieee_real (e := 8) (m := 23) (0x360637BD#32 : BitVec 32) (by decide)
theorem dEps2_real : ∃ v : ℝ, dEps2 = (v : EReal) :=
  ieee_real (e := 8) (m := 23) (0x308CBCCC#32 : BitVec 32) (by decide)

/-- The real numbers the four literals denote. -/
def epsR : ℝ := eps.toReal
def twoR : ℝ := two.toReal
def twoEpsR : ℝ := twoEps.toReal
def dEps2R : ℝ := dEps2.toReal

theorem eps_eq : eps = (epsR : EReal) := by
  obtain ⟨v, hv⟩ := eps_real
  rw [epsR, hv, EReal.toReal_coe]
theorem two_eq : two = (twoR : EReal) := by
  obtain ⟨v, hv⟩ := two_real
  rw [twoR, hv, EReal.toReal_coe]
theorem twoEps_eq : twoEps = (twoEpsR : EReal) := by
  obtain ⟨v, hv⟩ := twoEps_real
  rw [twoEpsR, hv, EReal.toReal_coe]
theorem dEps2_eq : dEps2 = (dEps2R : EReal) := by
  obtain ⟨v, hv⟩ := dEps2_real
  rw [dEps2R, hv, EReal.toReal_coe]

/-! ### The distances of real rows are real -/

/-- The expansion of the squared shifted distance, for rows of real numbers. -/
def sqRowR (u v : Fin 1024 → ℝ) : ℝ :=
  (∑ k : Fin 1024, u k * u k) + (∑ k : Fin 1024, v k * v k) - twoR * (∑ k : Fin 1024, u k * v k)
    + twoEpsR * ((∑ k : Fin 1024, u k) - (∑ k : Fin 1024, v k)) + dEps2R

/-- For rows of real numbers the shifted row distance is the real √(Σ (u − v + ε)²): every operation stays among
    the reals and the radicand, a sum of squares, is ≥ 0. -/
theorem rowDistRow_coe (u v : Fin 1024 → ℝ) :
    rowDistRow (fun k => (u k : EReal)) (fun k => (v k : EReal))
      = ((Real.sqrt (∑ k : Fin 1024, (u k - v k + epsR) * (u k - v k + epsR)) : ℝ) : EReal) := by
  have h : ∀ k : Fin 1024,
      ((u k : EReal) - (v k : EReal) + (epsR : EReal)) * ((u k : EReal) - (v k : EReal) + (epsR : EReal))
        = (((u k - v k + epsR) * (u k - v k + epsR) : ℝ) : EReal) := by
    intro k
    rw [EReal.coe_mul, EReal.coe_add, EReal.coe_sub]
  simp only [rowDistRow]
  rw [eps_eq, Finset.sum_congr rfl (fun k _ => h k), coe_sum,
    sqrt_coe_nonneg (Finset.sum_nonneg fun k _ => _root_.mul_self_nonneg _)]

/-- For rows of real numbers the expansion of the square is the same expression among the reals. -/
theorem sqRow_coe (u v : Fin 1024 → ℝ) :
    sqRow (fun k => (u k : EReal)) (fun k => (v k : EReal)) = ((sqRowR u v : ℝ) : EReal) := by
  simp only [sqRow, sqRowR, two_eq, twoEps_eq, dEps2_eq, ← EReal.coe_mul, coe_sum, ← EReal.coe_sub,
    ← EReal.coe_add]

/-- For rows of real numbers the pairwise distance is the real √(max (expansion) 0). -/
theorem distRow_coe (u v : Fin 1024 → ℝ) :
    distRow (fun k => (u k : EReal)) (fun k => (v k : EReal))
      = ((Real.sqrt (max (sqRowR u v) 0) : ℝ) : EReal) := by
  unfold distRow
  rw [sqRow_coe, ← EReal.coe_zero, coe_max, sqrt_coe_nonneg (le_max_right _ _)]

theorem rowDistRow_ne_top {u v : Fin 1024 → EReal} (hu : IsReal u) (hv : IsReal v) : rowDistRow u v ≠ ⊤ := by
  obtain ⟨u', rfl⟩ := (isReal_iff_exists_coe u).mp hu
  obtain ⟨v', rfl⟩ := (isReal_iff_exists_coe v).mp hv
  rw [rowDistRow_coe]
  exact EReal.coe_ne_top _

theorem rowDistRow_ne_bot_of_real {u v : Fin 1024 → EReal} (hu : IsReal u) (hv : IsReal v) :
    rowDistRow u v ≠ ⊥ := by
  obtain ⟨u', rfl⟩ := (isReal_iff_exists_coe u).mp hu
  obtain ⟨v', rfl⟩ := (isReal_iff_exists_coe v).mp hv
  rw [rowDistRow_coe]
  exact EReal.coe_ne_bot _

theorem distRow_ne_top {u v : Fin 1024 → EReal} (hu : IsReal u) (hv : IsReal v) : distRow u v ≠ ⊤ := by
  obtain ⟨u', rfl⟩ := (isReal_iff_exists_coe u).mp hu
  obtain ⟨v', rfl⟩ := (isReal_iff_exists_coe v).mp hv
  rw [distRow_coe]
  exact EReal.coe_ne_top _

/-! ### Signs, with no hypothesis -/

/-- The pairwise distance of two rows is ≥ 0: a square root of a quantity clamped below at 0. -/
theorem distRow_nonneg (u v : Fin 1024 → EReal) : 0 ≤ distRow u v := sqrt_nonneg (le_max_right _ _)

/-- The shifted row distance is ≥ 0: a square root of a sum of squares. -/
theorem rowDistRow_nonneg (u v : Fin 1024 → EReal) : 0 ≤ rowDistRow u v :=
  sqrt_nonneg (Finset.sum_nonneg fun _ _ => mul_self_nonneg _)

/-- A nonnegative extended real is not ⊥. -/
theorem ne_bot_of_nonneg {a : EReal} (h : 0 ≤ a) : a ≠ ⊥ := (lt_of_lt_of_le EReal.bot_lt_zero h).ne'

/-! ### The same for matrices -/

theorem dist_nonneg (x y : Mat) (r s : Fin 4096) : 0 ≤ dist x y r s := distRow_nonneg _ _

theorem dist_ne_bot (x y : Mat) (r s : Fin 4096) : dist x y r s ≠ ⊥ := ne_bot_of_nonneg (dist_nonneg x y r s)

theorem rowDist_nonneg (x y : Mat) (r : Fin 4096) : 0 ≤ rowDist x y r := rowDistRow_nonneg _ _

/-- The row distance is never ⊥ (it is ≥ 0), real matrices or not. -/
theorem rowDist_ne_bot (x y : Mat) (r : Fin 4096) : rowDist x y r ≠ ⊥ := ne_bot_of_nonneg (rowDist_nonneg x y r)

theorem dist_ne_top {x y : Mat} (hx : IsReal x) (hy : IsReal y) (r s : Fin 4096) : dist x y r s ≠ ⊤ :=
  distRow_ne_top (hx.row r) (hy.row s)

theorem rowDist_ne_top {x y : Mat} (hx : IsReal x) (hy : IsReal y) (r : Fin 4096) : rowDist x y r ≠ ⊤ :=
  rowDistRow_ne_top (hx.row r) (hy.row r)

/-- For real matrices the pairwise distance is a real number. -/
theorem dist_real {x y : Mat} (hx : IsReal x) (hy : IsReal y) (r s : Fin 4096) :
    ∃ v : ℝ, dist x y r s = (v : EReal) :=
  ⟨(dist x y r s).toReal, (EReal.coe_toReal (dist_ne_top hx hy r s) (dist_ne_bot x y r s)).symm⟩

/-- For real matrices the row distance is a real number. -/
theorem rowDist_real {x y : Mat} (hx : IsReal x) (hy : IsReal y) (r : Fin 4096) :
    ∃ v : ℝ, rowDist x y r = (v : EReal) :=
  ⟨(rowDist x y r).toReal, (EReal.coe_toReal (rowDist_ne_top hx hy r) (rowDist_ne_bot x y r)).symm⟩

/-! ### "Still at the neutral element" is "no candidate" -/

/-- The masked maximum of row r is still ⊥ exactly when no distance lies below the threshold (a distance is never
    ⊥, so one passing candidate lifts the maximum off ⊥). -/
theorem foldMax_maskedBelowT_eq_bot_iff (x y : Mat) (d : Fin 4096 → EReal) (r : Fin 4096) :
    (Finset.univ : Finset (Fin 4096)).fold max ⊥ (maskedBelowT x y d r) = ⊥ ↔ ¬ ∃ s, dist x y r s < d r :=
  Cert.MathFold.foldMax_mask_eq_bot_iff (fun s => dist x y r s < d r) (fun s => dist x y r s)
    (fun s _ => dist_ne_bot x y r s)

/-- The hardest negative: the masked maximum if some distance lies below the threshold, else 0. -/
theorem hardNegT_eq_any (x y : Mat) (d : Fin 4096 → EReal) (r : Fin 4096)
    [Decidable (∃ s, dist x y r s < d r)] :
    hardNegT x y d r
      = if (∃ s, dist x y r s < d r) then (Finset.univ : Finset (Fin 4096)).fold max ⊥ (maskedBelowT x y d r)
        else 0 := by
  have hiff := foldMax_maskedBelowT_eq_bot_iff x y d r
  unfold hardNegT
  by_cases h : ∃ s, dist x y r s < d r
  · rw [if_pos h, if_neg (fun hb => hiff.mp hb h)]
  · rw [if_neg h, if_pos (hiff.mpr h)]

/-- The masked minimum of row r is still ⊤ exactly when no distance lies above the threshold, as soon as the
    distances of row r that lie above it are not ⊤. -/
theorem foldMin_maskedAboveT_eq_top_iff_of (x y : Mat) (d : Fin 4096 → EReal) (r : Fin 4096)
    (hd : ∀ s, d r < dist x y r s → dist x y r s ≠ ⊤) :
    (Finset.univ : Finset (Fin 4096)).fold min ⊤ (maskedAboveT x y d r) = ⊤ ↔ ¬ ∃ s, d r < dist x y r s :=
  Cert.MathFold.foldMin_mask_eq_top_iff (fun s => d r < dist x y r s) (fun s => dist x y r s) hd

/-- The hardest positive, for distances that are not ⊤ where they pass: the masked minimum if some distance lies
    above the threshold, else 0. -/
theorem hardPosT_eq_any_of (x y : Mat) (d : Fin 4096 → EReal) (r : Fin 4096)
    (hd : ∀ s, d r < dist x y r s → dist x y r s ≠ ⊤) [Decidable (∃ s, d r < dist x y r s)] :
    hardPosT x y d r
      = if (∃ s, d r < dist x y r s) then (Finset.univ : Finset (Fin 4096)).fold min ⊤ (maskedAboveT x y d r)
        else 0 := by
  have hiff := foldMin_maskedAboveT_eq_top_iff_of x y d r hd
  unfold hardPosT
  by_cases h : ∃ s, d r < dist x y r s
  · rw [if_pos h, if_neg (fun hb => hiff.mp hb h)]
  · rw [if_neg h, if_pos (hiff.mpr h)]

/-- The hardest positive for real matrices (their distances are real, so never ⊤). -/
theorem hardPosT_eq_any {x y : Mat} (hx : IsReal x) (hy : IsReal y) (d : Fin 4096 → EReal) (r : Fin 4096)
    [Decidable (∃ s, d r < dist x y r s)] :
    hardPosT x y d r
      = if (∃ s, d r < dist x y r s) then (Finset.univ : Finset (Fin 4096)).fold min ⊤ (maskedAboveT x y d r)
        else 0 :=
  hardPosT_eq_any_of x y d r (fun s _ => dist_ne_top hx hy r s)

end Cert.SpecFacts

end
-- ==== Proof.RefValueB.lean ====
/-
  The reference program's mining stages and its tail, read as the specification's functions.

  For anchors a, positives p, negatives n (real matrices where that matters):
  * the hardest negative of anchor r. The program forms the mask m(r,s) = [dist(a,n)(r,s) < d(a,p)(r)], the masked
    distances w(r,s) = dist(a,n)(r,s) where m(r,s) is set and −∞ elsewhere, the row-wise or of m, the row-wise maximum
    of w from −∞, and selects the maximum where the or is set and 0 elsewhere. A reduction along a row by a commutative
    associative operation is the fold of that operation over the 4096 entries of the row; the or of bits from the clear
    bit is set exactly when some bit is; so the result at r is "the masked maximum if some s passes, else 0", which is
    the specification's hardest negative (there "no candidate" is spelt "the maximum is still −∞"; the two agree
    because a distance is never −∞);
  * the hardest positive of anchor r, the mirror image: mask [dist(a,p)(r,s) > d(a,n)(r)], +∞ outside the mask, the
    row-wise minimum from +∞. Here the agreement of "no s passes" with "the minimum is still +∞" needs the passing
    distances to be finite, which they are for real a and p;
  * the tail: the two means (a sum of 4096 terms from the zero word, divided by the word of 4096), the clipped term
    max(0, d(a,p)(r) − ½·mean(hardest positives) − ½·mean(hardest negatives) + 1) of each anchor, and the mean of those:
    the loss.
-/
import proofs.«110565_j10264971838200_1_alg».proof.Proof.RefValueA
import proofs.«110565_j10264971838200_1_alg».proof.Proof.SpecFacts
import Idealize.ShloMosaic.PureOps.Reduce
import Idealize.ShloMosaic.PureOps.Ideal.Laws
import Idealize.ShloMosaic.Lib.ValueIdx
import Idealize.ShloMosaic.Lib.ValueIdxRank1

noncomputable section

namespace Cert.RefValue

open Cert.ReferenceIdeal Cert.ReferenceIdeal.Gen Cert.ReferenceIdeal.ReadP Idealize.ShloMosaic Idealize.ShloMosaic.ValueIdx

/-! ### Bits and their or -/

/-- An or of two bits is set exactly when one of them is. -/
theorem ori_eq_one_iff (x y : BitVec 1) : IntOp.ori x y = 1#1 ↔ x = 1#1 ∨ y = 1#1 := by
  rcases BitVec.eq_zero_or_eq_one x with rfl | rfl <;> rcases BitVec.eq_zero_or_eq_one y with rfl | rfl <;> decide

/-- The or of a finite family of bits, from the clear bit, is set exactly when some member is. -/
theorem foldOr_eq_one_iff {ι : Type} [Fintype ι] (g : ι → BitVec 1) :
    (Finset.univ : Finset ι).fold IntOp.ori 0#1 g = 1#1 ↔ ∃ s, g s = 1#1 := by
  classical
  suffices h : ∀ t : Finset ι, t.fold IntOp.ori 0#1 g = 1#1 ↔ ∃ s ∈ t, g s = 1#1 by
    rw [h]; exact ⟨fun ⟨s, _, hs⟩ => ⟨s, hs⟩, fun ⟨s, hs⟩ => ⟨s, Finset.mem_univ s, hs⟩⟩
  intro t
  induction t using Finset.induction_on with
  | empty => simp
  | insert a t ha ih =>
    rw [Finset.fold_insert ha, ori_eq_one_iff, ih]
    simp only [Finset.mem_insert, exists_eq_or_imp]

/-- The bit of a decided proposition is set exactly when the proposition holds. -/
theorem ofBool_decide_eq_one_iff (P : Prop) [Decidable P] : BitVec.ofBool (decide P) = 1#1 ↔ P := by
  by_cases h : P <;> simp [h]

/-! ### A reduction along the columns of a 4096 × 4096 array, read at row r -/

/-- Dropping the column axis of a 4096 × 4096 shape leaves the 4096 rows. -/
theorem reduces_d1 : S4096x4096.Reduces [1] S4096 := by decide

/-- Row r with column k put back is the place (r, k). -/
theorem lift_d1 (r : Fin 4096) (k : Fin (S4096x4096.size 1)) :
    reduces_d1.lift (ix1 r) k = ix2 r (⟨k.val, k.isLt⟩ : Fin 4096) := by
  funext c; apply Fin.ext
  fin_cases c <;> rfl

/-- A reduction along axis 1 by a commutative associative operation is, at row r, the fold of the operation over the
    4096 entries of row r, from the initial value. -/
theorem reduce_d1_apply {α : Type} (f : α → α → α) [Std.Commutative f] [Std.Associative f]
    (x : S4096x4096.Idx → α) (init : S_.Idx → α) (r : Fin 4096) :
    Host.reduce f x init reducesTo_S4096x4096_S4096_d1 h_S_ (ix1 r)
      = (Finset.univ : Finset (Fin 4096)).fold f (init (Shape.Idx.first h_S_)) (fun s => x (ix2 r s)) := by
  rw [Host.reduce_eq_fold_single f x init reducesTo_S4096x4096_S4096_d1 reduces_d1 h_S_]
  have hf : (x ∘ reduces_d1.lift (ix1 r)) = fun s : Fin 4096 => x (ix2 r s) :=
    funext fun k => congrArg x (lift_d1 r k)
  exact congrArg (fun g => Finset.fold f (init (Shape.Idx.first h_S_)) g (Finset.univ : Finset (Fin 4096))) hf

/-- A select on a bit that is set exactly when P holds is the choice by P. -/
theorem select_eq_ite {α : Type} (c : BitVec 1) (P : Prop) [Decidable P] (h : c = 1#1 ↔ P) (x y : α) :
    Scalar.select c x y = if P then x else y := by
  by_cases hp : P
  · rw [if_pos hp, h.mpr hp]; exact select_one x y
  · rw [if_neg hp, eq_zero_of_ne_one (fun e => hp (h.mp e))]; exact select_zero x y

/-! ### The words of −∞ and +∞ -/

/-- The f32 word FF800000 is −∞. -/
theorem ofBits_negInf : Ideal.ofBits .f32 0xFF800000#32 = (⊥ : EReal) := by simp [Ideal.ofBits, Ideal.ieee]

/-- The f32 word 7F800000 is +∞. -/
theorem ofBits_posInf : Ideal.ofBits .f32 0x7F800000#32 = (⊤ : EReal) := by simp [Ideal.ofBits, Ideal.ieee]

/-! ### The hardest negative -/

variable (a p n : (⟨S4096x1024, .f32⟩ : BufTy).Contents (Elt Ideal))

/-- The threshold broadcast along the row: at (r, s) it is the row distance of a to p at r. -/
theorem v38_apply (r s : Fin 4096) : val_main_v38 (F := Ideal) a p (ix2 r s) = Spec.rowDist a p r := by
  rw [val_main_v38_apply, val_main_v37_apply]
  have hi : idx_main_v37 (idx_main_v38 (ix2 r s)) = ix1 r := by
    funext c; apply Fin.ext; fin_cases c; rfl
  rw [hi, v3_apply]

/-- The mask at (r, s): set exactly when the distance of a_r to n_s lies strictly below the row distance at r. -/
theorem v39_apply (r s : Fin 4096) :
    val_main_v39 (F := Ideal) a p n (ix2 r s) = 1#1 ↔ Spec.dist a n r s < Spec.rowDist a p r := by
  rw [val_main_v39_apply, v36_apply, v38_apply, Ideal.cmpf_def]
  exact ofBool_decide_eq_one_iff _

/-- The masked distance at (r, s): the distance where the mask is set, else −∞. -/
theorem v41_apply (r s : Fin 4096) :
    val_main_v41 (F := Ideal) a p n (ix2 r s) = Spec.maskedBelowT a n (Spec.rowDist a p) r s := by
  rw [val_main_v41_apply, val_main_call2_v1_apply, val_main_call2_v0_apply, val_main_cst_9_apply, Ideal.ofBits_def,
    ofBits_negInf, v36_apply, select_eq_ite _ _ (v39_apply a p n r s)]
  rfl

/-- The or of the mask along row r: set exactly when some s passes. -/
theorem v40_apply (r : Fin 4096) :
    val_main_v40 (F := Ideal) a p n (ix1 r) = 1#1 ↔ ∃ s, Spec.dist a n r s < Spec.rowDist a p r := by
  unfold val_main_v40
  rw [reduce_d1_apply, val_main_c_apply, foldOr_eq_one_iff]
  exact exists_congr fun s => v39_apply a p n r s

/-- The maximum of the masked distances along row r, from −∞. -/
theorem v42_apply (r : Fin 4096) :
    val_main_v42 (F := Ideal) a p n (ix1 r)
      = (Finset.univ : Finset (Fin 4096)).fold max ⊥ (Spec.maskedBelowT a n (Spec.rowDist a p) r) := by
  unfold val_main_v42
  rw [reduce_d1_apply, val_main_cst_10_apply, Ideal.ofBits_def, ofBits_negInf]
  have hf : (fun s => val_main_v41 (F := Ideal) a p n (ix2 r s)) = Spec.maskedBelowT a n (Spec.rowDist a p) r :=
    funext fun s => v41_apply a p n r s
  rw [hf]
  rfl

/-- The hardest negative of anchor r as the reference computes it. -/
theorem v43_apply (r : Fin 4096) : val_main_v43 (F := Ideal) a p n (ix1 r) = Spec.hardNeg a n p r := by
  rw [val_main_v43_apply, val_main_call3_v1_apply, val_main_call3_v0_apply, val_main_cst_11_apply, Ideal.ofBits_def,
    Ideal.ofBits_zero_f32, v42_apply, select_eq_ite _ _ (v40_apply a p n r)]
  unfold Spec.hardNeg
  rw [Cert.SpecFacts.hardNegT_eq_any]

/-! ### The hardest positive -/

/-- The threshold broadcast along the row: at (r, s) it is the row distance of a to n at r. -/
theorem v76_apply (r s : Fin 4096) : val_main_v76 (F := Ideal) a n (ix2 r s) = Spec.rowDist a n r := by
  rw [val_main_v76_apply, val_main_v75_apply]
  have hi : idx_main_v75 (idx_main_v76 (ix2 r s)) = ix1 r := by
    funext c; apply Fin.ext; fin_cases c; rfl
  rw [hi, v7_apply]

/-- The mask at (r, s): set exactly when the distance of a_r to p_s lies strictly above the row distance at r. -/
theorem v77_apply (r s : Fin 4096) :
    val_main_v77 (F := Ideal) a p n (ix2 r s) = 1#1 ↔ Spec.rowDist a n r < Spec.dist a p r s := by
  rw [val_main_v77_apply, v74_apply, v76_apply, Ideal.cmpf_def]
  exact ofBool_decide_eq_one_iff _

/-- The masked distance at (r, s): the distance where the mask is set, else +∞. -/
theorem v79_apply (r s : Fin 4096) :
    val_main_v79 (F := Ideal) a p n (ix2 r s) = Spec.maskedAboveT a p (Spec.rowDist a n) r s := by
  rw [val_main_v79_apply, val_main_call4_v1_apply, val_main_call4_v0_apply, val_main_cst_23_apply, Ideal.ofBits_def,
    ofBits_posInf, v74_apply, select_eq_ite _ _ (v77_apply a p n r s)]
  rfl

/-- The or of the mask along row r: set exactly when some s passes. -/
theorem v78_apply (r : Fin 4096) :
    val_main_v78 (F := Ideal) a p n (ix1 r) = 1#1 ↔ ∃ s, Spec.rowDist a n r < Spec.dist a p r s := by
  unfold val_main_v78
  rw [reduce_d1_apply, val_main_c_22_apply, foldOr_eq_one_iff]
  exact exists_congr fun s => v77_apply a p n r s

/-- The minimum of the masked distances along row r, from +∞. -/
theorem v80_apply (r : Fin 4096) :
    val_main_v80 (F := Ideal) a p n (ix1 r)
      = (Finset.univ : Finset (Fin 4096)).fold min ⊤ (Spec.maskedAboveT a p (Spec.rowDist a n) r) := by
  unfold val_main_v80
  rw [reduce_d1_apply, val_main_cst_24_apply, Ideal.ofBits_def, ofBits_posInf]
  have hf : (fun s => val_main_v79 (F := Ideal) a p n (ix2 r s)) = Spec.maskedAboveT a p (Spec.rowDist a n) r :=
    funext fun s => v79_apply a p n r s
  rw [hf]
  rfl

/-- The hardest positive of anchor r as the reference computes it, for real a and p: the two spellings of "no
    candidate" (no s passes; the minimum is still +∞) agree because a passing distance is never +∞. -/
theorem v81_apply (hp : ∀ i, p i ≠ ⊤ ∧ p i ≠ ⊥) (ha : ∀ i, a i ≠ ⊤ ∧ a i ≠ ⊥) (r : Fin 4096) :
    val_main_v81 (F := Ideal) a p n (ix1 r) = Spec.hardPos a p n r := by
  rw [val_main_v81_apply, val_main_call5_v1_apply, val_main_call5_v0_apply, val_main_cst_25_apply, Ideal.ofBits_def,
    Ideal.ofBits_zero_f32, v80_apply, select_eq_ite _ _ (v78_apply a p n r)]
  unfold Spec.hardPos
  rw [Cert.SpecFacts.hardPosT_eq_any (x := a) (y := p) ha hp]

/-! ### The means and the loss -/

/-- A sum over the indices of a 4096-vector is the sum over its coordinate. -/
theorem sum_S4096 (f : S4096.Idx → EReal) : ∑ j : S4096.Idx, f j = ∑ r : Fin 4096, f (ix1 r) :=
  (Equiv.sum_comp (idxEquiv1 (n := 4096)).symm f).symm

/-- The mean of the hardest negatives. -/
theorem v45_apply (i : S_.Idx) : val_main_v45 (F := Ideal) a p n i = Spec.mean (Spec.hardNeg a n p) := by
  rw [val_main_v45_apply, val_main_v44_apply, sum_S4096]
  simp only [val_main_cst_12_apply, val_main_cst_13_apply, Ideal.hostDivf_def, Ideal.ofBits_def, Ideal.ofBits_zero_f32,
    zero_add, v43_apply]
  rfl

/-- The mean of the hardest positives. -/
theorem v83_apply (hp : ∀ i, p i ≠ ⊤ ∧ p i ≠ ⊥) (ha : ∀ i, a i ≠ ⊤ ∧ a i ≠ ⊥) (i : S_.Idx) :
    val_main_v83 (F := Ideal) a p n i = Spec.mean (Spec.hardPos a p n) := by
  rw [val_main_v83_apply, val_main_v82_apply, sum_S4096]
  simp only [val_main_cst_26_apply, val_main_cst_27_apply, Ideal.hostDivf_def, Ideal.ofBits_def, Ideal.ofBits_zero_f32,
    zero_add, v81_apply a p n hp ha]
  rfl

/-- The clipped term of anchor r: max(0, d(a,p)(r) − ½·mean(hardest positives) − ½·mean(hardest negatives) + 1). -/
theorem v92_apply (hp : ∀ i, p i ≠ ⊤ ∧ p i ≠ ⊥) (ha : ∀ i, a i ≠ ⊤ ∧ a i ≠ ⊥) (r : Fin 4096) :
    val_main_v92 (F := Ideal) a p n (ix1 r)
      = max 0 (Spec.rowDist a p r - Spec.half * Spec.mean (Spec.hardPos a p n)
          - Spec.half * Spec.mean (Spec.hardNeg a n p) + Spec.one) := by
  rw [val_main_v92_apply, val_main_call6_v1_apply, val_main_call6_v0_apply, val_main_cst_31_apply, val_main_v91_apply,
    val_main_v90_apply, val_main_cst_30_apply, val_main_v89_apply, val_main_v86_apply, val_main_v88_apply,
    val_main_v87_apply, val_main_cst_29_apply, val_main_v85_apply, val_main_v84_apply, val_main_cst_28_apply,
    v45_apply, v83_apply a p n hp ha, v3_apply]
  simp only [Ideal.maximumf_def, Ideal.addf_def, Ideal.subf_def, Ideal.mulf_def, Ideal.ofBits_def, Ideal.ofBits_zero_f32]

/-- The reference's result: the loss. -/
theorem v94_eq (ha : ∀ i, a i ≠ ⊤ ∧ a i ≠ ⊥) (hp : ∀ i, p i ≠ ⊤ ∧ p i ≠ ⊥) (hn : ∀ i, n i ≠ ⊤ ∧ n i ≠ ⊥) :
    val_main_v94 (F := Ideal) a p n = fun _ => Spec.loss a p n := by
  funext i
  rw [val_main_v94_apply, val_main_v93_apply, sum_S4096]
  simp only [val_main_cst_32_apply, val_main_cst_33_apply, Ideal.hostDivf_def, Ideal.ofBits_def, Ideal.ofBits_zero_f32,
    zero_add, v92_apply a p n hp ha]
  rfl

end Cert.RefValue

end
-- ==== Proof.LibFiniteEntries.lean ====
/-
  A finiteness precondition read back, one array at a time (a general lemma: nothing here depends on a program).

  A precondition "every entry of a is finite" compares the absolute value of each entry with plus infinity and
  takes the conjunction over the array.  At the exact values an extended real whose absolute value is below plus
  infinity is neither infinity, so it is a real number; hence, when the conjunction over the whole array is true,
  every entry of the array is a real number.  Any shape, any reduced axes as long as the result has one index.
-/
import Idealize.ShloMosaic.Lib.ReduceAll
import Idealize.ShloMosaic.Lib.ValueIdx
import Idealize.ShloMosaic.PureOps.Ideal

noncomputable section

namespace Cert.Lib.FiniteEntries

open Idealize.ShloMosaic

/-- The f32 pattern 0x7F800000 denotes plus infinity. -/
theorem ofBits_inf_f32 : Ideal.ofBits .f32 0x7F800000#32 = ⊤ := by simp [Ideal.ofBits, Ideal.ieee]

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

/-- When the conjunction over a whole f32 array of "absolute value below plus infinity" is true, every entry of the
    array is a real number. -/
theorem reals_of_all_abs_lt {s u t : Shape} {axes : List (Fin s.rank)} [Subsingleton t.Idx] (a : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf a) (broadcastInDim s ![] hb (constant (F := Ideal) ⟨0, ![]⟩ .f32 0x7F800000#32))) init h hu j = 1#1) :
    ∀ i, ∃ r : ℝ, a i = (r : EReal) :=
  fun i => real_of_abs_lt _ (Host.reduce_andi_all _ _ _ _ _ e i)

end Cert.Lib.FiniteEntries

end
-- ==== Proof.Finite.lean ====
/-
  From the precondition to the reals: when the printed predicate "every entry of the three arrays has absolute value
  below +∞" is true, every entry of each array is a real number (an extended real that is neither +∞ nor −∞).
-/
import proofs.«110565_j10264971838200_1_alg».proof.Defs
import proofs.«110565_j10264971838200_1_alg».proof.Proof.Gen.Pre_finite_inputs
import proofs.«110565_j10264971838200_1_alg».proof.Proof.LibFiniteEntries
import proofs.«110565_j10264971838200_1_alg».proof.Proof.SpecFacts
import Idealize.ShloMosaic.Lib.ReduceAll
import Idealize.ShloMosaic.Lib.Affine
import Idealize.ShloMosaic.Lib.ValueIdx

noncomputable section

namespace Cert.Proof.Finite

open Idealize.ShloMosaic Cert.Pre_finite_inputs

instance : Subsingleton S_.Idx := ⟨fun a b => funext fun d => d.elim0⟩

/-- The conjunction of the three "all entries finite" tests is true only if each array's entries are all real. -/
theorem reals_of_pre (x0 x1 x2 : FVec Ideal S4096x1024 .f32)
    (h : Cert.Pre_finite_inputs.fn (F := Ideal) x0 x1 x2 = fun _ => 1#1) :
    Cert.SpecFacts.IsReal x0 ∧ Cert.SpecFacts.IsReal x1 ∧ Cert.SpecFacts.IsReal x2 := by
  have h0 := congrFun h ValueIdx.ix0
  dsimp only [Cert.Pre_finite_inputs.fn, andi] at h0
  obtain ⟨h01, h2⟩ := IntOp.andi_eq_one.mp h0
  obtain ⟨h0', h1⟩ := IntOp.andi_eq_one.mp h01
  refine ⟨(Cert.SpecFacts.isReal_iff_forall_exists x0).mpr ?_, (Cert.SpecFacts.isReal_iff_forall_exists x1).mpr ?_,
    (Cert.SpecFacts.isReal_iff_forall_exists x2).mpr ?_⟩
  · exact Cert.Lib.FiniteEntries.reals_of_all_abs_lt x0 _ _ _ _ _ h0'
  · exact Cert.Lib.FiniteEntries.reals_of_all_abs_lt x1 _ _ _ _ _ h1
  · exact Cert.Lib.FiniteEntries.reals_of_all_abs_lt x2 _ _ _ _ _ h2

end Cert.Proof.Finite

end
-- ==== Proof.lean ====
/-
  The certificate of the triplet loss with hardest-example mining: a Pallas kernel program of three regions (the row
  distances; the hardest negative of every anchor; the hardest positive of every anchor) and a host tail, against the
  plain array program that materialises both 4096 × 4096 matrices of pairwise distances.

  At the ideal instance both programs return Spec.loss of the three argument matrices (Proof/Spec.lean):
  * the kernel side: each region's proof data name what its body leaves point by point (Proof/R0, R1, R2: the mining
    regions carry a scratch column of running extrema from grid point to grid point), the run of the whole @main names
    every buffer at the end (Proof/Run), each output array is read as a whole-array function (Proof/KValue0, KValue1,
    KValue2: the running extremum over four blocks of 1024 candidates is the extremum over all 4096), and the host tail
    is the mean of the clipped margins (Proof/KTail, Proof/KValue);
  * the reference side: its run, stretch by stretch, ends at the last stage of the program read one operation at a time
    (Proof/RefRunH), and that stage is the same loss (Proof/RefValueA, RefValueB): "no candidate passes the threshold"
    is "the extremum over the masked distances is still the fold's neutral element", which for the minimum needs the
    distances finite, hence the precondition (Proof/Finite, Proof/SpecFacts).
  The frames of the two kernel programs are the same run with the result forgotten (Proof/Frames; the word-level
  program's modules Proof/KR0, KR1, KR2, KRun are the idealized program's, which are stated at any float instance);
  the reference's frame is its run with the result forgotten. The ideal pass rewrote nothing, so there is nothing to
  preserve.
-/
import proofs.«110565_j10264971838200_1_alg».proof.Defs
import proofs.«110565_j10264971838200_1_alg».proof.Proof.Gen.Kernel
import proofs.«110565_j10264971838200_1_alg».proof.Proof.Gen.KernelIdeal
import proofs.«110565_j10264971838200_1_alg».proof.Proof.Gen.ReferenceIdeal
import proofs.«110565_j10264971838200_1_alg».proof.Proof.Gen.Pre_finite_inputs
import proofs.«110565_j10264971838200_1_alg».proof.Proof.Frames
import proofs.«110565_j10264971838200_1_alg».proof.Proof.KValue
import proofs.«110565_j10264971838200_1_alg».proof.Proof.RefRunH
import proofs.«110565_j10264971838200_1_alg».proof.Proof.RefValueB
import proofs.«110565_j10264971838200_1_alg».proof.Proof.Finite

noncomputable section

namespace Cert.Proof

open Idealize.ShloMosaic Idealize.SL.Sem

/-- The reference runs and leaves its arguments unchanged: its run with the result forgotten. -/
theorem frame_ref : Cert.frame_ReferenceIdeal := fun m ρ _ =>
  (θ_run Cert.ReferenceIdeal.defs _ _).mono (fun _ h c => (h c).2) (Cert.ReferenceIdeal.RunH.run (F := Ideal) m ρ)

/-- From memories that agree on the three matrices, both programs return the loss of those matrices. -/
theorem algebraic : Cert.algebraic_KernelIdeal_ReferenceIdeal := by
  intro m ρ m' ρ' hpre hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Hand.run_main (F := Ideal) m ρ)
    · exact (h c _ (Cert.KernelIdeal.Hand.mem_uc Cert.KernelIdeal.main_v18 (by decide))).trans (Cert.KernelIdeal.HandV.result_eq m ρ c)
    · exact (h c _ (Cert.KernelIdeal.Hand.mem_uc Cert.KernelIdeal.main_arg0 (by decide))).trans (Cert.KernelIdeal.Hand.W6_main_arg0 m ρ c)
    · exact (h c _ (Cert.KernelIdeal.Hand.mem_uc Cert.KernelIdeal.main_arg1 (by decide))).trans (Cert.KernelIdeal.Hand.W6_main_arg1 m ρ c)
    · exact (h c _ (Cert.KernelIdeal.Hand.mem_uc Cert.KernelIdeal.main_arg2 (by decide))).trans (Cert.KernelIdeal.Hand.W6_main_arg2 m ρ c)
  · refine (θ_run Cert.ReferenceIdeal.defs _ _).mono (fun r h c => ⟨(h c).1.trans ?_, (h c).2⟩) (Cert.ReferenceIdeal.RunH.run (F := Ideal) m' ρ')
    obtain ⟨ha, hp, hn⟩ := Cert.Proof.Finite.reals_of_pre _ _ _ (hpre c)
    rw [(hagree c).1, (hagree c).2.1, (hagree c).2.2]
    exact Cert.RefValue.v94_eq _ _ _ ha hp hn

/-- The certificate: the three frames, nothing to preserve, and the equivalence at the ideal instance. -/
theorem claim : Cert.Claim := ⟨Cert.Kernel.Gen.facts, Cert.KernelIdeal.Gen.facts, Cert.ReferenceIdeal.Gen.facts, Cert.Pre_finite_inputs.Gen.facts,
  Cert.Proof.Frames.frame_kernel, Cert.Proof.Frames.frame_kernelIdeal, frame_ref, trivial, algebraic⟩

end Cert.Proof

end
